-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S50000 : Shape := ⟨1, ![50000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part7 {F : FTy → Type} [FloatOps F] (main_v114 : IVec S_ 1) (main_v119 : IVec S_ 1) : IVec S_ 1 :=
  let main_v120 : IVec S_ 1 := andi main_v114 main_v119
  main_v120

def fn_part6 {F : FTy → Type} [FloatOps F] (main_arg1 : IVec S2x800000 32) (main_arg23 : FVec F S1 .f32) (main_v98 : IVec S_ 1) (main_v101 : IVec S128x1 1) (main_c_39 : IVec S_ 1) : IVec S_ 1 :=
  let main_v102 : IVec S_ 1 := (fun x v => Host.reduce IntOp.andi x v reducesTo_S128x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : IVec S1x800000 32 := (extractStridedSlice S1x800000 ![0, 0] · slices_S2x800000_S1x800000_0_0) main_arg1
  let main_v110 : IVec S800000 32 := shapeCast S800000 main_v109 shapeCasts_S1x800000_S800000
  let main_c_42 : IVec S_ 32 := constantI S_ 32 0#32
  let main_v111 : IVec S800000 32 := broadcastInDim S800000 ![] bcast_S_S800000 main_c_42
  let main_v112 : IVec S800000 1 := cmpi .sge main_v110 main_v111
  let main_c_43 : IVec S_ 1 := constantI S_ 1 1#1
  let main_v113 : IVec S_ 1 := (fun x v => Host.reduce IntOp.andi x v reducesTo_S800000_S_d0 h_S_) main_v112 main_c_43
  let main_v114 : IVec S_ 1 := andi main_v108 main_v113
  let main_v115 : IVec S1x800000 32 := (extractStridedSlice S1x800000 ![0, 0] · slices_S2x800000_S1x800000_0_0) main_arg1
  let main_v116 : IVec S800000 32 := shapeCast S800000 main_v115 shapeCasts_S1x800000_S800000
  let main_c_44 : IVec S_ 32 := constantI S_ 32 50000#32
  let main_v117 : IVec S800000 32 := broadcastInDim S800000 ![] bcast_S_S800000 main_c_44
  let main_v118 : IVec S800000 1 := cmpi .slt main_v116 main_v117
  let main_c_45 : IVec S_ 1 := constantI S_ 1 1#1
  let main_v119 : IVec S_ 1 := (fun x v => Host.reduce IntOp.andi x v reducesTo_S800000_S_d0 h_S_) main_v118 main_c_45
  fn_part7 (F := F) main_v114 main_v119

def fn_part5 {F : FTy → Type} [FloatOps F] (main_arg1 : IVec S2x800000 32) (main_arg20 : FVec F S256x128 .f32) (main_arg21 : FVec F S128 .f32) (main_arg22 : FVec F S128x1 .f32) (main_arg23 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x1 .f32 := Host.absf main_arg22
  let main_cst_38 : FVec F S_ .f32 := constant S_ .f32 0x7F800000#32
  let main_v100 : FVec F S128x1 .f32 := broadcastInDim S128x1 ![] bcast_S_S128x1 main_cst_38
  let main_v101 : IVec S128x1 1 := cmpf .olt main_v99 main_v100
  let main_c_39 : IVec S_ 1 := constantI S_ 1 1#1
  fn_part6 (F := F) main_arg1 main_arg23 main_v98 main_v101 main_c_39

def fn_part4 {F : FTy → Type} [FloatOps F] (main_arg1 : IVec S2x800000 32) (main_arg16 : FVec F S256x256 .f32) (main_arg17 : FVec F S256 .f32) (main_arg18 : FVec F S256 .f32) (main_arg19 : FVec F S256 .f32) (main_arg20 : FVec F S256x128 .f32) (main_arg21 : FVec F S128 .f32) (main_arg22 : FVec F S128x1 .f32) (main_arg23 : FVec F S1 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg1 main_arg20 main_arg21 main_arg22 main_arg23 main_v83 main_v84 main_cst_32

def fn_part3 {F : FTy → Type} [FloatOps F] (main_arg1 : IVec S2x800000 32) (main_arg13 : FVec F S256 .f32) (main_arg14 : FVec F S256x256 .f32) (main_arg15 : FVec F S256 .f32) (main_arg16 : FVec F S256x256 .f32) (main_arg17 : FVec F S256 .f32) (main_arg18 : FVec F S256 .f32) (main_arg19 : FVec F S256 .f32) (main_arg20 : FVec F S256x128 .f32) (main_arg21 : FVec F S128 .f32) (main_arg22 : FVec F S128x1 .f32) (main_arg23 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg16 main_arg17 main_arg18 main_arg19 main_arg20 main_arg21 main_arg22 main_arg23 main_v63 main_v67

def fn_part2 {F : FTy → Type} [FloatOps F] (main_arg1 : IVec S2x800000 32) (main_arg9 : FVec F S256 .f32) (main_arg10 : FVec F S256 .f32) (main_arg11 : FVec F S256 .f32) (main_arg12 : FVec F S1x256 .f32) (main_arg13 : FVec F S256 .f32) (main_arg14 : FVec F S256x256 .f32) (main_arg15 : FVec F S256 .f32) (main_arg16 : FVec F S256x256 .f32) (main_arg17 : FVec F S256 .f32) (main_arg18 : FVec F S256 .f32) (main_arg19 : FVec F S256 .f32) (main_arg20 : FVec F S256x128 .f32) (main_arg21 : FVec F S128 .f32) (main_arg22 : FVec F S128x1 .f32) (main_arg23 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg12
  let main_cst_18 : FVec F S_ .f32 := constant S_ .f32 0x7F800000#32
  let main_v50 : FVec F S1x256 .f32 := broadcastInDim S1x256 ![] bcast_S_S1x256 main_cst_18
  fn_part3 (F := F) main_arg1 main_arg13 main_arg14 main_arg15 main_arg16 main_arg17 main_arg18 main_arg19 main_arg20 main_arg21 main_arg22 main_arg23 main_v48 main_v49 main_v50

def fn_part1 {F : FTy → Type} [FloatOps F] (main_arg1 : IVec S2x800000 32) (main_arg6 : FVec F S128x256 .f32) (main_arg7 : FVec F S256 .f32) (main_arg8 : FVec F S256x256 .f32) (main_arg9 : FVec F S256 .f32) (main_arg10 : FVec F S256 .f32) (main_arg11 : FVec F S256 .f32) (main_arg12 : FVec F S1x256 .f32) (main_arg13 : FVec F S256 .f32) (main_arg14 : FVec F S256x256 .f32) (main_arg15 : FVec F S256 .f32) (main_arg16 : FVec F S256x256 .f32) (main_arg17 : FVec F S256 .f32) (main_arg18 : FVec F S256 .f32) (main_arg19 : FVec F S256 .f32) (main_arg20 : FVec F S256x128 .f32) (main_arg21 : FVec F S128 .f32) (main_arg22 : FVec F S128x1 .f32) (main_arg23 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : FVec F S800000x1 .f32) (main_arg3 : IVec S50000 32) (main_arg4 : FVec F S1x128 .f32) (main_arg5 : FVec F S128 .f32) (main_arg6 : FVec F S128x256 .f32) (main_arg7 : FVec F S256 .f32) (main_arg8 : FVec F S256x256 .f32) (main_arg9 : FVec F S256 .f32) (main_arg10 : FVec F S256 .f32) (main_arg11 : FVec F S256 .f32) (main_arg12 : FVec F S1x256 .f32) (main_arg13 : FVec F S256 .f32) (main_arg14 : FVec F S256x256 .f32) (main_arg15 : FVec F S256 .f32) (main_arg16 : FVec F S256x256 .f32) (main_arg17 : FVec F S256 .f32) (main_arg18 : FVec F S256 .f32) (main_arg19 : FVec F S256 .f32) (main_arg20 : FVec F S256x128 .f32) (main_arg21 : FVec F S128 .f32) (main_arg22 : FVec F S128x1 .f32) (main_arg23 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S50000 : Shape := ⟨1, ![50000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S1x1 : Shape := ⟨2, ![1, 1]⟩
abbrev S800000x128 : Shape := ⟨2, ![800000, 128]⟩
abbrev S4000x128 : Shape := ⟨2, ![4000, 128]⟩
abbrev S4000x1 : Shape := ⟨2, ![4000, 1]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩
abbrev S800000x256 : Shape := ⟨2, ![800000, 256]⟩
abbrev S4000x256 : Shape := ⟨2, ![4000, 256]⟩
abbrev S50000x1 : Shape := ⟨2, ![50000, 1]⟩
abbrev S64 : Shape := ⟨1, ![64]⟩
abbrev S64x256 : Shape := ⟨2, ![64, 256]⟩
abbrev S64x1 : Shape := ⟨2, ![64, 1]⟩
abbrev S64x128 : Shape := ⟨2, ![64, 128]⟩

abbrev nBuf : Space → Nat
  | .hbm => 119
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S50000, .i32⟩
  | .hbm, ⟨4, _⟩ => ⟨S1x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256x128, .f32⟩
  | .hbm, ⟨21, _⟩ => ⟨S128, .f32⟩
  | .hbm, ⟨22, _⟩ => ⟨S128x1, .f32⟩
  | .hbm, ⟨23, _⟩ => ⟨S1, .f32⟩
  | .hbm, ⟨24, _⟩ => ⟨S1x800000, .i32⟩
  | .hbm, ⟨25, _⟩ => ⟨S800000, .i32⟩
  | .hbm, ⟨26, _⟩ => ⟨S1x800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S1, .i32⟩
  | .hbm, ⟨37, _⟩ => ⟨S_, .i32⟩
  | .hbm, ⟨38, _⟩ => ⟨S800000x1, .i32⟩
  | .hbm, ⟨39, _⟩ => ⟨S800000x1, .i1⟩
  | .hbm, ⟨40, _⟩ => ⟨S1x1, .i32⟩
  | .hbm, ⟨41, _⟩ => ⟨S800000x1, .i32⟩
  | .hbm, ⟨42, _⟩ => ⟨S800000x1, .i1⟩
  | .hbm, ⟨43, _⟩ => ⟨S800000x1, .i1⟩
  | .hbm, ⟨44, _⟩ => ⟨S_, .i1⟩
  | .hbm, ⟨45, _⟩ => ⟨S800000, .i1⟩
  | .hbm, ⟨46, _⟩ => ⟨S800000x128, .f32⟩
  | .hbm, ⟨47, _⟩ => ⟨S800000x128, .i1⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S1x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S1, .i32⟩
  | .hbm, ⟨71, _⟩ => ⟨S_, .i32⟩
  | .hbm, ⟨72, _⟩ => ⟨S800000x1, .i32⟩
  | .hbm, ⟨73, _⟩ => ⟨S800000x1, .i1⟩
  | .hbm, ⟨74, _⟩ => ⟨S1x1, .i32⟩
  | .hbm, ⟨75, _⟩ => ⟨S800000x1, .i32⟩
  | .hbm, ⟨76, _⟩ => ⟨S800000x1, .i1⟩
  | .hbm, ⟨77, _⟩ => ⟨S800000x1, .i1⟩
  | .hbm, ⟨78, _⟩ => ⟨S_, .i1⟩
  | .hbm, ⟨79, _⟩ => ⟨S800000, .i1⟩
  | .hbm, ⟨80, _⟩ => ⟨S800000x256, .f32⟩
  | .hbm, ⟨81, _⟩ => ⟨S800000x256, .i1⟩
  | .hbm, ⟨82, _⟩ => ⟨S_, .f32⟩
  | .hbm, ⟨83, _⟩ => ⟨S800000x256, .f32⟩
  | .hbm, ⟨84, _⟩ => ⟨S800000x256, .f32⟩
  | .hbm, ⟨85, _⟩ => ⟨S1x256, .f32⟩
  | .hbm, ⟨86, _⟩ => ⟨S800000x256, .f32⟩
  | .hbm, ⟨87, _⟩ => ⟨S_, .f32⟩
  | .hbm, ⟨88, _⟩ => ⟨S50000x256, .f32⟩
  | .hbm, ⟨89, _⟩ => ⟨S800000x1, .i32⟩
  | .hbm, ⟨90, _⟩ => ⟨S50000x256, .f32⟩
  | .hbm, ⟨91, _⟩ => ⟨S1x256, .f32⟩
  | .hbm, ⟨92, _⟩ => ⟨S1x256, .f32⟩
  | .hbm, ⟨93, _⟩ => ⟨S1x256, .f32⟩
  | .hbm, ⟨94, _⟩ => ⟨S1x256, .f32⟩
  | .hbm, ⟨95, _⟩ => ⟨S50000x256, .f32⟩
  | .hbm, ⟨96, _⟩ => ⟨S1x128, .f32⟩
  | .hbm, ⟨97, _⟩ => ⟨S1x1, .f32⟩
  | .hbm, ⟨98, _⟩ => ⟨S50000x1, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S64, .f32⟩
  | .hbm, ⟨103, _⟩ => ⟨S50000x1, .i32⟩
  | .hbm, ⟨104, _⟩ => ⟨S64, .f32⟩
  | .hbm, ⟨105, _⟩ => ⟨S_, .f32⟩
  | .hbm, ⟨106, _⟩ => ⟨S64x256, .f32⟩
  | .hbm, ⟨107, _⟩ => ⟨S50000x1, .i32⟩
  | .hbm, ⟨108, _⟩ => ⟨S64x256, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x256, .f32⟩
  | .hbm, ⟨114, _⟩ => ⟨S64x256, .f32⟩
  | .hbm, ⟨115, _⟩ => ⟨S1x128, .f32⟩
  | .hbm, ⟨116, _⟩ => ⟨S1x1, .f32⟩
  | .hbm, ⟨117, _⟩ => ⟨S64x1, .f32⟩
  | .hbm, ⟨118, _⟩ => ⟨S64, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S1x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S4000x256, .f32⟩
  | .local _ .vmem, ⟨21, _⟩ => ⟨S4000x256, .f32⟩
  | .local _ .vmem, ⟨22, _⟩ => ⟨S4000x1, .f32⟩
  | .local _ .vmem, ⟨23, _⟩ => ⟨S4000x1, .f32⟩
  | .local _ .vmem, ⟨24, _⟩ => ⟨S1x256, .f32⟩
  | .local _ .vmem, ⟨25, _⟩ => ⟨S1x256, .f32⟩
  | .local _ .vmem, ⟨26, _⟩ => ⟨S4000x256, .f32⟩
  | .local _ .vmem, ⟨27, _⟩ => ⟨S4000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S256x128, .f32⟩
  | .local _ .vmem, ⟨43, _⟩ => ⟨S1x128, .f32⟩
  | .local _ .vmem, ⟨44, _⟩ => ⟨S128x1, .f32⟩
  | .local _ .vmem, ⟨45, _⟩ => ⟨S1x1, .f32⟩
  | .local _ .vmem, ⟨46, _⟩ => ⟨S2000x1, .f32⟩
  | .local _ .vmem, ⟨47, _⟩ => ⟨S2000x1, .f32⟩
  | .local _ .vmem, ⟨48, _⟩ => ⟨S64x256, .f32⟩
  | .local _ .vmem, ⟨49, _⟩ => ⟨S256x128, .f32⟩
  | .local _ .vmem, ⟨50, _⟩ => ⟨S1x128, .f32⟩
  | .local _ .vmem, ⟨51, _⟩ => ⟨S128x1, .f32⟩
  | .local _ .vmem, ⟨52, _⟩ => ⟨S1x1, .f32⟩
  | .local _ .vmem, ⟨53, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_cst_0 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_cst_1 : Ref sig .tc := ⟨.hbm, 99, rfl⟩
abbrev main_v29 : Ref sig .tc := ⟨.hbm, 100, rfl⟩
abbrev main_cst_2 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_cst_3 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_cst_4 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem5_0 : DmaSem sig := 53

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S4000x1_S4000x256 : S4000x1.Broadcasts S4000x256
  broadcasts_S1x256_S4000x256 : S1x256.Broadcasts S4000x256
  bcast_S_S50000x256 : S_.BroadcastsInDim S50000x256 (![] : Fin 0 → Fin S50000x256.rank)
  shapeCasts_S2000x256_S2000x256 : S2000x256.ShapeCasts S2000x256
  shapeCasts_S1_S1x1 : S1.ShapeCasts S1x1
  inb_S256x128_S256x128_0_0 : ∀ a, (![0, 0] : Fin 2 → Nat) a + S256x128.size a ≤ S256x128.size a
  h_S256x128 : 0 < S256x128.numel
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S1x128_S64x128 : S1x128.Broadcasts S64x128
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S800000x1.size a
  hwx0_1 : ∀ i : grid0.Coords, EltTy.bits .f32 = 32 ∨ (Rect.block (s := S800000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S800000x128.size a
  hwx0_4 : ∀ i : grid0.Coords, EltTy.bits .f32 = 32 ∨ (Rect.block (s := S800000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S800000x256.size a
  hwx2_0 : ∀ i : grid2.Coords, EltTy.bits .f32 = 32 ∨ (Rect.block (s := S800000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S800000x1.size a
  hwx2_1 : ∀ i : grid2.Coords, EltTy.bits .f32 = 32 ∨ (Rect.block (s := S800000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S800000x256.size a
  hwx2_4 : ∀ i : grid2.Coords, EltTy.bits .f32 = 32 ∨ (Rect.block (s := S800000x256) S4000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S50000x1.size a
  hwx4_5 : ∀ i : grid4.Coords, EltTy.bits .f32 = 32 ∨ (Rect.block (s := S50000x1) S2000x1.size (cc4_transform_5 i) (hinb4_5 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x256.size a ≤ S64x256.size a
  hwx5_0 : ∀ i : grid5.Coords, EltTy.bits .f32 = 32 ∨ (Rect.block (s := S64x256) S64x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 false = 1
  hreads5_5 : ∀ i i' : grid5.Coords, (∀ a, reads5_5 a = true → i a = i' a) → cc5_transform_5 i = cc5_transform_5 i'
  hinb5_5 : ∀ (i : grid5.Coords) a, (cc5_transform_5 i a + 1) * S64x1.size a ≤ S64x1.size a
  hwx5_5 : ∀ i : grid5.Coords, EltTy.bits .f32 = 32 ∨ (Rect.block (s := S64x1) S64x1.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v15) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S4000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v23) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v24) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v25) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v25) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg20) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg22) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v27) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v28) S2000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v40) S64x256.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg20) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v41) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg22) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v42) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S64x1.size cc5_transform_5 reads5_5 true false 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S50000 : Shape := ⟨1, ![50000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000x256 : Shape := ⟨2, ![50000, 256]⟩
abbrev S50000x1 : Shape := ⟨2, ![50000, 1]⟩
abbrev S800000x256 : Shape := ⟨2, ![800000, 256]⟩
abbrev S1x1 : Shape := ⟨2, ![1, 1]⟩
abbrev S64 : Shape := ⟨1, ![64]⟩
abbrev S64x256 : Shape := ⟨2, ![64, 256]⟩
abbrev S64x1 : Shape := ⟨2, ![64, 1]⟩
abbrev S64x128 : Shape := ⟨2, ![64, 128]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S50000, .i32⟩
  | 4 => ⟨S1x128, .f32⟩
  | 5 => ⟨S128, .f32⟩
  | 6 => ⟨S128x256, .f32⟩
  | 7 => ⟨S256, .f32⟩
  | 8 => ⟨S256x256, .f32⟩
  | 9 => ⟨S256, .f32⟩
  | 10 => ⟨S256, .f32⟩
  | 11 => ⟨S256, .f32⟩
  | 12 => ⟨S1x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256, .f32⟩
  | 19 => ⟨S256, .f32⟩
  | 20 => ⟨S256x128, .f32⟩
  | 21 => ⟨S128, .f32⟩
  | 22 => ⟨S128x1, .f32⟩
  | 23 => ⟨S1, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x128, .f32⟩
  | 38 => ⟨S800000x128, .f32⟩
  | 39 => ⟨S1x128, .f32⟩
  | 40 => ⟨S800000x128, .f32⟩
  | 41 => ⟨S800000x128, .f32⟩
  | 42 => ⟨S_, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S50000x256, .f32⟩
  | 51 => ⟨S1x256, .f32⟩
  | 52 => ⟨S50000x256, .f32⟩
  | 53 => ⟨S50000x256, .f32⟩
  | 54 => ⟨S_, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000, .f32⟩
  | 63 => ⟨S50000x1, .f32⟩
  | 64 => ⟨S_, .f32⟩
  | 65 => ⟨S50000x1, .f32⟩
  | 66 => ⟨S50000x1, .f32⟩
  | 67 => ⟨S50000x256, .f32⟩
  | 68 => ⟨S50000x256, .f32⟩
  | 69 => ⟨S50000x256, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x256, .f32⟩
  | 77 => ⟨S50000x256, .f32⟩
  | 78 => ⟨S_, .f32⟩
  | 79 => ⟨S50000x1, .f32⟩
  | 80 => ⟨S50000x1, .f32⟩
  | 81 => ⟨S50000x1, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S_, .f32⟩
  | 91 => ⟨S50000x256, .f32⟩
  | 92 => ⟨S50000x256, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x256, .f32⟩
  | 102 => ⟨S800000x256, .f32⟩
  | 103 => ⟨S800000x256, .f32⟩
  | 104 => ⟨S1x256, .f32⟩
  | 105 => ⟨S800000x256, .f32⟩
  | 106 => ⟨S800000x256, .f32⟩
  | 107 => ⟨S_, .f32⟩
  | 108 => ⟨S800000x256, .f32⟩
  | 109 => ⟨S800000x256, .f32⟩
  | 110 => ⟨S_, .f32⟩
  | 111 => ⟨S50000x256, .f32⟩
  | 112 => ⟨S800000x1, .i32⟩
  | 113 => ⟨S50000x256, .f32⟩
  | 114 => ⟨S50000x256, .f32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S50000, .f32⟩
  | _ => ⟨S50000x128, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x256, .f32⟩
  | 5 => ⟨S50000x256, .f32⟩
  | 6 => ⟨S50000x256, .f32⟩
  | 7 => ⟨S_, .f32⟩
  | 8 => ⟨S50000, .f32⟩
  | 9 => ⟨S50000x1, .f32⟩
  | 10 => ⟨S_, .f32⟩
  | 11 => ⟨S50000x1, .f32⟩
  | 12 => ⟨S50000x1, .f32⟩
  | 13 => ⟨S50000x256, .f32⟩
  | 14 => ⟨S50000x256, .f32⟩
  | 15 => ⟨S_, .f32⟩
  | 16 => ⟨S50000x1, .f32⟩
  | 17 => ⟨S50000x1, .f32⟩
  | 18 => ⟨S50000x1, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S50000x1, .f32⟩
  | 38 => ⟨S1x1, .f32⟩
  | 39 => ⟨S50000x1, .f32⟩
  | 40 => ⟨S50000x1, .f32⟩
  | 41 => ⟨S_, .f32⟩
  | 42 => ⟨S50000, .f32⟩
  | 43 => ⟨S_, .f32⟩
  | 44 => ⟨S64, .f32⟩
  | 45 => ⟨S50000x1, .i32⟩
  | 46 => ⟨S64, .f32⟩
  | 47 => ⟨S_, .f32⟩
  | 48 => ⟨S64x256, .f32⟩
  | 49 => ⟨S50000x1, .i32⟩
  | 50 => ⟨S64x256, .f32⟩
  | 51 => ⟨S_, .f32⟩
  | 52 => ⟨S64, .f32⟩
  | 53 => ⟨S64, .f32⟩
  | 54 => ⟨S64x1, .f32⟩
  | 55 => ⟨S64x256, .f32⟩
  | 56 => ⟨S64x256, .f32⟩
  | 57 => ⟨S64x128, .f32⟩
  | 58 => ⟨S1x128, .f32⟩
  | 59 => ⟨S64x128, .f32⟩
  | 60 => ⟨S64x128, .f32⟩
  | 61 => ⟨S_, .f32⟩
  | 62 => ⟨S64x128, .f32⟩
  | 63 => ⟨S64x128, .f32⟩
  | 64 => ⟨S64x1, .f32⟩
  | 65 => ⟨S1x1, .f32⟩
  | 66 => ⟨S64x1, .f32⟩
  | 67 => ⟨S64x1, .f32⟩
  | 68 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call0_cst : Ref sig .tc := ⟨.hbm, 42, rfl⟩
abbrev main_call0_v0 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call1_cst : Ref sig .tc := ⟨.hbm, 54, rfl⟩
abbrev main_call1_v0 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_1 : Ref sig .tc := ⟨.hbm, 61, rfl⟩
abbrev main_v30 : Ref sig .tc := ⟨.hbm, 62, rfl⟩
abbrev main_v31 : Ref sig .tc := ⟨.hbm, 63, rfl⟩
abbrev main_cst_2 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_3 : Ref sig .tc := ⟨.hbm, 70, rfl⟩
abbrev main_v37 : Ref sig .tc := ⟨.hbm, 71, rfl⟩
abbrev main_v38 : Ref sig .tc := ⟨.hbm, 72, rfl⟩
abbrev main_cst_4 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_5 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_call2_cst : Ref sig .tc := ⟨.hbm, 90, rfl⟩
abbrev main_call2_v0 : Ref sig .tc := ⟨.hbm, 91, rfl⟩
abbrev main_v54 : Ref sig .tc := ⟨.hbm, 92, rfl⟩
abbrev main_c_6 : Ref sig .tc := ⟨.hbm, 93, rfl⟩
abbrev main_v55 : Ref sig .tc := ⟨.hbm, 94, rfl⟩
abbrev main_v56 : Ref sig .tc := ⟨.hbm, 95, rfl⟩
abbrev main_c_7 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_call3_cst : Ref sig .tc := ⟨.hbm, 107, rfl⟩
abbrev main_call3_v0 : Ref sig .tc := ⟨.hbm, 108, rfl⟩
abbrev main_v67 : Ref sig .tc := ⟨.hbm, 109, rfl⟩
abbrev main_cst_8 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_call4_cst : Ref sig .tc := ⟨.hbm, 119, rfl⟩
abbrev main_call4_v0 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_9 : Ref sig .tc := ⟨.hbm, 126, rfl⟩
abbrev main_v81 : Ref sig .tc := ⟨.hbm, 127, rfl⟩
abbrev main_v82 : Ref sig .tc := ⟨.hbm, 128, rfl⟩
abbrev main_cst_10 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_11 : Ref sig .tc := ⟨.hbm, 135, rfl⟩
abbrev main_v88 : Ref sig .tc := ⟨.hbm, 136, rfl⟩
abbrev main_v89 : Ref sig .tc := ⟨.hbm, 137, rfl⟩
abbrev main_cst_12 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_13 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_call5_cst : Ref sig .tc := ⟨.hbm, 155, rfl⟩
abbrev main_call5_v0 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_call6_cst : Ref sig .tc := ⟨.hbm, 162, rfl⟩
abbrev main_call6_v0 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_14 : Ref sig .tc := ⟨.hbm, 169, rfl⟩
abbrev main_v115 : Ref sig .tc := ⟨.hbm, 170, rfl⟩
abbrev main_cst_15 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_16 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_17 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_call7_cst : Ref sig .tc := ⟨.hbm, 189, rfl⟩
abbrev main_call7_v0 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000 : S_.BroadcastsInDim S50000 (![] : Fin 0 → Fin S50000.rank)
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1x1_S64x1_0_1 : S1x1.BroadcastsInDim S64x1 (![0, 1] : Fin 2 → Fin S64x1.rank)
  shapeCasts_S64x1_S64 : S64x1.ShapeCasts S64
  gather_S50000x128_S800000x1_S800000x128_1_0_n_n_0_1_1128_wf : GatherDims.WF S50000x128 S800000x1 S800000x128 [1] [0] [] [0] [] 1 ![1, 128]
  dot_S800000x1_S1x128_S800000x128_1_0_0_1_n_n_wf : DotDims.WF S800000x1 S1x128 S800000x128 [1] [0] [0] [1] [] []
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  dot_S800000x1_S1x256_S800000x256_1_0_0_1_n_n_wf : DotDims.WF S800000x1 S1x256 S800000x256 [1] [0] [0] [1] [] []
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x1_S1x256_S800000x256_1_0_0_1_n_n : DotDims S800000x1 S1x256 S800000x256 where
  lhsContracting := [1]
  rhsContracting := [0]
  lhsNonContracting := [0]
  rhsNonContracting := [1]
  lhsBatch := []
  rhsBatch := []
  wf := dot_S800000x1_S1x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Spec.lean ====
/-
  The three dense stages of the message-passing network, each as ONE function of whole arrays over the extended
  reals, entry by entry. Every stage is row-wise: row p of the result reads row p of the row-indexed operands and the
  whole of the small ones (a weight matrix, a bias row), so a row block of the result is the same function of the row
  blocks.

  * the edge message: relu(h_src + e · wₑ + bₑ), the edge attribute a single column, so e · wₑ is a product of two entries;
  * the node update: with z = h + aggr, a = relu(z W₁ + b₁), y = a W₂ + b₂, the layer norm of y along its row
    (mean μ and variance σ² of the H entries, both as a sum divided by the count, then (y − μ) · rsqrt(σ² + ε) · g + β)
    followed by relu;
  * the read-out head: relu(h V₁ + c₁) V₂ + c₂.

  Constants stay as their binary words: the same word stands on both sides of every equation below them.
-/
import Idealize.ShloMosaic.PureOps.Ideal
import Idealize.ShloMosaic.PureOps.Ideal.Laws
import Idealize.ShloMosaic.Lib.ValueIdx

noncomputable section

namespace Cert.Gnn

open Idealize.ShloMosaic Idealize.ShloMosaic.ValueIdx

/-- An [n × d] array of extended reals. -/
abbrev Mat (n d : Nat) : Type := FVec Ideal (⟨2, ![n, d]⟩ : Shape) .f32

/-- The word of +0.0. -/
abbrev w0 : EReal := Ideal.ofBits .f32 0x00000000#32

/-- Entry (p, q) of `x · w + b`, the bias a single row. -/
def affineAt {n K M : Nat} (x : Mat n K) (w : Mat K M) (b : Mat 1 M) (p : Fin n) (q : Fin M) : EReal :=
  (∑ k : Fin K, x (ix2 p k) * w (ix2 k q)) + b (ix2 0 q)

/-! ## The edge message -/

/-- Entry (p, q) of relu(h_src + e · wₑ + bₑ). -/
def msgAt {E D : Nat} (hs : Mat E D) (ea : Mat E 1) (we be : Mat 1 D) (p : Fin E) (q : Fin D) : EReal :=
  max (hs (ix2 p q) + ea (ix2 p 0) * we (ix2 0 q) + be (ix2 0 q)) w0

/-- The edge messages of all edges. -/
def msg {E D : Nat} (hs : Mat E D) (ea : Mat E 1) (we be : Mat 1 D) : Mat E D :=
  fun j => msgAt hs ea we be (j 0) (j 1)

/-! ## The node update -/

/-- z = h + aggr. -/
def zsum {n D : Nat} (h aggr : Mat n D) : Mat n D := fun i => h i + aggr i

/-- a = relu(z W₁ + b₁). -/
def hidden {n D H : Nat} (z : Mat n D) (w1 : Mat D H) (b1 : Mat 1 H) : Mat n H :=
  fun i => max (affineAt z w1 b1 (i 0) (i 1)) w0

/-- y = a W₂ + b₂ at (p, q). -/
def preNormAt {n D H : Nat} (h aggr : Mat n D) (w1 : Mat D H) (b1 : Mat 1 H) (w2 : Mat H H) (b2 : Mat 1 H)
    (p : Fin n) (q : Fin H) : EReal :=
  affineAt (hidden (zsum h aggr) w1 b1) w2 b2 p q

/-- The row mean of y: the row's sum over the word of 256.0. -/
def rowMean {n D H : Nat} (h aggr : Mat n D) (w1 : Mat D H) (b1 : Mat 1 H) (w2 : Mat H H) (b2 : Mat 1 H) (p : Fin n) : EReal :=
  Ideal.div (∑ q : Fin H, preNormAt h aggr w1 b1 w2 b2 p q) (Ideal.ofBits .f32 0x43800000#32)

/-- The row variance of y: the sum of the squared deviations over the word of 256.0. -/
def rowVar {n D H : Nat} (h aggr : Mat n D) (w1 : Mat D H) (b1 : Mat 1 H) (w2 : Mat H H) (b2 : Mat 1 H) (p : Fin n) : EReal :=
  Ideal.div (∑ q : Fin H, (preNormAt h aggr w1 b1 w2 b2 p q - rowMean h aggr w1 b1 w2 b2 p)
      * (preNormAt h aggr w1 b1 w2 b2 p q - rowMean h aggr w1 b1 w2 b2 p)) (Ideal.ofBits .f32 0x43800000#32)

/-- Entry (p, q) of relu(layernorm(y) · g + β). -/
def updAt {n D H : Nat} (h aggr : Mat n D) (w1 : Mat D H) (b1 : Mat 1 H) (w2 : Mat H H) (b2 g bt : Mat 1 H)
    (p : Fin n) (q : Fin H) : EReal :=
  max ((preNormAt h aggr w1 b1 w2 b2 p q - rowMean h aggr w1 b1 w2 b2 p)
        * Ideal.rsqrt (rowVar h aggr w1 b1 w2 b2 p + Ideal.ofBits .f32 0x3727C5AC#32) * g (ix2 0 q) + bt (ix2 0 q)) w0

/-- The updated node features. -/
def upd {n D H : Nat} (h aggr : Mat n D) (w1 : Mat D H) (b1 : Mat 1 H) (w2 : Mat H H) (b2 g bt : Mat 1 H) : Mat n H :=
  fun j => updAt h aggr w1 b1 w2 b2 g bt (j 0) (j 1)

/-! ## The read-out head -/

/-- Entry (p, q) of relu(h V₁ + c₁) V₂ + c₂. -/
def headAt {n H K : Nat} (h : Mat n H) (v1 : Mat H K) (c1 : Mat 1 K) (v2 : Mat K 1) (c2 : Mat 1 1) (p : Fin n) (q : Fin 1) : EReal :=
  affineAt (hidden h v1 c1) v2 c2 p q

/-- The logits of all rows. -/
def head {n H K : Nat} (h : Mat n H) (v1 : Mat H K) (c1 : Mat 1 K) (v2 : Mat K 1) (c2 : Mat 1 1) : Mat n 1 :=
  fun j => headAt h v1 c1 v2 c2 (j 0) (j 1)

end Cert.Gnn

end
-- ==== Proof.KDefs.lean ====
/-
  The kernel program's two results as pure terms of its argument arrays: the host operations of its @main applied as
  written (the index columns cut from the edge list, the two fill-mode row gathers, the three scatter-adds, the
  per-graph mean), with each launched region standing as its whole-array function (Spec.lean).
-/
import proofs.«429655_j28415503630975_1_alg».proof.KernelIdeal
import proofs.«429655_j28415503630975_1_alg».proof.Proof.Spec

noncomputable section

namespace Cert.KernelIdeal.Chain

open Idealize.ShloMosaic Cert.KernelIdeal

variable [hK : Cert.KernelIdeal.Facts]
open Facts₀ Facts

/-- Row 0 of the edge list as a vector: the source node of every edge. -/
def srcOf (e : IVec S2x800000 32) : IVec S800000 32 :=
  shapeCast S800000 (extractStridedSlice S1x800000 ![0, 0] e slices_S2x800000_S1x800000_0_0) shapeCasts_S1x800000_S800000

/-- Row 1 of the edge list as a vector: the destination node of every edge. -/
def dstOf (e : IVec S2x800000 32) : IVec S800000 32 :=
  shapeCast S800000 (extractStridedSlice S1x800000 ![1, 0] e slices_S2x800000_S1x800000_1_0) shapeCasts_S1x800000_S800000

/-- The start-index column of a row gather: a negative index moved up by the table's 50000 rows. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge, whether its (moved-up) index lies in [0, 49999]. -/
def inRange (src : IVec S800000 32) : IVec S800000 1 :=
  Host.reduce IntOp.andi
    (andi (cmpi .sge (wrapIdx src) (broadcastInDim S800000x1 ![] bcast_S_S800000x1 (constantI S_ 32 0#32)))
      (cmpi .sle (wrapIdx src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The fill-mode row gather of a 128-column table: the gathered row where the index is in range, the fill word elsewhere. -/
def take128 (x : FVec Ideal S50000x128 .f32) (src : IVec S800000 32) : FVec Ideal S800000x128 .f32 :=
  select (broadcastInDim S800000x128 ![0] bcast_S800000_S800000x128_0 (inRange src))
    (Host.gather gather_S50000x128_S800000x1_S800000x128_1_0_n_n_0_1_1128 x (wrapIdx src))
    (broadcastInDim S800000x128 ![] bcast_S_S800000x128 (constant S_ .f32 0x7FC00000#32))

/-- The same of a 256-column table. -/
def take256 (x : FVec Ideal S50000x256 .f32) (src : IVec S800000 32) : FVec Ideal S800000x256 .f32 :=
  select (broadcastInDim S800000x256 ![0] bcast_S800000_S800000x256_0 (inRange src))
    (Host.gather gather_S50000x256_S800000x1_S800000x256_1_0_n_n_0_1_1256 x (wrapIdx src))
    (broadcastInDim S800000x256 ![] bcast_S_S800000x256 (constant S_ .f32 0x7FC00000#32))

/-- The messages summed into their destination rows, 128 columns. -/
def aggr128 (dst : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) msg

/-- The same, 256 columns. -/
def aggr256 (dst : IVec S800000 32) (msg : FVec Ideal S800000x256 .f32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst) msg

/-- The per-graph mean of the node features: the rows summed by graph id over max(count, 1). -/
def pooled (b : IVec S50000 32) (h : FVec Ideal S50000x256 .f32) : FVec Ideal S64x256 .f32 :=
  Host.divf
    (Host.scatterAdd scatter_S64x256_S50000x1_S50000x256_1_0_0_1
      (broadcastInDim S64x256 ![] bcast_S_S64x256 (constant S_ .f32 0x00000000#32))
      (broadcastInDim S50000x1 ![0] bcast_S50000_S50000x1_0 b) h)
    (broadcastInDim S64x256 ![0, 1] bcast_S64x1_S64x256_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 b)
            (broadcastInDim S50000 ![] bcast_S_S50000 (constant S_ .f32 0x3F800000#32)))
          (broadcastInDim S64 ![] bcast_S_S64 (constant S_ .f32 0x3F800000#32)))))

section
variable (a0 : FVec Ideal S50000x128 .f32) (a1 : IVec S2x800000 32) (a2 : FVec Ideal S800000x1 .f32) (a3 : IVec S50000 32)
  (a4 : FVec Ideal S1x128 .f32) (a5 : FVec Ideal S128 .f32) (a6 : FVec Ideal S128x256 .f32) (a7 : FVec Ideal S256 .f32)
  (a8 : FVec Ideal S256x256 .f32) (a9 a10 a11 : FVec Ideal S256 .f32) (a12 : FVec Ideal S1x256 .f32) (a13 : FVec Ideal S256 .f32)
  (a14 : FVec Ideal S256x256 .f32) (a15 : FVec Ideal S256 .f32) (a16 : FVec Ideal S256x256 .f32) (a17 a18 a19 : FVec Ideal S256 .f32)
  (a20 : FVec Ideal S256x128 .f32) (a21 : FVec Ideal S128 .f32) (a22 : FVec Ideal S128x1 .f32) (a23 : FVec Ideal S1 .f32)

/-- The node features after the first layer. -/
def layer1 : FVec Ideal S50000x256 .f32 :=
  Cert.Gnn.upd a0
    (aggr128 (dstOf a1) (Cert.Gnn.msg (take128 a0 (srcOf a1)) a2 a4 (shapeCast S1x128 a5 shapeCasts_S128_S1x128)))
    a6 (shapeCast S1x256 a7 shapeCasts_S256_S1x256) a8 (shapeCast S1x256 a9 shapeCasts_S256_S1x256)
    (shapeCast S1x256 a10 shapeCasts_S256_S1x256) (shapeCast S1x256 a11 shapeCasts_S256_S1x256)

/-- The node features after the second layer. -/
def layer2 : FVec Ideal S50000x256 .f32 :=
  Cert.Gnn.upd (layer1 a0 a1 a2 a4 a5 a6 a7 a8 a9 a10 a11)
    (aggr256 (dstOf a1) (Cert.Gnn.msg (take256 (layer1 a0 a1 a2 a4 a5 a6 a7 a8 a9 a10 a11) (srcOf a1)) a2 a12
      (shapeCast S1x256 a13 shapeCasts_S256_S1x256)))
    a14 (shapeCast S1x256 a15 shapeCasts_S256_S1x256) a16 (shapeCast S1x256 a17 shapeCasts_S256_S1x256)
    (shapeCast S1x256 a18 shapeCasts_S256_S1x256) (shapeCast S1x256 a19 shapeCasts_S256_S1x256)

/-- The first result: the per-node logits. -/
def nodeOut : FVec Ideal S50000x1 .f32 :=
  Cert.Gnn.head (layer2 a0 a1 a2 a4 a5 a6 a7 a8 a9 a10 a11 a12 a13 a14 a15 a16 a17 a18 a19) a20
    (shapeCast S1x128 a21 shapeCasts_S128_S1x128) a22 (shapeCast S1x1 a23 shapeCasts_S1_S1x1)

/-- The second result: the per-graph logits, as a vector. -/
def graphOut : FVec Ideal S64 .f32 :=
  shapeCast S64 (Cert.Gnn.head (pooled a3 (layer2 a0 a1 a2 a4 a5 a6 a7 a8 a9 a10 a11 a12 a13 a14 a15 a16 a17 a18 a19)) a20
    (shapeCast S1x128 a21 shapeCasts_S128_S1x128) a22 (shapeCast S1x1 a23 shapeCasts_S1_S1x1)) shapeCasts_S64x1_S64

end

end Cert.KernelIdeal.Chain

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KHead.lean ====
/-
  The two read-out regions: every row block of the output is the head function of the same rows of its input.

  The head is relu(h V₁ + c₁) V₂ + c₂, row by row: row p of the result reads row p of h and the whole of the two weight
  matrices and the two bias rows. The body computes it on a block of rows (two products into a zero accumulator, each
  read at an entry as a sum over the contracted axis; a bias row broadcast down the block; a clamp at zero), so what a
  grid point writes back is the head of its block of rows, which is that block of the head of the whole array; the
  blocks tile the output, so the output array ends as the head of the whole input.
-/
import proofs.«429655_j28415503630975_1_alg».proof.Proof.Gen.KernelIdeal.Frame
import proofs.«429655_j28415503630975_1_alg».proof.Proof.Spec
import proofs.«429655_j28415503630975_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

/-! ## Where the four products read their operands

Each product contracts the left operand's second axis with the right operand's first and has no batch axis: at the
result's entry (p, q) and contraction index k it reads the left operand at (p, k) and the right at (k, q). -/

/-- The first product of the node head, [2000 × 256] · [256 × 128]. -/
theorem first4_l0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem first4_l1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem first4_r0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem first4_r1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product of the node head, [2000 × 128] · [128 × 1]. -/
theorem second4_l0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem second4_l1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem second4_r0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem second4_r1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- The first product of the graph head, [64 × 256] · [256 × 128]. -/
theorem first5_l0 (i : S64x128.Idx) (q : dot_S64x256_S256x128_S64x128_1_0_0_1_n_n.contr.Idx) :
    (dot_S64x256_S256x128_S64x128_1_0_0_1_n_n.lhsIdx i q 0).val = (i 0).val := by
  unfold DotDims.lhsIdx
  rw [dif_neg (show ¬(0 : Fin S64x256.rank) ∈ dot_S64x256_S256x128_S64x128_1_0_0_1_n_n.lhsBatch by decide), dif_pos (show (0 : Fin S64x256.rank) ∈ dot_S64x256_S256x128_S64x128_1_0_0_1_n_n.lhsNonContracting by decide)]
  rfl
theorem first5_l1 (i : S64x128.Idx) (q : dot_S64x256_S256x128_S64x128_1_0_0_1_n_n.contr.Idx) :
    (dot_S64x256_S256x128_S64x128_1_0_0_1_n_n.lhsIdx i q 1).val = (q ⟨0, by decide⟩).val :=
  dot_S64x256_S256x128_S64x128_1_0_0_1_n_n.lhsIdx_val_of_single rfl i q
theorem first5_r0 (i : S64x128.Idx) (q : dot_S64x256_S256x128_S64x128_1_0_0_1_n_n.contr.Idx) :
    (dot_S64x256_S256x128_S64x128_1_0_0_1_n_n.rhsIdx i q 0).val = (q ⟨0, by decide⟩).val :=
  dot_S64x256_S256x128_S64x128_1_0_0_1_n_n.rhsIdx_val_of_single rfl i q
theorem first5_r1 (i : S64x128.Idx) (q : dot_S64x256_S256x128_S64x128_1_0_0_1_n_n.contr.Idx) :
    (dot_S64x256_S256x128_S64x128_1_0_0_1_n_n.rhsIdx i q 1).val = (i 1).val := by
  unfold DotDims.rhsIdx
  rw [dif_neg (show ¬(1 : Fin S256x128.rank) ∈ dot_S64x256_S256x128_S64x128_1_0_0_1_n_n.rhsBatch by decide), dif_pos (show (1 : Fin S256x128.rank) ∈ dot_S64x256_S256x128_S64x128_1_0_0_1_n_n.rhsNonContracting by decide)]
  rfl

/-- The second product of the graph head, [64 × 128] · [128 × 1]. -/
theorem second5_l0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem second5_l1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem second5_r0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem second5_r1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-! ## The body's arithmetic on one block is the head function of the block -/

/-- Entry (p, k) of the hidden layer computed from a 2000-row block: the first product at (p, k) — a sum over the 256
    features — plus entry k of the bias row (the row broadcast down the block), clamped below at zero. The changes of
    float format are the identity over the extended reals. -/
theorem hidden_block4 (x0 : Vec Ideal S2000x256 .f32) (x1 : Vec Ideal S256x128 .f32) (x2 : Vec Ideal S1x128 .f32) (p : Fin 2000) (k : Fin 128) :
    maximumf (addf (matmul dot_S2000x256_S256x128_S2000x128_1_0_0_1_n_n none (truncf .bf16 x0 bitsLt_bf16_f32) (truncf .bf16 x1 bitsLt_bf16_f32) (constant (F := Ideal) S2000x128 .f32 0x00000000#32))
        (broadcastTo S2000x128 x2 broadcasts_S1x128_S2000x128)) (broadcast S2000x128 (FloatOps.ofBits (F := Ideal) .f32 0x00000000#32)) (ix2 p k)
      = Cert.Gnn.hidden x0 x1 x2 (ix2 p k) := by
  show max (FloatOps.matmul dot_S2000x256_S256x128_S2000x128_1_0_0_1_n_n none (truncf .bf16 x0 bitsLt_bf16_f32) (truncf .bf16 x1 bitsLt_bf16_f32) (constant (F := Ideal) S2000x128 .f32 0x00000000#32) (ix2 p k)
      + broadcastTo S2000x128 x2 broadcasts_S1x128_S2000x128 (ix2 p k)) Cert.Gnn.w0 = max ((∑ k' : Fin 256, x0 (ix2 p k') * x1 (ix2 k' k)) + x2 (ix2 0 k)) Cert.Gnn.w0
  rw [MatmulAt.matmul_zero_at dot_S2000x256_S256x128_S2000x128_1_0_0_1_n_n rfl rfl first4_l0 first4_l1 first4_r0 first4_r1,
    broadcastTo_apply x2 broadcasts_S1x128_S2000x128 (ix2 p k) (ix2 0 k) (fun a => by match a with | ⟨0, _⟩ => rfl | ⟨1, _⟩ => rfl)]
  rfl

/-- What the body computes from its 2000-row block of node features, the two weight matrices and the two bias rows is the
    head function of those five: entry (p, q) is the second product at (p, q) — a sum over the 128 hidden units — plus
    the one entry of the second bias. -/
theorem head_block4 (x0 : Vec Ideal S2000x256 .f32) (x1 : Vec Ideal S256x128 .f32) (x2 : Vec Ideal S1x128 .f32) (x3 : Vec Ideal S128x1 .f32) (x4 : Vec Ideal S1x1 .f32) :
    k4_pay1 x0 x1 x2 x3 x4 = Cert.Gnn.head x0 x1 x2 x3 x4 := by
  funext j
  obtain ⟨p, q, rfl⟩ : ∃ (p : Fin 2000) (q : Fin 1), j = ix2 p q := ⟨j 0, j 1, eq_ix2 j⟩
  unfold k4_pay1
  rw [shapeCast_self, shapeCast_self, shapeCast_self]
  show FloatOps.matmul dot_S2000x128_S128x1_S2000x1_1_0_0_1_n_n none _ (truncf .bf16 x3 bitsLt_bf16_f32) (constant (F := Ideal) S2000x1 .f32 0x00000000#32) (ix2 p q)
      + broadcastTo S2000x1 x4 broadcasts_S1x1_S2000x1 (ix2 p q) = (∑ k : Fin 128, Cert.Gnn.hidden x0 x1 x2 (ix2 p k) * x3 (ix2 k q)) + x4 (ix2 0 q)
  rw [MatmulAt.matmul_zero_at dot_S2000x128_S128x1_S2000x1_1_0_0_1_n_n rfl rfl second4_l0 second4_l1 second4_r0 second4_r1,
    broadcastTo_apply x4 broadcasts_S1x1_S2000x1 (ix2 p q) (ix2 0 q) (fun a => by match a with | ⟨0, _⟩ => rfl | ⟨1, _⟩ => exact Nat.lt_one_iff.mp q.isLt)]
  refine congrArg (· + x4 (ix2 0 q)) (Finset.sum_congr rfl fun k _ => ?_)
  exact congrArg (· * x3 (ix2 k q)) (hidden_block4 x0 x1 x2 p k)

/-- Entry (p, k) of the hidden layer computed from a 64-row block: the first product at (p, k) — a sum over the 256
    features — plus entry k of the bias row (the row broadcast down the block), clamped below at zero. The changes of
    float format are the identity over the extended reals. -/
theorem hidden_block5 (x0 : Vec Ideal S64x256 .f32) (x1 : Vec Ideal S256x128 .f32) (x2 : Vec Ideal S1x128 .f32) (p : Fin 64) (k : Fin 128) :
    maximumf (addf (matmul dot_S64x256_S256x128_S64x128_1_0_0_1_n_n none (truncf .bf16 x0 bitsLt_bf16_f32) (truncf .bf16 x1 bitsLt_bf16_f32) (constant (F := Ideal) S64x128 .f32 0x00000000#32))
        (broadcastTo S64x128 x2 broadcasts_S1x128_S64x128)) (broadcast S64x128 (FloatOps.ofBits (F := Ideal) .f32 0x00000000#32)) (ix2 p k)
      = Cert.Gnn.hidden x0 x1 x2 (ix2 p k) := by
  show max (FloatOps.matmul dot_S64x256_S256x128_S64x128_1_0_0_1_n_n none (truncf .bf16 x0 bitsLt_bf16_f32) (truncf .bf16 x1 bitsLt_bf16_f32) (constant (F := Ideal) S64x128 .f32 0x00000000#32) (ix2 p k)
      + broadcastTo S64x128 x2 broadcasts_S1x128_S64x128 (ix2 p k)) Cert.Gnn.w0 = max ((∑ k' : Fin 256, x0 (ix2 p k') * x1 (ix2 k' k)) + x2 (ix2 0 k)) Cert.Gnn.w0
  rw [MatmulAt.matmul_zero_at dot_S64x256_S256x128_S64x128_1_0_0_1_n_n rfl rfl first5_l0 first5_l1 first5_r0 first5_r1,
    broadcastTo_apply x2 broadcasts_S1x128_S64x128 (ix2 p k) (ix2 0 k) (fun a => by match a with | ⟨0, _⟩ => rfl | ⟨1, _⟩ => rfl)]
  rfl

/-- What the body computes from its 64-row block of graph features, the two weight matrices and the two bias rows is the
    head function of those five: entry (p, q) is the second product at (p, q) — a sum over the 128 hidden units — plus
    the one entry of the second bias. -/
theorem head_block5 (x0 : Vec Ideal S64x256 .f32) (x1 : Vec Ideal S256x128 .f32) (x2 : Vec Ideal S1x128 .f32) (x3 : Vec Ideal S128x1 .f32) (x4 : Vec Ideal S1x1 .f32) :
    k5_pay1 x0 x1 x2 x3 x4 = Cert.Gnn.head x0 x1 x2 x3 x4 := by
  funext j
  obtain ⟨p, q, rfl⟩ : ∃ (p : Fin 64) (q : Fin 1), j = ix2 p q := ⟨j 0, j 1, eq_ix2 j⟩
  unfold k5_pay1
  rw [shapeCast_self, shapeCast_self, shapeCast_self]
  show FloatOps.matmul dot_S64x128_S128x1_S64x1_1_0_0_1_n_n none _ (truncf .bf16 x3 bitsLt_bf16_f32) (constant (F := Ideal) S64x1 .f32 0x00000000#32) (ix2 p q)
      + broadcastTo S64x1 x4 broadcasts_S1x1_S64x1 (ix2 p q) = (∑ k : Fin 128, Cert.Gnn.hidden x0 x1 x2 (ix2 p k) * x3 (ix2 k q)) + x4 (ix2 0 q)
  rw [MatmulAt.matmul_zero_at dot_S64x128_S128x1_S64x1_1_0_0_1_n_n rfl rfl second5_l0 second5_l1 second5_r0 second5_r1,
    broadcastTo_apply x4 broadcasts_S1x1_S64x1 (ix2 p q) (ix2 0 q) (fun a => by match a with | ⟨0, _⟩ => rfl | ⟨1, _⟩ => exact Nat.lt_one_iff.mp q.isLt)]
  refine congrArg (· + x4 (ix2 0 q)) (Finset.sum_congr rfl fun k _ => ?_)
  exact congrArg (· * x3 (ix2 k q)) (hidden_block5 x0 x1 x2 p k)

/-! ## The head of a block of rows is that block of the head -/

/-- The head is row-wise: if row y of a block is row r of the whole array, and the weights and biases are the same,
    the head of the block at (y, q) is the head of the array at (r, q). -/
theorem head_of_row {n m H K : Nat} (h : Cert.Gnn.Mat n H) (v1 : Cert.Gnn.Mat H K) (c1 : Cert.Gnn.Mat 1 K) (v2 : Cert.Gnn.Mat K 1) (c2 : Cert.Gnn.Mat 1 1)
    (hb : Cert.Gnn.Mat m H) (v1b : Cert.Gnn.Mat H K) (c1b : Cert.Gnn.Mat 1 K) (v2b : Cert.Gnn.Mat K 1) (c2b : Cert.Gnn.Mat 1 1)
    (y : Fin m) (r : Fin n) (q : Fin 1)
    (e0 : ∀ k : Fin H, hb (ix2 y k) = h (ix2 r k)) (e1 : v1b = v1) (e2 : c1b = c1) (e3 : v2b = v2) (e4 : c2b = c2) :
    Cert.Gnn.head hb v1b c1b v2b c2b (ix2 y q) = Cert.Gnn.head h v1 c1 v2 c2 (ix2 r q) := by
  subst e1 e2 e3 e4
  have hh : ∀ k : Fin K, Cert.Gnn.hidden hb v1b c1b (ix2 y k) = Cert.Gnn.hidden h v1b c1b (ix2 r k) := fun k => by
    show max ((∑ k' : Fin H, hb (ix2 y k') * v1b (ix2 k' k)) + c1b (ix2 0 k)) Cert.Gnn.w0
      = max ((∑ k' : Fin H, h (ix2 r k') * v1b (ix2 k' k)) + c1b (ix2 0 k)) Cert.Gnn.w0
    simp only [e0]
  show (∑ k : Fin K, Cert.Gnn.hidden hb v1b c1b (ix2 y k) * v2b (ix2 k q)) + c2b (ix2 0 q)
    = (∑ k : Fin K, Cert.Gnn.hidden h v1b c1b (ix2 r k) * v2b (ix2 k q)) + c2b (ix2 0 q)
  simp only [hh]

variable (V : (c : Dev nD) → (b : Ref sig .tc) → Buf (Elt Ideal) ((c : Thread nD τ).loc b))

/-- The body reads and writes its staging buffers whole: from the origin. -/
theorem origin : (![0, 0] : Fin 2 → Nat) = fun _ => 0 := funext fun a => by fin_cases a <;> rfl

/-! ## Region 4: the nodes, 25 blocks of 2000 rows -/

/-- The block indices at point t: the node features and the logits move down the rows with the point (block t); the
    weights and biases stay at their one block; there are 25 points. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 ∧ t.val < 25 :=
  (by decide +kernel : ∀ t : Fin grid4.N, _)

/-- Row p of block t of the node features is row t · 2000 + p of the array. -/
theorem rows4 (c : Dev nD) (t : Fin cfg4.N) (p : Fin 2000) (k : Fin 256) (r : Fin 50000) (hr : r.val = t.val * 2000 + p.val) :
    iblk4 V c 0 t (ix2 p k) = V c main_v25 (ix2 r k) := by
  have hidx := blockIdx4 t
  show V c main_v25 (((cfg4.win 0).blk t).view.emb (ix2 p k)) = V c main_v25 (ix2 r k)
  refine congrArg (V c main_v25) (funext fun a => Fin.ext ?_)
  match a with
  | ⟨0, _⟩ => show win4_0.index t (0 : Fin 2) * 2000 + 1 * p.val = r.val; omega
  | ⟨1, _⟩ => show win4_0.index t (1 : Fin 2) * 256 + 1 * k.val = k.val; omega

/-- The first weight matrix is read whole at every point: its one block is the array. -/
theorem whole4_1 (c : Dev nD) (t : Fin cfg4.N) : iblk4 V c 1 t = V c main_arg20 := by
  have hidx := blockIdx4 t
  funext z
  show V c main_arg20 (((cfg4.win 1).blk t).view.emb z) = V c main_arg20 z
  refine congrArg (V c main_arg20) (funext fun a => Fin.ext ?_)
  match a with
  | ⟨0, _⟩ => show win4_1.index t (0 : Fin 2) * 256 + 1 * (z 0).val = (z 0).val; omega
  | ⟨1, _⟩ => show win4_1.index t (1 : Fin 2) * 128 + 1 * (z 1).val = (z 1).val; omega

/-- So is the first bias row, -/
theorem whole4_2 (c : Dev nD) (t : Fin cfg4.N) : iblk4 V c 2 t = V c main_v26 := by
  have hidx := blockIdx4 t
  funext z
  show V c main_v26 (((cfg4.win 2).blk t).view.emb z) = V c main_v26 z
  refine congrArg (V c main_v26) (funext fun a => Fin.ext ?_)
  match a with
  | ⟨0, _⟩ => show win4_2.index t (0 : Fin 2) * 1 + 1 * (z 0).val = (z 0).val; omega
  | ⟨1, _⟩ => show win4_2.index t (1 : Fin 2) * 128 + 1 * (z 1).val = (z 1).val; omega

/-- the second weight matrix, -/
theorem whole4_3 (c : Dev nD) (t : Fin cfg4.N) : iblk4 V c 3 t = V c main_arg22 := by
  have hidx := blockIdx4 t
  funext z
  show V c main_arg22 (((cfg4.win 3).blk t).view.emb z) = V c main_arg22 z
  refine congrArg (V c main_arg22) (funext fun a => Fin.ext ?_)
  match a with
  | ⟨0, _⟩ => show win4_3.index t (0 : Fin 2) * 128 + 1 * (z 0).val = (z 0).val; omega
  | ⟨1, _⟩ => show win4_3.index t (1 : Fin 2) * 1 + 1 * (z 1).val = (z 1).val; omega

/-- and the second bias. -/
theorem whole4_4 (c : Dev nD) (t : Fin cfg4.N) : iblk4 V c 4 t = V c main_v27 := by
  have hidx := blockIdx4 t
  funext z
  show V c main_v27 (((cfg4.win 4).blk t).view.emb z) = V c main_v27 z
  refine congrArg (V c main_v27) (funext fun a => Fin.ext ?_)
  match a with
  | ⟨0, _⟩ => show win4_4.index t (0 : Fin 2) * 1 + 1 * (z 0).val = (z 0).val; omega
  | ⟨1, _⟩ => show win4_4.index t (1 : Fin 2) * 1 + 1 * (z 1).val = (z 1).val; omega

/-- What point t writes back is block t of the head of the whole arrays: entry (p, q) of the body's result is the head
    of the block at (p, q), which is the head of the arrays at row t · 2000 + p, where block t of the output sits. -/
theorem flushed4 (c : Dev nD) (t : Fin cfg4.N) :
    (dat4 (F := Ideal) V c).flushed 5 t = ((cfg4.win 5).blk t).view.read (Elt Ideal)
      (Cert.Gnn.head (V c main_v25) (V c main_arg20) (V c main_v26) (V c main_arg22) (V c main_v27)) := by
  show (cfg4.win 5).cut (grid4.coords t) ((dat4 V c).after 5 t) = _
  rw [after4_5]
  unfold out4_5
  rw [View.canon_unit_zero origin]
  simp only [View.ld_unit_zero (S := S2000x256) origin, View.ld_unit_zero (S := S256x128) origin, View.ld_unit_zero (S := S1x128) origin,
    View.ld_unit_zero (S := S128x1) origin, View.ld_unit_zero (S := S1x1) origin]
  rw [head_block4, whole4_1, whole4_2, whole4_3, whole4_4]
  have hidx := blockIdx4 t
  funext y
  obtain ⟨p, q, rfl⟩ : ∃ (p : Fin 2000) (q : Fin 1), y = ix2 p q := ⟨y 0, y 1, eq_ix2 y⟩
  show Cert.Gnn.head (iblk4 V c 0 t) (V c main_arg20) (V c main_v26) (V c main_arg22) (V c main_v27) (ix2 p q)
    = Cert.Gnn.head (V c main_v25) (V c main_arg20) (V c main_v26) (V c main_arg22) (V c main_v27) (((cfg4.win 5).blk t).view.emb (ix2 p q))
  have eo : ((cfg4.win 5).blk t).view.emb (ix2 p q) = ix2 (⟨t.val * 2000 + p.val, by omega⟩ : Fin 50000) q := by
    funext a; apply Fin.ext
    match a with
    | ⟨0, _⟩ => show win4_5.index t (0 : Fin 2) * 2000 + 1 * p.val = t.val * 2000 + p.val; omega
    | ⟨1, _⟩ => show win4_5.index t (1 : Fin 2) * 1 + 1 * q.val = q.val; omega
  rw [eo]
  exact head_of_row (V c main_v25) (V c main_arg20) (V c main_v26) (V c main_arg22) (V c main_v27)
    (iblk4 V c 0 t) (V c main_arg20) (V c main_v26) (V c main_arg22) (V c main_v27) p ⟨t.val * 2000 + p.val, by omega⟩ q
    (fun k => rows4 V c t p k ⟨t.val * 2000 + p.val, by omega⟩ rfl) rfl rfl rfl rfl

/-- An index of the node logits lies in block t iff each coordinate lies in the block's range on its axis. -/
theorem mem_block4 (t : Fin cfg4.N) (i : S50000x1.Idx) :
    i ∈ ((cfg4.win 5).blk t).view.set ↔ ∀ a : Fin 2, win4_5.index t a * S2000x1.size a ≤ (i a).val ∧ (i a).val < win4_5.index t a * S2000x1.size a + S2000x1.size a := by
  show i ∈ ((View.whole main_v28).slice (win4_5.rect t)).set ↔ _
  rw [View.set_slice_whole, Rect.mem_set_unit]
  exact Iff.rfl

/-- The blocks tile the node logits: row r lies in the block of point r / 2000. -/
theorem cover4 (i : S50000x1.Idx) : ∃ t : Fin cfg4.N, (cfg4.win 5).flush t = true ∧ i ∈ ((cfg4.win 5).blk t).view.set := by
  have hi0 : (i 0).val < 50000 := (i 0).isLt
  have hi1 : (i 1).val < 1 := (i 1).isLt
  have hN : (i 0).val / 2000 < cfg4.N := by show _ < grid4.N; rw [N_4]; omega
  have ht : (⟨(i 0).val / 2000, hN⟩ : Fin cfg4.N).val = (i 0).val / 2000 := rfl
  have hidx := blockIdx4 ⟨(i 0).val / 2000, hN⟩
  refine ⟨⟨(i 0).val / 2000, hN⟩, flush4_5 _, ?_⟩
  rw [mem_block4]
  intro a
  match a with
  | ⟨0, _⟩ => show win4_5.index ⟨(i 0).val / 2000, hN⟩ (0 : Fin 2) * 2000 ≤ (i 0).val ∧ (i 0).val < win4_5.index ⟨(i 0).val / 2000, hN⟩ (0 : Fin 2) * 2000 + 2000; omega
  | ⟨1, _⟩ => show win4_5.index ⟨(i 0).val / 2000, hN⟩ (1 : Fin 2) * 1 ≤ (i 1).val ∧ (i 1).val < win4_5.index ⟨(i 0).val / 2000, hN⟩ (1 : Fin 2) * 1 + 1; omega

/-- Region 4 (the nodes: 25 blocks of 2000 rows). -/
theorem region4_value (c : Dev nD) :
    (dat4 (F := Ideal) V c).arrAt 5 cfg4.N = Cert.Gnn.head (V c main_v25) (V c main_arg20) (V c main_v26) (V c main_arg22) (V c main_v27) :=
  (dat4 V c).arrAt_eq_of_cover 5 (Cert.Gnn.head (V c main_v25) (V c main_arg20) (V c main_v26) (V c main_arg22) (V c main_v27))
    (fun t _ => flushed4 V c t) (fun i => cover4 i)

/-! ## Region 5: the graphs, one block of 64 rows -/

/-- The block indices at the one point: every window is at its one block. -/
theorem blockIdx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The one block of the graph features is the whole array. -/
theorem whole5_0 (c : Dev nD) (t : Fin cfg5.N) : iblk5 V c 0 t = V c main_v40 := by
  have hidx := blockIdx5 t
  funext z
  show V c main_v40 (((cfg5.win 0).blk t).view.emb z) = V c main_v40 z
  refine congrArg (V c main_v40) (funext fun a => Fin.ext ?_)
  match a with
  | ⟨0, _⟩ => show win5_0.index t (0 : Fin 2) * 64 + 1 * (z 0).val = (z 0).val; omega
  | ⟨1, _⟩ => show win5_0.index t (1 : Fin 2) * 256 + 1 * (z 1).val = (z 1).val; omega

/-- The first weight matrix is read whole at every point: its one block is the array. -/
theorem whole5_1 (c : Dev nD) (t : Fin cfg5.N) : iblk5 V c 1 t = V c main_arg20 := by
  have hidx := blockIdx5 t
  funext z
  show V c main_arg20 (((cfg5.win 1).blk t).view.emb z) = V c main_arg20 z
  refine congrArg (V c main_arg20) (funext fun a => Fin.ext ?_)
  match a with
  | ⟨0, _⟩ => show win5_1.index t (0 : Fin 2) * 256 + 1 * (z 0).val = (z 0).val; omega
  | ⟨1, _⟩ => show win5_1.index t (1 : Fin 2) * 128 + 1 * (z 1).val = (z 1).val; omega

/-- So is the first bias row, -/
theorem whole5_2 (c : Dev nD) (t : Fin cfg5.N) : iblk5 V c 2 t = V c main_v41 := by
  have hidx := blockIdx5 t
  funext z
  show V c main_v41 (((cfg5.win 2).blk t).view.emb z) = V c main_v41 z
  refine congrArg (V c main_v41) (funext fun a => Fin.ext ?_)
  match a with
  | ⟨0, _⟩ => show win5_2.index t (0 : Fin 2) * 1 + 1 * (z 0).val = (z 0).val; omega
  | ⟨1, _⟩ => show win5_2.index t (1 : Fin 2) * 128 + 1 * (z 1).val = (z 1).val; omega

/-- the second weight matrix, -/
theorem whole5_3 (c : Dev nD) (t : Fin cfg5.N) : iblk5 V c 3 t = V c main_arg22 := by
  have hidx := blockIdx5 t
  funext z
  show V c main_arg22 (((cfg5.win 3).blk t).view.emb z) = V c main_arg22 z
  refine congrArg (V c main_arg22) (funext fun a => Fin.ext ?_)
  match a with
  | ⟨0, _⟩ => show win5_3.index t (0 : Fin 2) * 128 + 1 * (z 0).val = (z 0).val; omega
  | ⟨1, _⟩ => show win5_3.index t (1 : Fin 2) * 1 + 1 * (z 1).val = (z 1).val; omega

/-- and the second bias. -/
theorem whole5_4 (c : Dev nD) (t : Fin cfg5.N) : iblk5 V c 4 t = V c main_v42 := by
  have hidx := blockIdx5 t
  funext z
  show V c main_v42 (((cfg5.win 4).blk t).view.emb z) = V c main_v42 z
  refine congrArg (V c main_v42) (funext fun a => Fin.ext ?_)
  match a with
  | ⟨0, _⟩ => show win5_4.index t (0 : Fin 2) * 1 + 1 * (z 0).val = (z 0).val; omega
  | ⟨1, _⟩ => show win5_4.index t (1 : Fin 2) * 1 + 1 * (z 1).val = (z 1).val; omega

/-- What the one point writes back is the head of the whole arrays, read through the output's one block. -/
theorem flushed5 (c : Dev nD) (t : Fin cfg5.N) :
    (dat5 (F := Ideal) V c).flushed 5 t = ((cfg5.win 5).blk t).view.read (Elt Ideal)
      (Cert.Gnn.head (V c main_v40) (V c main_arg20) (V c main_v41) (V c main_arg22) (V c main_v42)) := by
  show (cfg5.win 5).cut (grid5.coords t) ((dat5 V c).after 5 t) = _
  rw [after5_5]
  unfold out5_5
  rw [View.canon_unit_zero origin]
  simp only [View.ld_unit_zero (S := S64x256) origin, View.ld_unit_zero (S := S256x128) origin, View.ld_unit_zero (S := S1x128) origin,
    View.ld_unit_zero (S := S128x1) origin, View.ld_unit_zero (S := S1x1) origin]
  rw [head_block5, whole5_0, whole5_1, whole5_2, whole5_3, whole5_4]
  have hidx := blockIdx5 t
  funext y
  obtain ⟨p, q, rfl⟩ : ∃ (p : Fin 64) (q : Fin 1), y = ix2 p q := ⟨y 0, y 1, eq_ix2 y⟩
  show Cert.Gnn.head (V c main_v40) (V c main_arg20) (V c main_v41) (V c main_arg22) (V c main_v42) (ix2 p q)
    = Cert.Gnn.head (V c main_v40) (V c main_arg20) (V c main_v41) (V c main_arg22) (V c main_v42) (((cfg5.win 5).blk t).view.emb (ix2 p q))
  refine congrArg _ (funext fun a => Fin.ext ?_)
  match a with
  | ⟨0, _⟩ => show p.val = win5_5.index t (0 : Fin 2) * 64 + 1 * p.val; omega
  | ⟨1, _⟩ => show q.val = win5_5.index t (1 : Fin 2) * 1 + 1 * q.val; omega

/-- An index of the graph logits lies in the block of point t iff each coordinate lies in the block's range on its axis. -/
theorem mem_block5 (t : Fin cfg5.N) (i : S64x1.Idx) :
    i ∈ ((cfg5.win 5).blk t).view.set ↔ ∀ a : Fin 2, win5_5.index t a * S64x1.size a ≤ (i a).val ∧ (i a).val < win5_5.index t a * S64x1.size a + S64x1.size a := by
  show i ∈ ((View.whole main_v43).slice (win5_5.rect t)).set ↔ _
  rw [View.set_slice_whole, Rect.mem_set_unit]
  exact Iff.rfl

/-- The one block is the whole of the graph logits. -/
theorem cover5 (i : S64x1.Idx) : ∃ t : Fin cfg5.N, (cfg5.win 5).flush t = true ∧ i ∈ ((cfg5.win 5).blk t).view.set := by
  have hi0 : (i 0).val < 64 := (i 0).isLt
  have hi1 : (i 1).val < 1 := (i 1).isLt
  have hidx := blockIdx5 t5_0
  refine ⟨t5_0, flush5_5 _, ?_⟩
  rw [mem_block5]
  intro a
  match a with
  | ⟨0, _⟩ => show win5_5.index t5_0 (0 : Fin 2) * 64 ≤ (i 0).val ∧ (i 0).val < win5_5.index t5_0 (0 : Fin 2) * 64 + 64; omega
  | ⟨1, _⟩ => show win5_5.index t5_0 (1 : Fin 2) * 1 ≤ (i 1).val ∧ (i 1).val < win5_5.index t5_0 (1 : Fin 2) * 1 + 1; omega

/-- Region 5 (the graphs: one block of 64 rows). -/
theorem region5_value (c : Dev nD) :
    (dat5 (F := Ideal) V c).arrAt 5 cfg5.N = Cert.Gnn.head (V c main_v40) (V c main_arg20) (V c main_v41) (V c main_arg22) (V c main_v42) :=
  (dat5 V c).arrAt_eq_of_cover 5 (Cert.Gnn.head (V c main_v40) (V c main_arg20) (V c main_v41) (V c main_arg22) (V c main_v42))
    (fun t _ => flushed5 V c t) (fun i => cover5 i)

end Cert.KernelIdeal.RegionValue

end
-- ==== Proof.KMsg.lean ====
/-
  The two edge-message regions: after the region every row block of the output array holds the message function of
  the same row block of the gathered source rows and edge attributes, so the whole array is that function of the whole arrays.
-/
import proofs.«429655_j28415503630975_1_alg».proof.Proof.Gen.KernelIdeal.Frame
import proofs.«429655_j28415503630975_1_alg».proof.Proof.Spec
import proofs.«429655_j28415503630975_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

/-! ## The message function is row-wise -/

/-- The message at row p of a row block is the message at row r p of the whole arrays, when the block's rows are the
    rows r p of the row-indexed arrays (the gathered source rows, the edge attributes) and the weight row and the bias
    row are read whole: every operand of the entry (p, q) is then the same extended real on both sides. -/
theorem msgAt_rowBlock {E D B : Nat} (hs : Cert.Gnn.Mat E D) (ea : Cert.Gnn.Mat E 1) (we be : Cert.Gnn.Mat 1 D)
    (bs : Cert.Gnn.Mat B D) (ba : Cert.Gnn.Mat B 1) (bw bb : Cert.Gnn.Mat 1 D) (r : Fin B → Fin E)
    (h0 : ∀ p q, bs (ix2 p q) = hs (ix2 (r p) q)) (h1 : ∀ p, ba (ix2 p 0) = ea (ix2 (r p) 0))
    (h2 : ∀ q, bw (ix2 0 q) = we (ix2 0 q)) (h3 : ∀ q, bb (ix2 0 q) = be (ix2 0 q)) (p : Fin B) (q : Fin D) :
    Cert.Gnn.msgAt bs ba bw bb p q = Cert.Gnn.msgAt hs ea we be (r p) q := by
  unfold Cert.Gnn.msgAt
  rw [h0, h1, h2, h3]

/-- The two spellings of the zero offsets. -/
theorem zero_offsets : (![0, 0] : Fin 2 → Nat) = fun _ => 0 := funext fun a => by fin_cases a <;> rfl

/-! ## Region 0: 128 columns -/

/-- The body's arithmetic on a block of 4000 edges is the message function of the block: at entry (p, q) the source
    row's entry is read as it is, the edge attribute's column is spread along the row and the weight row and the bias
    row down the rows, so the sum is h(p, q) + e(p) · w(q) + b(q), and the maximum with the zero word is the relu. -/
theorem body0_eq (x0 : Vec Ideal S4000x128 .f32) (x1 : Vec Ideal S4000x1 .f32) (x2 : Vec Ideal S1x128 .f32) (x3 : Vec Ideal S1x128 .f32) :
    k0_pay1 x0 x1 x2 x3 = Cert.Gnn.msg x0 x1 x2 x3 := by
  funext j
  obtain ⟨p, q, rfl⟩ : ∃ (p : Fin 4000) (q : Fin 128), j = ix2 p q := ⟨j 0, j 1, eq_ix2 j⟩
  have e1 : broadcastTo S4000x128 x1 broadcasts_S4000x1_S4000x128 (ix2 p q) = x1 (ix2 p 0) :=
    broadcastTo_apply x1 _ (ix2 p q) (ix2 p 0) (fun a => by match a with | ⟨0, _⟩ => rfl | ⟨1, _⟩ => rfl)
  have e2 : broadcastTo S4000x128 x2 broadcasts_S1x128_S4000x128 (ix2 p q) = x2 (ix2 0 q) :=
    broadcastTo_apply x2 _ (ix2 p q) (ix2 0 q) (fun a => by match a with | ⟨0, _⟩ => rfl | ⟨1, _⟩ => rfl)
  have e3 : broadcastTo S4000x128 x3 broadcasts_S1x128_S4000x128 (ix2 p q) = x3 (ix2 0 q) :=
    broadcastTo_apply x3 _ (ix2 p q) (ix2 0 q) (fun a => by match a with | ⟨0, _⟩ => rfl | ⟨1, _⟩ => rfl)
  unfold k0_pay1 Cert.Gnn.msg Cert.Gnn.msgAt
  rw [maximumf_apply, addf_apply, addf_apply, mulf_apply, shapeCast_self, shapeCast_self, e1, e2, e3]
  rfl

variable (V : (c : Dev nD) → (b : Ref sig .tc) → Buf (Elt Ideal) ((c : Thread nD τ).loc b))

/-- The block indices at grid point t: the source rows, the edge attributes and the output move down the rows with t,
    one block of 4000 rows per point; the weight row and the bias row stay at block (0, 0). -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the source-row block at point t is row 4000 t + p of the array. -/
theorem srcBlock0 (c : Dev nD) (t : Fin cfg0.N) (p : Fin 4000) (q : Fin 128) (h : t.val * 4000 + p.val < 800000) :
    iblk0 V c 0 t (ix2 p q) = V c main_v4 (ix2 ⟨t.val * 4000 + p.val, h⟩ q) := by
  obtain ⟨e0, e1, -⟩ := blockIndex0 t
  show V c main_v4 (((cfg0.win 0).blk t).view.emb (ix2 p q)) = _
  refine congrArg (V c main_v4) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * q.val = q.val; omega

/-- Row p of the edge-attribute block at point t is row 4000 t + p of the column. -/
theorem attrBlock0 (c : Dev nD) (t : Fin cfg0.N) (p : Fin 4000) (h : t.val * 4000 + p.val < 800000) :
    iblk0 V c 1 t (ix2 p 0) = V c main_arg2 (ix2 ⟨t.val * 4000 + p.val, h⟩ 0) := by
  obtain ⟨-, -, e0, e1, -⟩ := blockIndex0 t
  show V c main_arg2 (((cfg0.win 1).blk t).view.emb (ix2 p 0)) = _
  refine congrArg (V c main_arg2) (funext fun a => Fin.ext ?_)
  match a with
  | ⟨0, _⟩ => show win0_1.index t (0 : Fin 2) * 4000 + 1 * p.val = t.val * 4000 + p.val; omega
  | ⟨1, _⟩ => show win0_1.index t (1 : Fin 2) * 1 + 1 * 0 = 0; omega

/-- The weight row's block at every point is the weight row. -/
theorem weightBlock0 (c : Dev nD) (t : Fin cfg0.N) (q : Fin 128) :
    iblk0 V c 2 t (ix2 0 q) = V c main_arg4 (ix2 0 q) := by
  obtain ⟨-, -, -, -, e0, e1, -⟩ := blockIndex0 t
  show V c main_arg4 (((cfg0.win 2).blk t).view.emb (ix2 0 q)) = _
  refine congrArg (V c main_arg4) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The bias row's block at every point is the bias row. -/
theorem biasBlock0 (c : Dev nD) (t : Fin cfg0.N) (q : Fin 128) :
    iblk0 V c 3 t (ix2 0 q) = V c main_v5 (ix2 0 q) := by
  obtain ⟨-, -, -, -, -, -, e0, e1, -⟩ := blockIndex0 t
  show V c main_v5 (((cfg0.win 3).blk t).view.emb (ix2 0 q)) = _
  refine congrArg (V c main_v5) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- What point t writes back is block t of the message function of the whole arrays: the body leaves the message
    function of the input blocks, whose row p is row 4000 t + p of the arrays, and entry (p, q) of the output block sits
    at (4000 t + p, q) of the output array. -/
theorem written0 (c : Dev nD) (t : Fin cfg0.N) :
    (dat0 V c).flushed 4 t = ((cfg0.win 4).blk t).view.read (Elt Ideal)
      (Cert.Gnn.msg (V c main_v4) (V c main_arg2) (V c main_arg4) (V c main_v5)) := by
  show (cfg0.win 4).cut (grid0.coords t) ((dat0 V c).after 4 t) = _
  rw [after0_4]
  unfold out0_4
  rw [View.canon_unit_zero zero_offsets]
  simp only [View.ld_unit_zero (S := S4000x128) zero_offsets, View.ld_unit_zero (S := S4000x1) zero_offsets,
    View.ld_unit_zero (S := S1x128) zero_offsets]
  rw [body0_eq]
  funext j
  obtain ⟨-, -, -, -, -, -, -, -, e0, e1⟩ := blockIndex0 t
  have hp : (j 0).val < 4000 := (j 0).isLt
  have hq : (j 1).val < 128 := (j 1).isLt
  have ht : t.val < 200 := t.isLt
  refine (msgAt_rowBlock (E := 800000) (D := 128) (B := 4000) (V c main_v4) (V c main_arg2) (V c main_arg4) (V c main_v5)
    (iblk0 V c 0 t) (iblk0 V c 1 t) (iblk0 V c 2 t) (iblk0 V c 3 t) (fun p => ⟨t.val * 4000 + p.val, by omega⟩)
    (fun p q => srcBlock0 V c t p q _) (fun p => attrBlock0 V c t p _) (fun q => weightBlock0 V c t q)
    (fun q => biasBlock0 V c t q) ⟨(j 0).val, hp⟩ ⟨(j 1).val, hq⟩).trans ?_
  have r0 : (⟨t.val * 4000 + (j 0).val, by omega⟩ : Fin 800000) = ((cfg0.win 4).blk t).view.emb j 0 :=
    Fin.ext (by show t.val * 4000 + (j 0).val = win0_4.index t (0 : Fin 2) * 4000 + 1 * (j 0).val; omega)
  have r1 : (⟨(j 1).val, hq⟩ : Fin 128) = ((cfg0.win 4).blk t).view.emb j 1 :=
    Fin.ext (by show (j 1).val = win0_4.index t (1 : Fin 2) * 128 + 1 * (j 1).val; omega)
  exact congrArg₂ (Cert.Gnn.msgAt (V c main_v4) (V c main_arg2) (V c main_arg4) (V c main_v5)) r0 r1

/-- An index of the output array is in point t's block iff each coordinate is in the block's range on its axis. -/
theorem mem_outBlock0 (t : Fin cfg0.N) (i : S800000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v6).slice (win0_4.rect t)).set ↔ _
  rw [View.set_slice_whole, Rect.mem_set_unit]
  exact Iff.rfl

/-- The 200 blocks of 4000 rows cover the 800000 rows: row r is in the block of point r / 4000. -/
theorem covered0 (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hlt : (i 0).val / 4000 < 200 := by omega
  refine ⟨⟨(i 0).val / 4000, hlt⟩, flush0_4 _, ?_⟩
  rw [mem_outBlock0]
  obtain ⟨-, -, -, -, -, -, -, -, e0, e1⟩ := blockIndex0 ⟨(i 0).val / 4000, hlt⟩
  intro a
  match a with
  | ⟨0, _⟩ =>
    show win0_4.index _ (0 : Fin 2) * 4000 ≤ (i 0).val ∧ (i 0).val < win0_4.index _ (0 : Fin 2) * 4000 + 4000
    rw [e0]
    show (i 0).val / 4000 * 4000 ≤ (i 0).val ∧ (i 0).val < (i 0).val / 4000 * 4000 + 4000
    omega
  | ⟨1, _⟩ =>
    show win0_4.index _ (1 : Fin 2) * 128 ≤ (i 1).val ∧ (i 1).val < win0_4.index _ (1 : Fin 2) * 128 + 128
    rw [e1]
    omega

/-- Region 0 (128 columns, 200 blocks of 4000 edges): the output array is the message function of the region's input arrays. -/
theorem region0_value (c : Dev nD) :
    (dat0 (F := Ideal) V c).arrAt 4 cfg0.N = Cert.Gnn.msg (V c main_v4) (V c main_arg2) (V c main_arg4) (V c main_v5) :=
  (dat0 V c).arrAt_eq_of_cover 4 _ (fun t _ => written0 V c t) covered0

/-! ## Region 2: 256 columns -/

/-- The body's arithmetic on a block of 4000 edges is the message function of the block: at entry (p, q) the source
    row's entry is read as it is, the edge attribute's column is spread along the row and the weight row and the bias
    row down the rows, so the sum is h(p, q) + e(p) · w(q) + b(q), and the maximum with the zero word is the relu. -/
theorem body2_eq (x0 : Vec Ideal S4000x256 .f32) (x1 : Vec Ideal S4000x1 .f32) (x2 : Vec Ideal S1x256 .f32) (x3 : Vec Ideal S1x256 .f32) :
    k2_pay1 x0 x1 x2 x3 = Cert.Gnn.msg x0 x1 x2 x3 := by
  funext j
  obtain ⟨p, q, rfl⟩ : ∃ (p : Fin 4000) (q : Fin 256), j = ix2 p q := ⟨j 0, j 1, eq_ix2 j⟩
  have e1 : broadcastTo S4000x256 x1 broadcasts_S4000x1_S4000x256 (ix2 p q) = x1 (ix2 p 0) :=
    broadcastTo_apply x1 _ (ix2 p q) (ix2 p 0) (fun a => by match a with | ⟨0, _⟩ => rfl | ⟨1, _⟩ => rfl)
  have e2 : broadcastTo S4000x256 x2 broadcasts_S1x256_S4000x256 (ix2 p q) = x2 (ix2 0 q) :=
    broadcastTo_apply x2 _ (ix2 p q) (ix2 0 q) (fun a => by match a with | ⟨0, _⟩ => rfl | ⟨1, _⟩ => rfl)
  have e3 : broadcastTo S4000x256 x3 broadcasts_S1x256_S4000x256 (ix2 p q) = x3 (ix2 0 q) :=
    broadcastTo_apply x3 _ (ix2 p q) (ix2 0 q) (fun a => by match a with | ⟨0, _⟩ => rfl | ⟨1, _⟩ => rfl)
  unfold k2_pay1 Cert.Gnn.msg Cert.Gnn.msgAt
  rw [maximumf_apply, addf_apply, addf_apply, mulf_apply, shapeCast_self, shapeCast_self, e1, e2, e3]
  rfl

/-- The block indices at grid point t: the source rows, the edge attributes and the output move down the rows with t,
    one block of 4000 rows per point; the weight row and the bias row stay at block (0, 0). -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the source-row block at point t is row 4000 t + p of the array. -/
theorem srcBlock2 (c : Dev nD) (t : Fin cfg2.N) (p : Fin 4000) (q : Fin 256) (h : t.val * 4000 + p.val < 800000) :
    iblk2 V c 0 t (ix2 p q) = V c main_v15 (ix2 ⟨t.val * 4000 + p.val, h⟩ q) := by
  obtain ⟨e0, e1, -⟩ := blockIndex2 t
  show V c main_v15 (((cfg2.win 0).blk t).view.emb (ix2 p q)) = _
  refine congrArg (V c main_v15) (funext fun a => Fin.ext ?_)
  match a with
  | ⟨0, _⟩ => show win2_0.index t (0 : Fin 2) * 4000 + 1 * p.val = t.val * 4000 + p.val; omega
  | ⟨1, _⟩ => show win2_0.index t (1 : Fin 2) * 256 + 1 * q.val = q.val; omega

/-- Row p of the edge-attribute block at point t is row 4000 t + p of the column. -/
theorem attrBlock2 (c : Dev nD) (t : Fin cfg2.N) (p : Fin 4000) (h : t.val * 4000 + p.val < 800000) :
    iblk2 V c 1 t (ix2 p 0) = V c main_arg2 (ix2 ⟨t.val * 4000 + p.val, h⟩ 0) := by
  obtain ⟨-, -, e0, e1, -⟩ := blockIndex2 t
  show V c main_arg2 (((cfg2.win 1).blk t).view.emb (ix2 p 0)) = _
  refine congrArg (V c main_arg2) (funext fun a => Fin.ext ?_)
  match a with
  | ⟨0, _⟩ => show win2_1.index t (0 : Fin 2) * 4000 + 1 * p.val = t.val * 4000 + p.val; omega
  | ⟨1, _⟩ => show win2_1.index t (1 : Fin 2) * 1 + 1 * 0 = 0; omega

/-- The weight row's block at every point is the weight row. -/
theorem weightBlock2 (c : Dev nD) (t : Fin cfg2.N) (q : Fin 256) :
    iblk2 V c 2 t (ix2 0 q) = V c main_arg12 (ix2 0 q) := by
  obtain ⟨-, -, -, -, e0, e1, -⟩ := blockIndex2 t
  show V c main_arg12 (((cfg2.win 2).blk t).view.emb (ix2 0 q)) = _
  refine congrArg (V c main_arg12) (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega

/-- The bias row's block at every point is the bias row. -/
theorem biasBlock2 (c : Dev nD) (t : Fin cfg2.N) (q : Fin 256) :
    iblk2 V c 3 t (ix2 0 q) = V c main_v16 (ix2 0 q) := by
  obtain ⟨-, -, -, -, -, -, e0, e1, -⟩ := blockIndex2 t
  show V c main_v16 (((cfg2.win 3).blk t).view.emb (ix2 0 q)) = _
  refine congrArg (V c main_v16) (funext fun a => Fin.ext ?_)
  match a with
  | ⟨0, _⟩ => show win2_3.index t (0 : Fin 2) * 1 + 1 * 0 = 0; omega
  | ⟨1, _⟩ => show win2_3.index t (1 : Fin 2) * 256 + 1 * q.val = q.val; omega

/-- What point t writes back is block t of the message function of the whole arrays: the body leaves the message
    function of the input blocks, whose row p is row 4000 t + p of the arrays, and entry (p, q) of the output block sits
    at (4000 t + p, q) of the output array. -/
theorem written2 (c : Dev nD) (t : Fin cfg2.N) :
    (dat2 V c).flushed 4 t = ((cfg2.win 4).blk t).view.read (Elt Ideal)
      (Cert.Gnn.msg (V c main_v15) (V c main_arg2) (V c main_arg12) (V c main_v16)) := by
  show (cfg2.win 4).cut (grid2.coords t) ((dat2 V c).after 4 t) = _
  rw [after2_4]
  unfold out2_4
  rw [View.canon_unit_zero zero_offsets]
  simp only [View.ld_unit_zero (S := S4000x256) zero_offsets, View.ld_unit_zero (S := S4000x1) zero_offsets,
    View.ld_unit_zero (S := S1x256) zero_offsets]
  rw [body2_eq]
  funext j
  obtain ⟨-, -, -, -, -, -, -, -, e0, e1⟩ := blockIndex2 t
  have hp : (j 0).val < 4000 := (j 0).isLt
  have hq : (j 1).val < 256 := (j 1).isLt
  have ht : t.val < 200 := t.isLt
  refine (msgAt_rowBlock (E := 800000) (D := 256) (B := 4000) (V c main_v15) (V c main_arg2) (V c main_arg12) (V c main_v16)
    (iblk2 V c 0 t) (iblk2 V c 1 t) (iblk2 V c 2 t) (iblk2 V c 3 t) (fun p => ⟨t.val * 4000 + p.val, by omega⟩)
    (fun p q => srcBlock2 V c t p q _) (fun p => attrBlock2 V c t p _) (fun q => weightBlock2 V c t q)
    (fun q => biasBlock2 V c t q) ⟨(j 0).val, hp⟩ ⟨(j 1).val, hq⟩).trans ?_
  have r0 : (⟨t.val * 4000 + (j 0).val, by omega⟩ : Fin 800000) = ((cfg2.win 4).blk t).view.emb j 0 :=
    Fin.ext (by show t.val * 4000 + (j 0).val = win2_4.index t (0 : Fin 2) * 4000 + 1 * (j 0).val; omega)
  have r1 : (⟨(j 1).val, hq⟩ : Fin 256) = ((cfg2.win 4).blk t).view.emb j 1 :=
    Fin.ext (by show (j 1).val = win2_4.index t (1 : Fin 2) * 256 + 1 * (j 1).val; omega)
  exact congrArg₂ (Cert.Gnn.msgAt (V c main_v15) (V c main_arg2) (V c main_arg12) (V c main_v16)) r0 r1

/-- An index of the output array is in point t's block iff each coordinate is in the block's range on its axis. -/
theorem mem_outBlock2 (t : Fin cfg2.N) (i : S800000x256.Idx) :
    i ∈ ((cfg2.win 4).blk t).view.set ↔ ∀ a : Fin 2, win2_4.index t a * S4000x256.size a ≤ (i a).val
      ∧ (i a).val < win2_4.index t a * S4000x256.size a + S4000x256.size a := by
  show i ∈ ((View.whole main_v17).slice (win2_4.rect t)).set ↔ _
  rw [View.set_slice_whole, Rect.mem_set_unit]
  exact Iff.rfl

/-- The 200 blocks of 4000 rows cover the 800000 rows: row r is in the block of point r / 4000. -/
theorem covered2 (i : S800000x256.Idx) :
    ∃ t : Fin cfg2.N, (cfg2.win 4).flush t = true ∧ i ∈ ((cfg2.win 4).blk t).view.set := by
  have hi0 : (i 0).val < 800000 := (i 0).isLt
  have hi1 : (i 1).val < 256 := (i 1).isLt
  have hlt : (i 0).val / 4000 < 200 := by omega
  refine ⟨⟨(i 0).val / 4000, hlt⟩, flush2_4 _, ?_⟩
  rw [mem_outBlock2]
  obtain ⟨-, -, -, -, -, -, -, -, e0, e1⟩ := blockIndex2 ⟨(i 0).val / 4000, hlt⟩
  intro a
  match a with
  | ⟨0, _⟩ =>
    show win2_4.index _ (0 : Fin 2) * 4000 ≤ (i 0).val ∧ (i 0).val < win2_4.index _ (0 : Fin 2) * 4000 + 4000
    rw [e0]
    show (i 0).val / 4000 * 4000 ≤ (i 0).val ∧ (i 0).val < (i 0).val / 4000 * 4000 + 4000
    omega
  | ⟨1, _⟩ =>
    show win2_4.index _ (1 : Fin 2) * 256 ≤ (i 1).val ∧ (i 1).val < win2_4.index _ (1 : Fin 2) * 256 + 256
    rw [e1]
    omega

/-- Region 2 (256 columns, 200 blocks of 4000 edges). -/
theorem region2_value (c : Dev nD) :
    (dat2 (F := Ideal) V c).arrAt 4 cfg2.N = Cert.Gnn.msg (V c main_v15) (V c main_arg2) (V c main_arg12) (V c main_v16) :=
  (dat2 V c).arrAt_eq_of_cover 4 _ (fun t _ => written2 V c t) covered2

end Cert.KernelIdeal.RegionValue

end
-- ==== Proof.KUpd.lean ====
/-
  The two node-update regions: every block of 2000 rows of the output is the update function (two affine maps, the
  row-wise layer norm, relu) of the same rows of the node features and the aggregated messages and of the whole weights.
-/
import proofs.«429655_j28415503630975_1_alg».proof.Proof.Gen.KernelIdeal.Frame
import proofs.«429655_j28415503630975_1_alg».proof.Proof.Spec
import proofs.«429655_j28415503630975_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen

namespace Upd

open Cert.Gnn

section Generic
variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` array, read at row `p`. -/
theorem rowSum_apply {a b : ℕ} (y : FVec Ideal (⟨2, ![a, b]⟩ : Shape) .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ y 0x00000000#32 h hφ hacc (ix1 p) = ∑ q : Fin b, y (ix2 p q) := by
  refine (Ideal.multiReduction_add_single y _ h hφ hacc (ix1 p)).trans ?_
  refine Finset.sum_congr rfl fun k _ => congrArg y ?_
  funext ax
  match ax with
  | ⟨0, _⟩ => rfl
  | ⟨1, _⟩ => rfl

/-- Entry (p, q) of a product into the zero accumulator plus a broadcast bias row, the operands cut to the product's
    format (the identity over the extended reals). -/
theorem affine_entry {n K M : Nat} (d : DotDims (⟨2, ![n, K]⟩ : Shape) (⟨2, ![K, M]⟩ : Shape) (⟨2, ![n, M]⟩ : Shape))
    (hd : ∀ (l : FVec Ideal (⟨2, ![n, K]⟩ : Shape) .bf16) (r : FVec Ideal (⟨2, ![K, M]⟩ : Shape) .bf16) (p : Fin n) (q : Fin M),
      matmul d none l r (constant (F := Ideal) (⟨2, ![n, M]⟩ : Shape) .f32 0x00000000#32) (ix2 p q) = ∑ k : Fin K, l (ix2 p k) * r (ix2 k q))
    (hb : (⟨2, ![1, M]⟩ : Shape).Broadcasts ⟨2, ![n, M]⟩) (hlt : FTy.bits .bf16 < FTy.bits .f32)
    (x : Mat n K) (w : Mat K M) (b : Mat 1 M) (p : Fin n) (q : Fin M) :
    addf (matmul d none (truncf .bf16 x hlt) (truncf .bf16 w hlt) (constant (F := Ideal) (⟨2, ![n, M]⟩ : Shape) .f32 0x00000000#32))
      (broadcastTo (⟨2, ![n, M]⟩ : Shape) b hb) (ix2 p q) = affineAt x w b p q := by
  show matmul d none (truncf .bf16 x hlt) (truncf .bf16 w hlt) (constant (F := Ideal) (⟨2, ![n, M]⟩ : Shape) .f32 0x00000000#32) (ix2 p q)
      + broadcastTo (⟨2, ![n, M]⟩ : Shape) b hb (ix2 p q) = _
  rw [hd, broadcastTo_1b_ab_apply]
  rfl

/-- The relu of such an affine map is the hidden layer. -/
theorem hidden_eq {n K M : Nat} (d : DotDims (⟨2, ![n, K]⟩ : Shape) (⟨2, ![K, M]⟩ : Shape) (⟨2, ![n, M]⟩ : Shape))
    (hd : ∀ (l : FVec Ideal (⟨2, ![n, K]⟩ : Shape) .bf16) (r : FVec Ideal (⟨2, ![K, M]⟩ : Shape) .bf16) (p : Fin n) (q : Fin M),
      matmul d none l r (constant (F := Ideal) (⟨2, ![n, M]⟩ : Shape) .f32 0x00000000#32) (ix2 p q) = ∑ k : Fin K, l (ix2 p k) * r (ix2 k q))
    (hb : (⟨2, ![1, M]⟩ : Shape).Broadcasts ⟨2, ![n, M]⟩) (hlt : FTy.bits .bf16 < FTy.bits .f32)
    (x : Mat n K) (w : Mat K M) (b : Mat 1 M) :
    maximumf (addf (matmul d none (truncf .bf16 x hlt) (truncf .bf16 w hlt) (constant (F := Ideal) (⟨2, ![n, M]⟩ : Shape) .f32 0x00000000#32))
      (broadcastTo (⟨2, ![n, M]⟩ : Shape) b hb)) (broadcast (⟨2, ![n, M]⟩ : Shape) (Scalar.ofBits .f32 0x00000000#32)) = hidden x w b := by
  funext j
  obtain ⟨p, q, rfl⟩ : ∃ p q, j = ix2 p q := ⟨j 0, j 1, eq_ix2 j⟩
  show max (addf (matmul d none (truncf .bf16 x hlt) (truncf .bf16 w hlt) (constant (F := Ideal) (⟨2, ![n, M]⟩ : Shape) .f32 0x00000000#32))
      (broadcastTo (⟨2, ![n, M]⟩ : Shape) b hb) (ix2 p q)) w0 = max (affineAt x w b p q) w0
  rw [affine_entry d hd hb hlt]

/-- The row mean as a column: the row's sum over a word, read at `(p, u)`. -/
theorem meanCol_apply {a b : ℕ} (y : FVec Ideal (⟨2, ![a, b]⟩ : Shape) .f32) (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (W : BitVec 32) (p : Fin a) (u : Fin 1) :
    divf (shapeCast (⟨2, ![a, 1]⟩ : Shape) (multiReduction .add [1] ⟨1, ![a]⟩ y 0x00000000#32 hr hφ hacc) hc)
      (broadcast (⟨2, ![a, 1]⟩ : Shape) (Scalar.ofBits .f32 W)) (ix2 p u) = Ideal.div (∑ q : Fin b, y (ix2 p q)) (Ideal.ofBits .f32 W) := by
  show Ideal.div (shapeCast (⟨2, ![a, 1]⟩ : Shape) (multiReduction .add [1] ⟨1, ![a]⟩ y 0x00000000#32 hr hφ hacc) hc (ix2 p u)) (Ideal.ofBits .f32 W) = _
  rw [shapeCast_a_a1_apply, rowSum_apply]

/-- The deviation from a column broadcast along the rows. -/
theorem dev_apply {a b : ℕ} (y : FVec Ideal (⟨2, ![a, b]⟩ : Shape) .f32) (m : FVec Ideal (⟨2, ![a, 1]⟩ : Shape) .f32)
    (hb : (⟨2, ![a, 1]⟩ : Shape).Broadcasts ⟨2, ![a, b]⟩) (p : Fin a) (q : Fin b) :
    subf y (broadcastTo (⟨2, ![a, b]⟩ : Shape) m hb) (ix2 p q) = y (ix2 p q) - m (ix2 p (0 : Fin 1)) := by
  show y (ix2 p q) - broadcastTo (⟨2, ![a, b]⟩ : Shape) m hb (ix2 p q) = _
  rw [broadcastTo_a1_ab_apply]

/-- The reciprocal root of the mean square plus a word, as a column, read at `(p, u)`. -/
theorem rstdCol_apply {a b : ℕ} (d : FVec Ideal (⟨2, ![a, b]⟩ : Shape) .f32) (hr : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (W E : BitVec 32) (p : Fin a) (u : Fin 1) :
    rsqrt (addf (divf (shapeCast (⟨2, ![a, 1]⟩ : Shape) (multiReduction .add [1] ⟨1, ![a]⟩ (mulf d d) 0x00000000#32 hr hφ hacc) hc)
      (broadcast (⟨2, ![a, 1]⟩ : Shape) (Scalar.ofBits .f32 W))) (broadcast (⟨2, ![a, 1]⟩ : Shape) (Scalar.ofBits .f32 E))) (ix2 p u)
      = Ideal.rsqrt (Ideal.div (∑ q : Fin b, d (ix2 p q) * d (ix2 p q)) (Ideal.ofBits .f32 W) + Ideal.ofBits .f32 E) := by
  show Ideal.rsqrt (divf (shapeCast (⟨2, ![a, 1]⟩ : Shape) (multiReduction .add [1] ⟨1, ![a]⟩ (mulf d d) 0x00000000#32 hr hφ hacc) hc)
      (broadcast (⟨2, ![a, 1]⟩ : Shape) (Scalar.ofBits .f32 W)) (ix2 p u) + Ideal.ofBits .f32 E) = _
  rw [meanCol_apply]
  rfl

/-- The scale, shift and relu, entry by entry. -/
theorem scale_apply {a b : ℕ} (d r : FVec Ideal (⟨2, ![a, b]⟩ : Shape) .f32) (g bt : Mat 1 b)
    (hb : (⟨2, ![1, b]⟩ : Shape).Broadcasts ⟨2, ![a, b]⟩) (p : Fin a) (q : Fin b) :
    maximumf (addf (mulf (mulf d r) (broadcastTo (⟨2, ![a, b]⟩ : Shape) g hb)) (broadcastTo (⟨2, ![a, b]⟩ : Shape) bt hb))
      (broadcast (⟨2, ![a, b]⟩ : Shape) (Scalar.ofBits .f32 0x00000000#32)) (ix2 p q)
      = max (d (ix2 p q) * r (ix2 p q) * g (ix2 0 q) + bt (ix2 0 q)) w0 := by
  show max (d (ix2 p q) * r (ix2 p q) * broadcastTo (⟨2, ![a, b]⟩ : Shape) g hb (ix2 p q) + broadcastTo (⟨2, ![a, b]⟩ : Shape) bt hb (ix2 p q)) w0 = _
  rw [broadcastTo_1b_ab_apply, broadcastTo_1b_ab_apply]

end Generic

/-- y = a W₂ + b₂ as a whole array. -/
abbrev preNorm {n D H : Nat} (h aggr : Mat n D) (w1 : Mat D H) (b1 : Mat 1 H) (w2 : Mat H H) (b2 : Mat 1 H) : Mat n H :=
  fun j => preNormAt h aggr w1 b1 w2 b2 (j 0) (j 1)

/-! ## The products of the two update kernels -/

/-- The first product of region 1: [2000 × 128] by [128 × 256]. -/
abbrev dA := dot_S2000x128_S128x256_S2000x256_1_0_0_1_n_n
/-- The second product of region 1 and both products of region 3: [2000 × 256] by [256 × 256]. -/
abbrev dB := dot_S2000x256_S256x256_S2000x256_1_0_0_1_n_n

/-- Where these dimension numbers read their operands: the left at (row, k), the right at (k, column). -/
theorem dA_l0 (i : S2000x256.Idx) (q : dA.contr.Idx) : (dA.lhsIdx i q 0).val = (i 0).val := by
  unfold DotDims.lhsIdx
  rw [dif_neg (show ¬(0 : Fin S2000x128.rank) ∈ dA.lhsBatch by decide), dif_pos (show (0 : Fin S2000x128.rank) ∈ dA.lhsNonContracting by decide)]
  rfl
theorem dA_l1 (i : S2000x256.Idx) (q : dA.contr.Idx) : (dA.lhsIdx i q 1).val = (q ⟨0, by decide⟩).val :=
  dA.lhsIdx_val_of_single rfl i q
theorem dA_r0 (i : S2000x256.Idx) (q : dA.contr.Idx) : (dA.rhsIdx i q 0).val = (q ⟨0, by decide⟩).val :=
  dA.rhsIdx_val_of_single rfl i q
theorem dA_r1 (i : S2000x256.Idx) (q : dA.contr.Idx) : (dA.rhsIdx i q 1).val = (i 1).val := by
  unfold DotDims.rhsIdx
  rw [dif_neg (show ¬(1 : Fin S128x256.rank) ∈ dA.rhsBatch by decide), dif_pos (show (1 : Fin S128x256.rank) ∈ dA.rhsNonContracting by decide)]
  rfl
/-- The same for the square product. -/
theorem dB_l0 (i : S2000x256.Idx) (q : dB.contr.Idx) : (dB.lhsIdx i q 0).val = (i 0).val := by
  unfold DotDims.lhsIdx
  rw [dif_neg (show ¬(0 : Fin S2000x256.rank) ∈ dB.lhsBatch by decide), dif_pos (show (0 : Fin S2000x256.rank) ∈ dB.lhsNonContracting by decide)]
  rfl
theorem dB_l1 (i : S2000x256.Idx) (q : dB.contr.Idx) : (dB.lhsIdx i q 1).val = (q ⟨0, by decide⟩).val :=
  dB.lhsIdx_val_of_single rfl i q
theorem dB_r0 (i : S2000x256.Idx) (q : dB.contr.Idx) : (dB.rhsIdx i q 0).val = (q ⟨0, by decide⟩).val :=
  dB.rhsIdx_val_of_single rfl i q
theorem dB_r1 (i : S2000x256.Idx) (q : dB.contr.Idx) : (dB.rhsIdx i q 1).val = (i 1).val := by
  unfold DotDims.rhsIdx
  rw [dif_neg (show ¬(1 : Fin S256x256.rank) ∈ dB.rhsBatch by decide), dif_pos (show (1 : Fin S256x256.rank) ∈ dB.rhsNonContracting by decide)]
  rfl

/-- Entry (p, q) of the first product into zero: the sum over the 128 contracted columns. -/
theorem mmA (l : FVec Ideal S2000x128 .bf16) (r : FVec Ideal S128x256 .bf16) (p : Fin 2000) (q : Fin 256) :
    matmul dA none l r (constant (F := Ideal) S2000x256 .f32 0x00000000#32) (ix2 p q) = ∑ k : Fin 128, l (ix2 p k) * r (ix2 k q) :=
  Idealize.ShloMosaic.MatmulAt.matmul_zero_at dA rfl rfl dA_l0 dA_l1 dA_r0 dA_r1 none l r p q

/-- Entry (p, q) of the square product into zero: the sum over the 256 contracted columns. -/
theorem mmB (l : FVec Ideal S2000x256 .bf16) (r : FVec Ideal S256x256 .bf16) (p : Fin 2000) (q : Fin 256) :
    matmul dB none l r (constant (F := Ideal) S2000x256 .f32 0x00000000#32) (ix2 p q) = ∑ k : Fin 256, l (ix2 p k) * r (ix2 k q) :=
  Idealize.ShloMosaic.MatmulAt.matmul_zero_at dB rfl rfl dB_l0 dB_l1 dB_r0 dB_r1 none l r p q

/-! ## Region 1's body, entry by entry -/
section R1
variable (x0 x1 : Vec Ideal S2000x128 .f32) (x2 : Vec Ideal S128x256 .f32) (x3 : Vec Ideal S1x256 .f32) (x4 : Vec Ideal S256x256 .f32)
  (x5 x6 x7 : Vec Ideal S1x256 .f32)

/-- The value before the norm is y = relu((x0 + x1) x2 + x3) x4 + x5, entry by entry. -/
theorem k1_pay2_eq : k1_pay2 x0 x1 x2 x3 x4 x5 = preNorm x0 x1 x2 x3 x4 x5 := by
  funext j
  obtain ⟨p, q, rfl⟩ : ∃ p q, j = ix2 p q := ⟨j 0, j 1, eq_ix2 j⟩
  unfold k1_pay2
  simp only [shapeCast_self]
  rw [hidden_eq dA mmA broadcasts_S1x256_S2000x256 bitsLt_bf16_f32]
  exact affine_entry dB mmB broadcasts_S1x256_S2000x256 bitsLt_bf16_f32 (hidden (zsum x0 x1) x2 x3) x4 x5 p q

/-- The mean column holds each row's mean of y. -/
theorem k1_pay3_at (p : Fin 2000) (u : Fin 1) : k1_pay3 x0 x1 x2 x3 x4 x5 (ix2 p u) = rowMean x0 x1 x2 x3 x4 x5 p := by
  unfold k1_pay3
  dsimp only
  rw [k1_pay2_eq]
  exact meanCol_apply (preNorm x0 x1 x2 x3 x4 x5) _ _ _ _ _ p u

/-- The deviation y − μ, entry by entry. -/
theorem k1_pay4_at (p : Fin 2000) (q : Fin 256) :
    k1_pay4 x0 x1 x2 x3 x4 x5 (ix2 p q) = preNormAt x0 x1 x2 x3 x4 x5 p q - rowMean x0 x1 x2 x3 x4 x5 p := by
  unfold k1_pay4
  refine (dev_apply _ _ _ p q).trans ?_
  rw [k1_pay3_at, k1_pay2_eq]

/-- The broadcast reciprocal root holds rsqrt(σ² + ε) of the entry's row. -/
theorem k1_pay5_at (p : Fin 2000) (q : Fin 256) :
    k1_pay5 x0 x1 x2 x3 x4 x5 (ix2 p q) = Ideal.rsqrt (rowVar x0 x1 x2 x3 x4 x5 p + Ideal.ofBits .f32 0x3727C5AC#32) := by
  unfold k1_pay5
  dsimp only
  refine (broadcastTo_a1_ab_apply _ _ p q).trans ?_
  refine (rstdCol_apply _ _ _ _ _ _ _ p 0).trans ?_
  refine congrArg (fun s => Ideal.rsqrt (Ideal.div s (Ideal.ofBits .f32 0x43800000#32) + Ideal.ofBits .f32 0x3727C5AC#32)) ?_
  refine Finset.sum_congr rfl fun k _ => ?_
  exact congrArg₂ (· * ·) (k1_pay4_at x0 x1 x2 x3 x4 x5 p k) (k1_pay4_at x0 x1 x2 x3 x4 x5 p k)

/-- The stored block is the update of the loaded blocks. -/
theorem k1_body_eq :
    k1_pay1 (k1_pay4 x0 x1 x2 x3 x4 x5) (k1_pay5 x0 x1 x2 x3 x4 x5) x6 x7 = upd x0 x1 x2 x3 x4 x5 x6 x7 := by
  funext j
  obtain ⟨p, q, rfl⟩ : ∃ p q, j = ix2 p q := ⟨j 0, j 1, eq_ix2 j⟩
  unfold k1_pay1
  simp only [shapeCast_self]
  refine (scale_apply _ _ x6 x7 _ p q).trans ?_
  rw [k1_pay4_at, k1_pay5_at]
  rfl

end R1

/-! ## Region 3's body, entry by entry -/
section R3
variable (x0 x1 : Vec Ideal S2000x256 .f32) (x2 : Vec Ideal S256x256 .f32) (x3 : Vec Ideal S1x256 .f32) (x4 : Vec Ideal S256x256 .f32)
  (x5 x6 x7 : Vec Ideal S1x256 .f32)

/-- The value before the norm is y = relu((x0 + x1) x2 + x3) x4 + x5, entry by entry. -/
theorem k3_pay2_eq : k3_pay2 x0 x1 x2 x3 x4 x5 = preNorm x0 x1 x2 x3 x4 x5 := by
  funext j
  obtain ⟨p, q, rfl⟩ : ∃ p q, j = ix2 p q := ⟨j 0, j 1, eq_ix2 j⟩
  unfold k3_pay2
  simp only [shapeCast_self]
  rw [hidden_eq dB mmB broadcasts_S1x256_S2000x256 bitsLt_bf16_f32]
  exact affine_entry dB mmB broadcasts_S1x256_S2000x256 bitsLt_bf16_f32 (hidden (zsum x0 x1) x2 x3) x4 x5 p q

/-- The mean column holds each row's mean of y. -/
theorem k3_pay3_at (p : Fin 2000) (u : Fin 1) : k3_pay3 x0 x1 x2 x3 x4 x5 (ix2 p u) = rowMean x0 x1 x2 x3 x4 x5 p := by
  unfold k3_pay3
  dsimp only
  rw [k3_pay2_eq]
  exact meanCol_apply (preNorm x0 x1 x2 x3 x4 x5) _ _ _ _ _ p u

/-- The deviation y − μ, entry by entry. -/
theorem k3_pay4_at (p : Fin 2000) (q : Fin 256) :
    k3_pay4 x0 x1 x2 x3 x4 x5 (ix2 p q) = preNormAt x0 x1 x2 x3 x4 x5 p q - rowMean x0 x1 x2 x3 x4 x5 p := by
  unfold k3_pay4
  refine (dev_apply _ _ _ p q).trans ?_
  rw [k3_pay3_at, k3_pay2_eq]

/-- The reciprocal-root column holds rsqrt(σ² + ε) of each row. -/
theorem k3_pay5_at (p : Fin 2000) (u : Fin 1) :
    k3_pay5 x0 x1 x2 x3 x4 x5 (ix2 p u) = Ideal.rsqrt (rowVar x0 x1 x2 x3 x4 x5 p + Ideal.ofBits .f32 0x3727C5AC#32) := by
  unfold k3_pay5
  dsimp only
  refine (rstdCol_apply _ _ _ _ _ _ _ p u).trans ?_
  refine congrArg (fun s => Ideal.rsqrt (Ideal.div s (Ideal.ofBits .f32 0x43800000#32) + Ideal.ofBits .f32 0x3727C5AC#32)) ?_
  refine Finset.sum_congr rfl fun k _ => ?_
  exact congrArg₂ (· * ·) (k3_pay4_at x0 x1 x2 x3 x4 x5 p k) (k3_pay4_at x0 x1 x2 x3 x4 x5 p k)

/-- The stored block is the update of the loaded blocks. -/
theorem k3_body_eq :
    k3_pay1 (k3_pay4 x0 x1 x2 x3 x4 x5) (k3_pay5 x0 x1 x2 x3 x4 x5) x6 x7 = upd x0 x1 x2 x3 x4 x5 x6 x7 := by
  funext j
  obtain ⟨p, q, rfl⟩ : ∃ p q, j = ix2 p q := ⟨j 0, j 1, eq_ix2 j⟩
  unfold k3_pay1
  simp only [shapeCast_self]
  refine (scale_apply _ _ x6 x7 _ p q).trans ?_
  rw [k3_pay4_at, broadcastTo_a1_ab_apply, k3_pay5_at]
  rfl

end R3

/-! ## The update of a block of rows is the block of rows of the update -/

/-- Rows o, …, o + n − 1 of an array. -/
def rowBlk {N D : Nat} (n o : Nat) (ho : o + n ≤ N) (h : Mat N D) : Mat n D :=
  fun j => h (ix2 ⟨o + (j 0).val, by have := idx2_lt0 j; omega⟩ (j 1))

/-- y at row p reads row p of the two row-indexed operands only. -/
theorem preNormAt_rows {N n D H : Nat} (h aggr : Mat N D) (h' aggr' : Mat n D) (w1 : Mat D H) (b1 : Mat 1 H) (w2 : Mat H H) (b2 : Mat 1 H)
    (p : Fin n) (P : Fin N) (eh : ∀ k, h' (ix2 p k) = h (ix2 P k)) (ea : ∀ k, aggr' (ix2 p k) = aggr (ix2 P k)) (q : Fin H) :
    preNormAt h' aggr' w1 b1 w2 b2 p q = preNormAt h aggr w1 b1 w2 b2 P q := by
  unfold preNormAt affineAt
  refine congrArg (· + b2 (ix2 0 q)) (Finset.sum_congr rfl fun k _ => congrArg (· * w2 (ix2 k q)) ?_)
  show max (affineAt (zsum h' aggr') w1 b1 p k) w0 = max (affineAt (zsum h aggr) w1 b1 P k) w0
  unfold affineAt zsum
  simp only [eh, ea]

/-- So does the update: mean and variance are taken along that row of y. -/
theorem updAt_rows {N n D H : Nat} (h aggr : Mat N D) (h' aggr' : Mat n D) (w1 : Mat D H) (b1 : Mat 1 H) (w2 : Mat H H) (b2 g bt : Mat 1 H)
    (p : Fin n) (P : Fin N) (eh : ∀ k, h' (ix2 p k) = h (ix2 P k)) (ea : ∀ k, aggr' (ix2 p k) = aggr (ix2 P k)) (q : Fin H) :
    updAt h' aggr' w1 b1 w2 b2 g bt p q = updAt h aggr w1 b1 w2 b2 g bt P q := by
  have e : ∀ q, preNormAt h' aggr' w1 b1 w2 b2 p q = preNormAt h aggr w1 b1 w2 b2 P q := preNormAt_rows h aggr h' aggr' w1 b1 w2 b2 p P eh ea
  unfold updAt rowVar rowMean
  simp only [e]

/-- The update reads row p of its row-indexed operands only: of a block of rows it is the block of rows. -/
theorem upd_rowBlk {N D H : Nat} (n o : Nat) (ho : o + n ≤ N) (h aggr : Mat N D) (w1 : Mat D H) (b1 : Mat 1 H) (w2 : Mat H H) (b2 g bt : Mat 1 H) :
    upd (rowBlk n o ho h) (rowBlk n o ho aggr) w1 b1 w2 b2 g bt = rowBlk n o ho (upd h aggr w1 b1 w2 b2 g bt) := by
  funext j
  exact updAt_rows h aggr _ _ w1 b1 w2 b2 g bt (j 0) ⟨o + (j 0).val, by have := idx2_lt0 j; omega⟩ (fun _ => rfl) (fun _ => rfl) (j 1)

variable (V : (c : Dev nD) → (b : Ref sig .tc) → Buf (Elt Ideal) ((c : Thread nD τ).loc b))

/-- The offsets of a whole-buffer access. -/
theorem zeroOff : (![0, 0] : Fin 2 → Nat) = fun _ => 0 := funext fun a => match a with | ⟨0, _⟩ => rfl | ⟨1, _⟩ => rfl

/-! ## Region 1: from the blocks to the array -/

/-- The printed index maps of region 1, decided over its 25 points: the two node windows and the output move one
    block of rows per point, every other window stays on its whole array. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The last block ends at the array's last row. -/
theorem rowsInRange1 (t : Fin cfg1.N) : t.val * 2000 + 2000 ≤ 50000 := by
  have := lt_of_lt_of_eq t.isLt N_1
  omega

/-- The node-feature window's block at point t: rows 2000 t, …, 2000 t + 1999. -/
theorem block1_0 (c : Dev nD) (t : Fin cfg1.N) : iblk1 V c 0 t = rowBlk 2000 (t.val * 2000) (rowsInRange1 t) (V c main_arg0) := by
  obtain ⟨e00, e01, e10, e11, e20, e21, e30, e31, e40, e41, e50, e51, e60, e61, e70, e71, e80, e81⟩ := blockIndex1 t
  funext j
  show V c main_arg0 (((cfg1.win 0).blk t).view.emb j) = V c main_arg0 (ix2 ⟨t.val * 2000 + (j 0).val, _⟩ (j 1))
  refine congrArg (V c main_arg0) ?_
  funext a; apply Fin.ext
  match a with
  | ⟨0, _⟩ => show win1_0.index t (0 : Fin 2) * 2000 + 1 * (j 0).val = t.val * 2000 + (j 0).val; rw [e00]; omega
  | ⟨1, _⟩ => show win1_0.index t (1 : Fin 2) * 128 + 1 * (j 1).val = (j 1).val; rw [e01]; omega

/-- The aggregated-message window's block at point t: the same rows. -/
theorem block1_1 (c : Dev nD) (t : Fin cfg1.N) : iblk1 V c 1 t = rowBlk 2000 (t.val * 2000) (rowsInRange1 t) (V c main_v9) := by
  obtain ⟨e00, e01, e10, e11, e20, e21, e30, e31, e40, e41, e50, e51, e60, e61, e70, e71, e80, e81⟩ := blockIndex1 t
  funext j
  show V c main_v9 (((cfg1.win 1).blk t).view.emb j) = V c main_v9 (ix2 ⟨t.val * 2000 + (j 0).val, _⟩ (j 1))
  refine congrArg (V c main_v9) ?_
  funext a; apply Fin.ext
  match a with
  | ⟨0, _⟩ => show win1_1.index t (0 : Fin 2) * 2000 + 1 * (j 0).val = t.val * 2000 + (j 0).val; rw [e10]; omega
  | ⟨1, _⟩ => show win1_1.index t (1 : Fin 2) * 128 + 1 * (j 1).val = (j 1).val; rw [e11]; omega

/-- Window 2 is its whole array at every point. -/
theorem block1_2 (c : Dev nD) (t : Fin cfg1.N) : iblk1 V c 2 t = V c main_arg6 := by
  obtain ⟨e00, e01, e10, e11, e20, e21, e30, e31, e40, e41, e50, e51, e60, e61, e70, e71, e80, e81⟩ := blockIndex1 t
  funext j
  show V c main_arg6 (((cfg1.win 2).blk t).view.emb j) = V c main_arg6 j
  refine congrArg (V c main_arg6) ?_
  funext a; apply Fin.ext
  match a with
  | ⟨0, _⟩ => show win1_2.index t (0 : Fin 2) * 128 + 1 * (j 0).val = (j 0).val; rw [e20]; omega
  | ⟨1, _⟩ => show win1_2.index t (1 : Fin 2) * 256 + 1 * (j 1).val = (j 1).val; rw [e21]; omega

/-- Window 3 is its whole array at every point. -/
theorem block1_3 (c : Dev nD) (t : Fin cfg1.N) : iblk1 V c 3 t = V c main_v10 := by
  obtain ⟨e00, e01, e10, e11, e20, e21, e30, e31, e40, e41, e50, e51, e60, e61, e70, e71, e80, e81⟩ := blockIndex1 t
  funext j
  show V c main_v10 (((cfg1.win 3).blk t).view.emb j) = V c main_v10 j
  refine congrArg (V c main_v10) ?_
  funext a; apply Fin.ext
  match a with
  | ⟨0, _⟩ => show win1_3.index t (0 : Fin 2) * 1 + 1 * (j 0).val = (j 0).val; rw [e30]; omega
  | ⟨1, _⟩ => show win1_3.index t (1 : Fin 2) * 256 + 1 * (j 1).val = (j 1).val; rw [e31]; omega

/-- Window 4 is its whole array at every point. -/
theorem block1_4 (c : Dev nD) (t : Fin cfg1.N) : iblk1 V c 4 t = V c main_arg8 := by
  obtain ⟨e00, e01, e10, e11, e20, e21, e30, e31, e40, e41, e50, e51, e60, e61, e70, e71, e80, e81⟩ := blockIndex1 t
  funext j
  show V c main_arg8 (((cfg1.win 4).blk t).view.emb j) = V c main_arg8 j
  refine congrArg (V c main_arg8) ?_
  funext a; apply Fin.ext
  match a with
  | ⟨0, _⟩ => show win1_4.index t (0 : Fin 2) * 256 + 1 * (j 0).val = (j 0).val; rw [e40]; omega
  | ⟨1, _⟩ => show win1_4.index t (1 : Fin 2) * 256 + 1 * (j 1).val = (j 1).val; rw [e41]; omega

/-- Window 5 is its whole array at every point. -/
theorem block1_5 (c : Dev nD) (t : Fin cfg1.N) : iblk1 V c 5 t = V c main_v11 := by
  obtain ⟨e00, e01, e10, e11, e20, e21, e30, e31, e40, e41, e50, e51, e60, e61, e70, e71, e80, e81⟩ := blockIndex1 t
  funext j
  show V c main_v11 (((cfg1.win 5).blk t).view.emb j) = V c main_v11 j
  refine congrArg (V c main_v11) ?_
  funext a; apply Fin.ext
  match a with
  | ⟨0, _⟩ => show win1_5.index t (0 : Fin 2) * 1 + 1 * (j 0).val = (j 0).val; rw [e50]; omega
  | ⟨1, _⟩ => show win1_5.index t (1 : Fin 2) * 256 + 1 * (j 1).val = (j 1).val; rw [e51]; omega

/-- Window 6 is its whole array at every point. -/
theorem block1_6 (c : Dev nD) (t : Fin cfg1.N) : iblk1 V c 6 t = V c main_v12 := by
  obtain ⟨e00, e01, e10, e11, e20, e21, e30, e31, e40, e41, e50, e51, e60, e61, e70, e71, e80, e81⟩ := blockIndex1 t
  funext j
  show V c main_v12 (((cfg1.win 6).blk t).view.emb j) = V c main_v12 j
  refine congrArg (V c main_v12) ?_
  funext a; apply Fin.ext
  match a with
  | ⟨0, _⟩ => show win1_6.index t (0 : Fin 2) * 1 + 1 * (j 0).val = (j 0).val; rw [e60]; omega
  | ⟨1, _⟩ => show win1_6.index t (1 : Fin 2) * 256 + 1 * (j 1).val = (j 1).val; rw [e61]; omega

/-- Window 7 is its whole array at every point. -/
theorem block1_7 (c : Dev nD) (t : Fin cfg1.N) : iblk1 V c 7 t = V c main_v13 := by
  obtain ⟨e00, e01, e10, e11, e20, e21, e30, e31, e40, e41, e50, e51, e60, e61, e70, e71, e80, e81⟩ := blockIndex1 t
  funext j
  show V c main_v13 (((cfg1.win 7).blk t).view.emb j) = V c main_v13 j
  refine congrArg (V c main_v13) ?_
  funext a; apply Fin.ext
  match a with
  | ⟨0, _⟩ => show win1_7.index t (0 : Fin 2) * 1 + 1 * (j 0).val = (j 0).val; rw [e70]; omega
  | ⟨1, _⟩ => show win1_7.index t (1 : Fin 2) * 256 + 1 * (j 1).val = (j 1).val; rw [e71]; omega

/-- The output window's block at point t, read off an array, is the array's block of rows. -/
theorem outBlock1 (t : Fin cfg1.N) (G : Mat 50000 256) :
    ((cfg1.win 8).blk t).view.read (Elt Ideal) G = rowBlk 2000 (t.val * 2000) (rowsInRange1 t) G := by
  obtain ⟨e00, e01, e10, e11, e20, e21, e30, e31, e40, e41, e50, e51, e60, e61, e70, e71, e80, e81⟩ := blockIndex1 t
  funext j
  show G (((cfg1.win 8).blk t).view.emb j) = G (ix2 ⟨t.val * 2000 + (j 0).val, _⟩ (j 1))
  refine congrArg G ?_
  funext a; apply Fin.ext
  match a with
  | ⟨0, _⟩ => show win1_8.index t (0 : Fin 2) * 2000 + 1 * (j 0).val = t.val * 2000 + (j 0).val; rw [e80]; omega
  | ⟨1, _⟩ => show win1_8.index t (1 : Fin 2) * 256 + 1 * (j 1).val = (j 1).val; rw [e81]; omega

/-- What point t writes back is block t of the update of the arrays as the region finds them. -/
theorem written1 (c : Dev nD) (t : Fin cfg1.N) :
    (dat1 (F := Ideal) V c).flushed 8 t = ((cfg1.win 8).blk t).view.read (Elt Ideal)
      (upd (V c main_arg0) (V c main_v9) (V c main_arg6) (V c main_v10) (V c main_arg8) (V c main_v11) (V c main_v12) (V c main_v13)) := by
  show (cfg1.win 8).cut (grid1.coords t) ((dat1 V c).after 8 t) = _
  rw [after1_8]
  unfold out1_8
  rw [View.canon_unit_zero zeroOff]
  simp only [View.ld_unit_zero (S := S2000x128) zeroOff, View.ld_unit_zero (S := S128x256) zeroOff, View.ld_unit_zero (S := S1x256) zeroOff, View.ld_unit_zero (S := S256x256) zeroOff]
  rw [k1_body_eq (iblk1 V c 0 t) (iblk1 V c 1 t) (iblk1 V c 2 t) (iblk1 V c 3 t) (iblk1 V c 4 t) (iblk1 V c 5 t) (iblk1 V c 6 t) (iblk1 V c 7 t)]
  rw [block1_0 V c t, block1_1 V c t, block1_2 V c t, block1_3 V c t, block1_4 V c t, block1_5 V c t, block1_6 V c t, block1_7 V c t, upd_rowBlk, outBlock1]
  rfl

/-- An index of the array is in point t's block iff each coordinate is in the block's range on its axis. -/
theorem mem_outBlock1 (t : Fin cfg1.N) (i : S50000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v14).slice (win1_8.rect t)).set ↔ _
  rw [View.set_slice_whole, Rect.mem_set_unit]
  exact Iff.rfl

/-- Every row lies in the block of the point its number divided by 2000 names. -/
theorem covered1 (i : S50000x256.Idx) : ∃ t : Fin cfg1.N, (cfg1.win 8).flush t = true ∧ i ∈ ((cfg1.win 8).blk t).view.set := by
  have hi0 : (i 0).val < 50000 := idx2_lt0 i
  have hi1 : (i 1).val < 256 := idx2_lt1 i
  have hN : (i 0).val / 2000 < cfg1.N := lt_of_lt_of_eq (by omega) N_1.symm
  refine ⟨⟨(i 0).val / 2000, hN⟩, flush1_8 _, ?_⟩
  obtain ⟨e00, e01, e10, e11, e20, e21, e30, e31, e40, e41, e50, e51, e60, e61, e70, e71, e80, e81⟩ := blockIndex1 ⟨(i 0).val / 2000, hN⟩
  rw [mem_outBlock1]
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    rw [e80]; show (i 0).val / 2000 * 2000 ≤ (i 0).val ∧ (i 0).val < (i 0).val / 2000 * 2000 + 2000; omega
  | ⟨1, _⟩ =>
    show win1_8.index ⟨(i 0).val / 2000, hN⟩ (1 : Fin 2) * 256 ≤ (i 1).val ∧ (i 1).val < win1_8.index ⟨(i 0).val / 2000, hN⟩ (1 : Fin 2) * 256 + 256
    rw [e81]; omega

/-- Region 1 (128 → 256 columns, 25 blocks of 2000 nodes). -/
theorem value1 (c : Dev nD) :
    (dat1 (F := Ideal) V c).arrAt 8 cfg1.N = Cert.Gnn.upd (V c main_arg0) (V c main_v9) (V c main_arg6) (V c main_v10) (V c main_arg8) (V c main_v11) (V c main_v12) (V c main_v13) :=
  (dat1 (F := Ideal) V c).arrAt_eq_of_cover 8 _ (fun t _ => written1 V c t) covered1

/-! ## Region 3: from the blocks to the array -/

/-- The printed index maps of region 3, decided over its 25 points: the two node windows and the output move one
    block of rows per point, every other window stays on its whole array. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- The last block ends at the array's last row. -/
theorem rowsInRange3 (t : Fin cfg3.N) : t.val * 2000 + 2000 ≤ 50000 := by
  have := lt_of_lt_of_eq t.isLt N_3
  omega

/-- The node-feature window's block at point t: rows 2000 t, …, 2000 t + 1999. -/
theorem block3_0 (c : Dev nD) (t : Fin cfg3.N) : iblk3 V c 0 t = rowBlk 2000 (t.val * 2000) (rowsInRange3 t) (V c main_v14) := by
  obtain ⟨e00, e01, e10, e11, e20, e21, e30, e31, e40, e41, e50, e51, e60, e61, e70, e71, e80, e81⟩ := blockIndex3 t
  funext j
  show V c main_v14 (((cfg3.win 0).blk t).view.emb j) = V c main_v14 (ix2 ⟨t.val * 2000 + (j 0).val, _⟩ (j 1))
  refine congrArg (V c main_v14) ?_
  funext a; apply Fin.ext
  match a with
  | ⟨0, _⟩ => show win3_0.index t (0 : Fin 2) * 2000 + 1 * (j 0).val = t.val * 2000 + (j 0).val; rw [e00]; omega
  | ⟨1, _⟩ => show win3_0.index t (1 : Fin 2) * 256 + 1 * (j 1).val = (j 1).val; rw [e01]; omega

/-- The aggregated-message window's block at point t: the same rows. -/
theorem block3_1 (c : Dev nD) (t : Fin cfg3.N) : iblk3 V c 1 t = rowBlk 2000 (t.val * 2000) (rowsInRange3 t) (V c main_v20) := by
  obtain ⟨e00, e01, e10, e11, e20, e21, e30, e31, e40, e41, e50, e51, e60, e61, e70, e71, e80, e81⟩ := blockIndex3 t
  funext j
  show V c main_v20 (((cfg3.win 1).blk t).view.emb j) = V c main_v20 (ix2 ⟨t.val * 2000 + (j 0).val, _⟩ (j 1))
  refine congrArg (V c main_v20) ?_
  funext a; apply Fin.ext
  match a with
  | ⟨0, _⟩ => show win3_1.index t (0 : Fin 2) * 2000 + 1 * (j 0).val = t.val * 2000 + (j 0).val; rw [e10]; omega
  | ⟨1, _⟩ => show win3_1.index t (1 : Fin 2) * 256 + 1 * (j 1).val = (j 1).val; rw [e11]; omega

/-- Window 2 is its whole array at every point. -/
theorem block3_2 (c : Dev nD) (t : Fin cfg3.N) : iblk3 V c 2 t = V c main_arg14 := by
  obtain ⟨e00, e01, e10, e11, e20, e21, e30, e31, e40, e41, e50, e51, e60, e61, e70, e71, e80, e81⟩ := blockIndex3 t
  funext j
  show V c main_arg14 (((cfg3.win 2).blk t).view.emb j) = V c main_arg14 j
  refine congrArg (V c main_arg14) ?_
  funext a; apply Fin.ext
  match a with
  | ⟨0, _⟩ => show win3_2.index t (0 : Fin 2) * 256 + 1 * (j 0).val = (j 0).val; rw [e20]; omega
  | ⟨1, _⟩ => show win3_2.index t (1 : Fin 2) * 256 + 1 * (j 1).val = (j 1).val; rw [e21]; omega

/-- Window 3 is its whole array at every point. -/
theorem block3_3 (c : Dev nD) (t : Fin cfg3.N) : iblk3 V c 3 t = V c main_v21 := by
  obtain ⟨e00, e01, e10, e11, e20, e21, e30, e31, e40, e41, e50, e51, e60, e61, e70, e71, e80, e81⟩ := blockIndex3 t
  funext j
  show V c main_v21 (((cfg3.win 3).blk t).view.emb j) = V c main_v21 j
  refine congrArg (V c main_v21) ?_
  funext a; apply Fin.ext
  match a with
  | ⟨0, _⟩ => show win3_3.index t (0 : Fin 2) * 1 + 1 * (j 0).val = (j 0).val; rw [e30]; omega
  | ⟨1, _⟩ => show win3_3.index t (1 : Fin 2) * 256 + 1 * (j 1).val = (j 1).val; rw [e31]; omega

/-- Window 4 is its whole array at every point. -/
theorem block3_4 (c : Dev nD) (t : Fin cfg3.N) : iblk3 V c 4 t = V c main_arg16 := by
  obtain ⟨e00, e01, e10, e11, e20, e21, e30, e31, e40, e41, e50, e51, e60, e61, e70, e71, e80, e81⟩ := blockIndex3 t
  funext j
  show V c main_arg16 (((cfg3.win 4).blk t).view.emb j) = V c main_arg16 j
  refine congrArg (V c main_arg16) ?_
  funext a; apply Fin.ext
  match a with
  | ⟨0, _⟩ => show win3_4.index t (0 : Fin 2) * 256 + 1 * (j 0).val = (j 0).val; rw [e40]; omega
  | ⟨1, _⟩ => show win3_4.index t (1 : Fin 2) * 256 + 1 * (j 1).val = (j 1).val; rw [e41]; omega

/-- Window 5 is its whole array at every point. -/
theorem block3_5 (c : Dev nD) (t : Fin cfg3.N) : iblk3 V c 5 t = V c main_v22 := by
  obtain ⟨e00, e01, e10, e11, e20, e21, e30, e31, e40, e41, e50, e51, e60, e61, e70, e71, e80, e81⟩ := blockIndex3 t
  funext j
  show V c main_v22 (((cfg3.win 5).blk t).view.emb j) = V c main_v22 j
  refine congrArg (V c main_v22) ?_
  funext a; apply Fin.ext
  match a with
  | ⟨0, _⟩ => show win3_5.index t (0 : Fin 2) * 1 + 1 * (j 0).val = (j 0).val; rw [e50]; omega
  | ⟨1, _⟩ => show win3_5.index t (1 : Fin 2) * 256 + 1 * (j 1).val = (j 1).val; rw [e51]; omega

/-- Window 6 is its whole array at every point. -/
theorem block3_6 (c : Dev nD) (t : Fin cfg3.N) : iblk3 V c 6 t = V c main_v23 := by
  obtain ⟨e00, e01, e10, e11, e20, e21, e30, e31, e40, e41, e50, e51, e60, e61, e70, e71, e80, e81⟩ := blockIndex3 t
  funext j
  show V c main_v23 (((cfg3.win 6).blk t).view.emb j) = V c main_v23 j
  refine congrArg (V c main_v23) ?_
  funext a; apply Fin.ext
  match a with
  | ⟨0, _⟩ => show win3_6.index t (0 : Fin 2) * 1 + 1 * (j 0).val = (j 0).val; rw [e60]; omega
  | ⟨1, _⟩ => show win3_6.index t (1 : Fin 2) * 256 + 1 * (j 1).val = (j 1).val; rw [e61]; omega

/-- Window 7 is its whole array at every point. -/
theorem block3_7 (c : Dev nD) (t : Fin cfg3.N) : iblk3 V c 7 t = V c main_v24 := by
  obtain ⟨e00, e01, e10, e11, e20, e21, e30, e31, e40, e41, e50, e51, e60, e61, e70, e71, e80, e81⟩ := blockIndex3 t
  funext j
  show V c main_v24 (((cfg3.win 7).blk t).view.emb j) = V c main_v24 j
  refine congrArg (V c main_v24) ?_
  funext a; apply Fin.ext
  match a with
  | ⟨0, _⟩ => show win3_7.index t (0 : Fin 2) * 1 + 1 * (j 0).val = (j 0).val; rw [e70]; omega
  | ⟨1, _⟩ => show win3_7.index t (1 : Fin 2) * 256 + 1 * (j 1).val = (j 1).val; rw [e71]; omega

/-- The output window's block at point t, read off an array, is the array's block of rows. -/
theorem outBlock3 (t : Fin cfg3.N) (G : Mat 50000 256) :
    ((cfg3.win 8).blk t).view.read (Elt Ideal) G = rowBlk 2000 (t.val * 2000) (rowsInRange3 t) G := by
  obtain ⟨e00, e01, e10, e11, e20, e21, e30, e31, e40, e41, e50, e51, e60, e61, e70, e71, e80, e81⟩ := blockIndex3 t
  funext j
  show G (((cfg3.win 8).blk t).view.emb j) = G (ix2 ⟨t.val * 2000 + (j 0).val, _⟩ (j 1))
  refine congrArg G ?_
  funext a; apply Fin.ext
  match a with
  | ⟨0, _⟩ => show win3_8.index t (0 : Fin 2) * 2000 + 1 * (j 0).val = t.val * 2000 + (j 0).val; rw [e80]; omega
  | ⟨1, _⟩ => show win3_8.index t (1 : Fin 2) * 256 + 1 * (j 1).val = (j 1).val; rw [e81]; omega

/-- What point t writes back is block t of the update of the arrays as the region finds them. -/
theorem written3 (c : Dev nD) (t : Fin cfg3.N) :
    (dat3 (F := Ideal) V c).flushed 8 t = ((cfg3.win 8).blk t).view.read (Elt Ideal)
      (upd (V c main_v14) (V c main_v20) (V c main_arg14) (V c main_v21) (V c main_arg16) (V c main_v22) (V c main_v23) (V c main_v24)) := by
  show (cfg3.win 8).cut (grid3.coords t) ((dat3 V c).after 8 t) = _
  rw [after3_8]
  unfold out3_8
  rw [View.canon_unit_zero zeroOff]
  simp only [View.ld_unit_zero (S := S2000x256) zeroOff, View.ld_unit_zero (S := S256x256) zeroOff, View.ld_unit_zero (S := S1x256) zeroOff]
  rw [k3_body_eq (iblk3 V c 0 t) (iblk3 V c 1 t) (iblk3 V c 2 t) (iblk3 V c 3 t) (iblk3 V c 4 t) (iblk3 V c 5 t) (iblk3 V c 6 t) (iblk3 V c 7 t)]
  rw [block3_0 V c t, block3_1 V c t, block3_2 V c t, block3_3 V c t, block3_4 V c t, block3_5 V c t, block3_6 V c t, block3_7 V c t, upd_rowBlk, outBlock3]
  rfl

/-- An index of the array is in point t's block iff each coordinate is in the block's range on its axis. -/
theorem mem_outBlock3 (t : Fin cfg3.N) (i : S50000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v25).slice (win3_8.rect t)).set ↔ _
  rw [View.set_slice_whole, Rect.mem_set_unit]
  exact Iff.rfl

/-- Every row lies in the block of the point its number divided by 2000 names. -/
theorem covered3 (i : S50000x256.Idx) : ∃ t : Fin cfg3.N, (cfg3.win 8).flush t = true ∧ i ∈ ((cfg3.win 8).blk t).view.set := by
  have hi0 : (i 0).val < 50000 := idx2_lt0 i
  have hi1 : (i 1).val < 256 := idx2_lt1 i
  have hN : (i 0).val / 2000 < cfg3.N := lt_of_lt_of_eq (by omega) N_3.symm
  refine ⟨⟨(i 0).val / 2000, hN⟩, flush3_8 _, ?_⟩
  obtain ⟨e00, e01, e10, e11, e20, e21, e30, e31, e40, e41, e50, e51, e60, e61, e70, e71, e80, e81⟩ := blockIndex3 ⟨(i 0).val / 2000, hN⟩
  rw [mem_outBlock3]
  intro a
  match a with
  | ⟨0, _⟩ =>
    show win3_8.index ⟨(i 0).val / 2000, hN⟩ (0 : Fin 2) * 2000 ≤ (i 0).val ∧ (i 0).val < win3_8.index ⟨(i 0).val / 2000, hN⟩ (0 : Fin 2) * 2000 + 2000
    rw [e80]; show (i 0).val / 2000 * 2000 ≤ (i 0).val ∧ (i 0).val < (i 0).val / 2000 * 2000 + 2000; omega
  | ⟨1, _⟩ =>
    show win3_8.index ⟨(i 0).val / 2000, hN⟩ (1 : Fin 2) * 256 ≤ (i 1).val ∧ (i 1).val < win3_8.index ⟨(i 0).val / 2000, hN⟩ (1 : Fin 2) * 256 + 256
    rw [e81]; omega

/-- Region 3 (256 → 256 columns, 25 blocks of 2000 nodes). -/
theorem value3 (c : Dev nD) :
    (dat3 (F := Ideal) V c).arrAt 8 cfg3.N = Cert.Gnn.upd (V c main_v14) (V c main_v20) (V c main_arg14) (V c main_v21) (V c main_arg16) (V c main_v22) (V c main_v23) (V c main_v24) :=
  (dat3 (F := Ideal) V c).arrAt_eq_of_cover 8 _ (fun t _ => written3 V c t) covered3

end Upd

variable (V : (c : Dev nD) → (b : Ref sig .tc) → Buf (Elt Ideal) ((c : Thread nD τ).loc b))

/-- Region 1 (128 → 256 columns, 25 blocks of 2000 nodes). -/
theorem region1_value (c : Dev nD) :
    (dat1 (F := Ideal) V c).arrAt 8 cfg1.N = Cert.Gnn.upd (V c main_arg0) (V c main_v9) (V c main_arg6) (V c main_v10) (V c main_arg8) (V c main_v11) (V c main_v12) (V c main_v13) :=
  Upd.value1 V c

/-- Region 3 (256 → 256 columns, 25 blocks of 2000 nodes). -/
theorem region3_value (c : Dev nD) :
    (dat3 (F := Ideal) V c).arrAt 8 cfg3.N = Cert.Gnn.upd (V c main_v14) (V c main_v20) (V c main_arg14) (V c main_v21) (V c main_arg16) (V c main_v22) (V c main_v23) (V c main_v24) :=
  Upd.value3 V c

end Cert.KernelIdeal.RegionValue

end
-- ==== Proof.KChain1.lean ====
/-
  The kernel program up to the end of its second region: the buffer that holds the first layer's node features is the
  first-layer term of the argument arrays (KDefs.lean). Each host stretch is read back operation by operation, each region
  by its whole-array value, and an argument array is found unchanged at every boundary because nothing writes it.
-/
import proofs.«429655_j28415503630975_1_alg».proof.Proof.Gen.KernelIdeal.Frame
import proofs.«429655_j28415503630975_1_alg».proof.Proof.KDefs
import proofs.«429655_j28415503630975_1_alg».proof.Proof.KMsg
import proofs.«429655_j28415503630975_1_alg».proof.Proof.KUpd
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg)

/-! ## Contents moved to a buffer's own type and back -/

/-- Moving contents to the buffer's type and back is the identity. -/
theorem ofBuf_toBuf {T : BufTy} (x : TRef sig T) (v : T.Contents (Elt Ideal)) :
    x.ofBuf (x.toBuf v) = v := by
  obtain ⟨r, h, a, b⟩ := x
  subst h
  rfl

/-- At a literal buffer whose type is the value's, the move is the identity. -/
theorem ofBuf_v1 (h1 h2 h3) (x : (main_v1 : Ref sig .tc).ty.Contents (Elt Ideal)) :
    (TRef.of main_v1 h1 h2 h3 : TRef sig ⟨S800000, .i32⟩).ofBuf x = x := rfl

theorem ofBuf_arg0 (h1 h2 h3) (x : (main_arg0 : Ref sig .tc).ty.Contents (Elt Ideal)) :
    (TRef.of main_arg0 h1 h2 h3 : TRef sig ⟨S50000x128, .f32⟩).ofBuf x = x := rfl

theorem toBuf_v4 (h1 h2 h3) (x : FVec Ideal S800000x128 .f32) :
    (TRef.of main_v4 h1 h2 h3 : TRef sig ⟨S800000x128, .f32⟩).toBuf (Val := Elt Ideal) x = x := rfl

/-- A buffer that no operation of a host stretch writes holds after the stretch what it held before. -/
local macro "host_keeps" : tactic =>
  `(tactic| (refine StableHlo.after_of_forall_not_mem _ _ (List.forall_iff_forall_mem.mp ?_)
             simp only [hostOps0, hostOps0_1, hostOps0_2, hostOps1, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

/-! ## The first host stretch: the two rows of the edge list -/

theorem v1_at_W1 (c : Dev nD) :
    W1 (F := Ideal) m ρ c (Proc.devRef .tc main_v1) = srcOf (m ((c : Thread nD τ).loc main_arg1)) := by
  show StableHlo.after hostOps0 _ (Proc.devRef .tc main_v1) = _
  after_results
  rfl

theorem v3_at_W1 (c : Dev nD) :
    W1 (F := Ideal) m ρ c (Proc.devRef .tc main_v3) = dstOf (m ((c : Thread nD τ).loc main_arg1)) := by
  show StableHlo.after hostOps0 _ (Proc.devRef .tc main_v3) = _
  after_results
  rfl

/-- A buffer written by none of the three host stretches before region 0 holds at its entry what it held at launch. -/
theorem W3_of_launch (c : Dev nD) (b : Ref sig .tc)
    (h0 : W1 (F := Ideal) m ρ c (Proc.devRef .tc b) = W0 m ρ c (Proc.devRef .tc b))
    (h1 : W2 (F := Ideal) m ρ c (Proc.devRef .tc b) = W1 m ρ c (Proc.devRef .tc b))
    (h2 : W3 (F := Ideal) m ρ c (Proc.devRef .tc b) = W2 m ρ c (Proc.devRef .tc b)) :
    W3 (F := Ideal) m ρ c (Proc.devRef .tc b) = m ((c : Thread nD τ).loc b) :=
  h2.trans (h1.trans h0)

theorem arg0_at_W1 (c : Dev nD) :
    W1 (F := Ideal) m ρ c (Proc.devRef .tc main_arg0) = m ((c : Thread nD τ).loc main_arg0) := by
  show StableHlo.after hostOps0 (W0 m ρ c) _ = W0 m ρ c _
  host_keeps

theorem arg0_at_W3 (c : Dev nD) :
    W3 (F := Ideal) m ρ c (Proc.devRef .tc main_arg0) = m ((c : Thread nD τ).loc main_arg0) :=
  W3_of_launch m ρ c main_arg0 (by host_keeps) (by host_keeps) (by host_keeps)

/-! ## The second host stretch: the fill-mode row gather -/

/-- The stretch leaves in its result buffer the fill-mode gather of the table's rows at the index vector: each
    intermediate value is read back from the buffer its operation wrote. -/
theorem take_stretch (V : Valuation τ sig (Elt Ideal)) :
    StableHlo.after hostOps0_1 V (Proc.devRef .tc main_v4)
      = take128 (V (Proc.devRef .tc main_arg0)) (V (Proc.devRef .tc main_v1)) := by
  after_results_simp
  simp only [ofBuf_toBuf]
  generalize V (Proc.devRef .tc main_v1) = x1
  generalize V (Proc.devRef .tc main_arg0) = x0
  rw [ofBuf_v1, ofBuf_arg0]
  refine (toBuf_v4 _ _ _ _).trans ?_
  unfold take128 inRange wrapIdx
  rfl

theorem v4_at_W2 (c : Dev nD) :
    W2 (F := Ideal) m ρ c (Proc.devRef .tc main_v4)
      = take128 (m ((c : Thread nD τ).loc main_arg0)) (srcOf (m ((c : Thread nD τ).loc main_arg1))) := by
  refine (take_stretch (W1 m ρ c)).trans ?_
  rw [arg0_at_W1, v1_at_W1]

/-! ## Region 0's entry: its four operand arrays -/

theorem v4_at_W3 (c : Dev nD) :
    W3 (F := Ideal) m ρ c (Proc.devRef .tc main_v4)
      = take128 (m ((c : Thread nD τ).loc main_arg0)) (srcOf (m ((c : Thread nD τ).loc main_arg1))) :=
  (by host_keeps : W3 (F := Ideal) m ρ c (Proc.devRef .tc main_v4) = W2 m ρ c (Proc.devRef .tc main_v4)).trans
    (v4_at_W2 m ρ c)

theorem arg2_at_W3 (c : Dev nD) :
    W3 (F := Ideal) m ρ c (Proc.devRef .tc main_arg2) = m ((c : Thread nD τ).loc main_arg2) :=
  W3_of_launch m ρ c main_arg2 (by host_keeps) (by host_keeps) (by host_keeps)

theorem arg4_at_W3 (c : Dev nD) :
    W3 (F := Ideal) m ρ c (Proc.devRef .tc main_arg4) = m ((c : Thread nD τ).loc main_arg4) :=
  W3_of_launch m ρ c main_arg4 (by host_keeps) (by host_keeps) (by host_keeps)

/-- The third host stretch: the message bias as a one-row matrix. -/
theorem bias_stretch (V : Valuation τ sig (Elt Ideal)) :
    StableHlo.after hostOps0_2 V (Proc.devRef .tc main_v5)
      = shapeCast S1x128 (V (Proc.devRef .tc main_arg5)) shapeCasts_S128_S1x128 := by
  after_results
  rfl

theorem v5_at_W3 (c : Dev nD) :
    W3 (F := Ideal) m ρ c (Proc.devRef .tc main_v5)
      = shapeCast S1x128 (m ((c : Thread nD τ).loc main_arg5)) shapeCasts_S128_S1x128 := by
  have e : W2 (F := Ideal) m ρ c (Proc.devRef .tc main_arg5) = m ((c : Thread nD τ).loc main_arg5) :=
    (by host_keeps : W2 (F := Ideal) m ρ c (Proc.devRef .tc main_arg5) = W1 m ρ c (Proc.devRef .tc main_arg5)).trans
      (by host_keeps : W1 (F := Ideal) m ρ c (Proc.devRef .tc main_arg5) = W0 m ρ c (Proc.devRef .tc main_arg5))
  refine (bias_stretch (W2 m ρ c)).trans ?_
  rw [e]

/-! ## Region 0: the messages -/

theorem v6_at_W4 (c : Dev nD) :
    W4 (F := Ideal) m ρ c (Proc.devRef .tc main_v6)
      = Cert.Gnn.msg (take128 (m ((c : Thread nD τ).loc main_arg0)) (srcOf (m ((c : Thread nD τ).loc main_arg1))))
          (m ((c : Thread nD τ).loc main_arg2)) (m ((c : Thread nD τ).loc main_arg4))
          (shapeCast S1x128 (m ((c : Thread nD τ).loc main_arg5)) shapeCasts_S128_S1x128) :=
  calc W4 (F := Ideal) m ρ c (Proc.devRef .tc main_v6)
    _ = (dat0 (V3 m ρ) c).arrAt 4 cfg0.N := W4_arr m ρ c 4
    _ = Cert.Gnn.msg (W3 m ρ c (Proc.devRef .tc main_v4)) (W3 m ρ c (Proc.devRef .tc main_arg2))
          (W3 m ρ c (Proc.devRef .tc main_arg4)) (W3 m ρ c (Proc.devRef .tc main_v5)) := region0_value (V3 m ρ) c
    _ = _ := by rw [v4_at_W3, arg2_at_W3, arg4_at_W3, v5_at_W3]

/-! ## The index rows carried past region 0 -/

theorem v1_at_W4 (c : Dev nD) :
    W4 (F := Ideal) m ρ c (Proc.devRef .tc main_v1) = srcOf (m ((c : Thread nD τ).loc main_arg1)) :=
  (W4_of_ne m ρ c main_v1 (by decide)).trans
    ((by host_keeps : W3 (F := Ideal) m ρ c (Proc.devRef .tc main_v1) = W2 m ρ c (Proc.devRef .tc main_v1)).trans
      ((by host_keeps : W2 (F := Ideal) m ρ c (Proc.devRef .tc main_v1) = W1 m ρ c (Proc.devRef .tc main_v1)).trans
        (v1_at_W1 m ρ c)))

theorem v3_at_W4 (c : Dev nD) :
    W4 (F := Ideal) m ρ c (Proc.devRef .tc main_v3) = dstOf (m ((c : Thread nD τ).loc main_arg1)) :=
  (W4_of_ne m ρ c main_v3 (by decide)).trans
    ((by host_keeps : W3 (F := Ideal) m ρ c (Proc.devRef .tc main_v3) = W2 m ρ c (Proc.devRef .tc main_v3)).trans
      ((by host_keeps : W2 (F := Ideal) m ρ c (Proc.devRef .tc main_v3) = W1 m ρ c (Proc.devRef .tc main_v3)).trans
        (v3_at_W1 m ρ c)))

/-- An argument array that is no window of region 0 holds at the region's exit what it held at launch. -/
theorem W4_of_launch (c : Dev nD) (b : Ref sig .tc) (hw : ∀ w, Pipeline.arrRef spec0 w ≠ b)
    (h0 : W1 (F := Ideal) m ρ c (Proc.devRef .tc b) = W0 m ρ c (Proc.devRef .tc b))
    (h1 : W2 (F := Ideal) m ρ c (Proc.devRef .tc b) = W1 m ρ c (Proc.devRef .tc b))
    (h2 : W3 (F := Ideal) m ρ c (Proc.devRef .tc b) = W2 m ρ c (Proc.devRef .tc b)) :
    W4 (F := Ideal) m ρ c (Proc.devRef .tc b) = m ((c : Thread nD τ).loc b) :=
  (W4_of_ne m ρ c b hw).trans (W3_of_launch m ρ c b h0 h1 h2)

/-! ## The fourth host stretch: the scatter-add of the messages and the four row vectors as one-row matrices -/

theorem aggr_stretch (V : Valuation τ sig (Elt Ideal)) :
    StableHlo.after hostOps1 V (Proc.devRef .tc main_v9)
      = aggr128 (V (Proc.devRef .tc main_v3)) (V (Proc.devRef .tc main_v6)) := by
  after_results
  rfl

theorem row10_stretch (V : Valuation τ sig (Elt Ideal)) :
    StableHlo.after hostOps1 V (Proc.devRef .tc main_v10)
      = shapeCast S1x256 (V (Proc.devRef .tc main_arg7)) shapeCasts_S256_S1x256 := by
  after_results
  rfl

theorem row11_stretch (V : Valuation τ sig (Elt Ideal)) :
    StableHlo.after hostOps1 V (Proc.devRef .tc main_v11)
      = shapeCast S1x256 (V (Proc.devRef .tc main_arg9)) shapeCasts_S256_S1x256 := by
  after_results
  rfl

theorem row12_stretch (V : Valuation τ sig (Elt Ideal)) :
    StableHlo.after hostOps1 V (Proc.devRef .tc main_v12)
      = shapeCast S1x256 (V (Proc.devRef .tc main_arg10)) shapeCasts_S256_S1x256 := by
  after_results
  rfl

theorem row13_stretch (V : Valuation τ sig (Elt Ideal)) :
    StableHlo.after hostOps1 V (Proc.devRef .tc main_v13)
      = shapeCast S1x256 (V (Proc.devRef .tc main_arg11)) shapeCasts_S256_S1x256 := by
  after_results
  rfl

/-! ## Region 1's entry: its eight operand arrays -/

theorem arg0_at_W5 (c : Dev nD) :
    W5 (F := Ideal) m ρ c (Proc.devRef .tc main_arg0) = m ((c : Thread nD τ).loc main_arg0) :=
  (by host_keeps : W5 (F := Ideal) m ρ c (Proc.devRef .tc main_arg0) = W4 m ρ c (Proc.devRef .tc main_arg0)).trans
    (W4_of_launch m ρ c main_arg0 (by decide) (by host_keeps) (by host_keeps) (by host_keeps))

theorem arg6_at_W5 (c : Dev nD) :
    W5 (F := Ideal) m ρ c (Proc.devRef .tc main_arg6) = m ((c : Thread nD τ).loc main_arg6) :=
  (by host_keeps : W5 (F := Ideal) m ρ c (Proc.devRef .tc main_arg6) = W4 m ρ c (Proc.devRef .tc main_arg6)).trans
    (W4_of_launch m ρ c main_arg6 (by decide) (by host_keeps) (by host_keeps) (by host_keeps))

theorem arg8_at_W5 (c : Dev nD) :
    W5 (F := Ideal) m ρ c (Proc.devRef .tc main_arg8) = m ((c : Thread nD τ).loc main_arg8) :=
  (by host_keeps : W5 (F := Ideal) m ρ c (Proc.devRef .tc main_arg8) = W4 m ρ c (Proc.devRef .tc main_arg8)).trans
    (W4_of_launch m ρ c main_arg8 (by decide) (by host_keeps) (by host_keeps) (by host_keeps))

theorem v9_at_W5 (c : Dev nD) :
    W5 (F := Ideal) m ρ c (Proc.devRef .tc main_v9)
      = aggr128 (dstOf (m ((c : Thread nD τ).loc main_arg1)))
          (Cert.Gnn.msg (take128 (m ((c : Thread nD τ).loc main_arg0)) (srcOf (m ((c : Thread nD τ).loc main_arg1))))
            (m ((c : Thread nD τ).loc main_arg2)) (m ((c : Thread nD τ).loc main_arg4))
            (shapeCast S1x128 (m ((c : Thread nD τ).loc main_arg5)) shapeCasts_S128_S1x128)) := by
  refine (aggr_stretch (W4 m ρ c)).trans ?_
  rw [v3_at_W4, v6_at_W4]

theorem v10_at_W5 (c : Dev nD) :
    W5 (F := Ideal) m ρ c (Proc.devRef .tc main_v10)
      = shapeCast S1x256 (m ((c : Thread nD τ).loc main_arg7)) shapeCasts_S256_S1x256 := by
  refine (row10_stretch (W4 m ρ c)).trans ?_
  rw [W4_of_launch m ρ c main_arg7 (by decide) (by host_keeps) (by host_keeps) (by host_keeps)]

theorem v11_at_W5 (c : Dev nD) :
    W5 (F := Ideal) m ρ c (Proc.devRef .tc main_v11)
      = shapeCast S1x256 (m ((c : Thread nD τ).loc main_arg9)) shapeCasts_S256_S1x256 := by
  refine (row11_stretch (W4 m ρ c)).trans ?_
  rw [W4_of_launch m ρ c main_arg9 (by decide) (by host_keeps) (by host_keeps) (by host_keeps)]

theorem v12_at_W5 (c : Dev nD) :
    W5 (F := Ideal) m ρ c (Proc.devRef .tc main_v12)
      = shapeCast S1x256 (m ((c : Thread nD τ).loc main_arg10)) shapeCasts_S256_S1x256 := by
  refine (row12_stretch (W4 m ρ c)).trans ?_
  rw [W4_of_launch m ρ c main_arg10 (by decide) (by host_keeps) (by host_keeps) (by host_keeps)]

theorem v13_at_W5 (c : Dev nD) :
    W5 (F := Ideal) m ρ c (Proc.devRef .tc main_v13)
      = shapeCast S1x256 (m ((c : Thread nD τ).loc main_arg11)) shapeCasts_S256_S1x256 := by
  refine (row13_stretch (W4 m ρ c)).trans ?_
  rw [W4_of_launch m ρ c main_arg11 (by decide) (by host_keeps) (by host_keeps) (by host_keeps)]

/-! ## Region 1: the first layer's node features, and the index rows carried past it -/

/-- The source-index vector, cut from the edge list before the first region, is still in its buffer after region 1. -/
theorem v1_at_W6 (c : Dev nD) :
    W6 (F := Ideal) m ρ c (Proc.devRef .tc main_v1) = srcOf (m ((c : Thread nD τ).loc main_arg1)) :=
  (W6_of_ne m ρ c main_v1 (by decide)).trans
    ((by host_keeps : W5 (F := Ideal) m ρ c (Proc.devRef .tc main_v1) = W4 m ρ c (Proc.devRef .tc main_v1)).trans
      (v1_at_W4 m ρ c))

/-- Likewise the destination-index vector. -/
theorem v3_at_W6 (c : Dev nD) :
    W6 (F := Ideal) m ρ c (Proc.devRef .tc main_v3) = dstOf (m ((c : Thread nD τ).loc main_arg1)) :=
  (W6_of_ne m ρ c main_v3 (by decide)).trans
    ((by host_keeps : W5 (F := Ideal) m ρ c (Proc.devRef .tc main_v3) = W4 m ρ c (Proc.devRef .tc main_v3)).trans
      (v3_at_W4 m ρ c))

/-- After region 1 the first layer's output buffer holds `layer1` of the arguments. -/
theorem layer1_value (c : Dev nD) :
    W6 (F := Ideal) m ρ c (Proc.devRef .tc main_v14) = layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  calc W6 (F := Ideal) m ρ c (Proc.devRef .tc main_v14)
    _ = (dat1 (V5 m ρ) c).arrAt 8 cfg1.N := W6_arr m ρ c 8
    _ = Cert.Gnn.upd (W5 m ρ c (Proc.devRef .tc main_arg0)) (W5 m ρ c (Proc.devRef .tc main_v9))
          (W5 m ρ c (Proc.devRef .tc main_arg6)) (W5 m ρ c (Proc.devRef .tc main_v10))
          (W5 m ρ c (Proc.devRef .tc main_arg8)) (W5 m ρ c (Proc.devRef .tc main_v11))
          (W5 m ρ c (Proc.devRef .tc main_v12)) (W5 m ρ c (Proc.devRef .tc main_v13)) := region1_value (V5 m ρ) c
    _ = _ := by
      rw [arg0_at_W5, v9_at_W5, arg6_at_W5, v10_at_W5, arg8_at_W5, v11_at_W5, v12_at_W5, v13_at_W5]
      rfl

end Cert.KernelIdeal.Chain

end
-- ==== Proof.KChain2a.lean ====
/-
  The kernel program from its second region's exit to its third's: the second gather, the second message region. The
  buffer of the second layer's messages holds the message function of the gathered first-layer features; the first
  layer's features and the destination-index vector are still in their buffers.
-/
import proofs.«429655_j28415503630975_1_alg».proof.Proof.Gen.KernelIdeal.Frame
import proofs.«429655_j28415503630975_1_alg».proof.Proof.KDefs
import proofs.«429655_j28415503630975_1_alg».proof.Proof.KMsg
import proofs.«429655_j28415503630975_1_alg».proof.Proof.KUpd
import proofs.«429655_j28415503630975_1_alg».proof.Proof.KChain1
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg)

/-! ## Contents moved to a buffer's own type and back -/

/-- At a literal buffer whose type is the value's, the move is the identity. -/
theorem ofBuf_v14 (h1 h2 h3) (x : (main_v14 : Ref sig .tc).ty.Contents (Elt Ideal)) :
    (TRef.of main_v14 h1 h2 h3 : TRef sig ⟨S50000x256, .f32⟩).ofBuf x = x := rfl

theorem toBuf_v15 (h1 h2 h3) (x : FVec Ideal S800000x256 .f32) :
    (TRef.of main_v15 h1 h2 h3 : TRef sig ⟨S800000x256, .f32⟩).toBuf (Val := Elt Ideal) x = x := rfl

/-- A buffer that no operation of a host stretch writes holds after the stretch what it held before. -/
local macro "host_keeps" : tactic =>
  `(tactic| (refine StableHlo.after_of_forall_not_mem _ _ (List.forall_iff_forall_mem.mp ?_)
             simp only [hostOps0, hostOps0_1, hostOps0_2, hostOps1, hostOps2, hostOps2_1, hostOps3, List.Forall,
               StableHlo.nullary_writes, StableHlo.unary_writes, StableHlo.binary_writes, StableHlo.ternary_writes,
               StableHlo.reshape_writes, Finset.mem_singleton]
             repeat' apply And.intro
             all_goals exact StableHlo.devRef_ne_of_ne (by decide)))

/-! ## An argument array nothing has written holds at region 1's exit what it held at launch -/

/-- A buffer that is no window of regions 0 and 1 and that none of the first four host stretches writes. -/
theorem W6_of_launch (c : Dev nD) (b : Ref sig .tc) (hw0 : ∀ w, Pipeline.arrRef spec0 w ≠ b)
    (hw1 : ∀ w, Pipeline.arrRef spec1 w ≠ b)
    (h0 : W1 (F := Ideal) m ρ c (Proc.devRef .tc b) = W0 m ρ c (Proc.devRef .tc b))
    (h1 : W2 (F := Ideal) m ρ c (Proc.devRef .tc b) = W1 m ρ c (Proc.devRef .tc b))
    (h2 : W3 (F := Ideal) m ρ c (Proc.devRef .tc b) = W2 m ρ c (Proc.devRef .tc b))
    (h4 : W5 (F := Ideal) m ρ c (Proc.devRef .tc b) = W4 m ρ c (Proc.devRef .tc b)) :
    W6 (F := Ideal) m ρ c (Proc.devRef .tc b) = m ((c : Thread nD τ).loc b) :=
  (W6_of_ne m ρ c b hw1).trans (h4.trans (W4_of_launch m ρ c b hw0 h0 h1 h2))

/-- The same carried over the two host stretches before region 2. -/
theorem W8_of_W6 (c : Dev nD) (b : Ref sig .tc)
    (h6 : W7 (F := Ideal) m ρ c (Proc.devRef .tc b) = W6 m ρ c (Proc.devRef .tc b))
    (h7 : W8 (F := Ideal) m ρ c (Proc.devRef .tc b) = W7 m ρ c (Proc.devRef .tc b)) :
    W8 (F := Ideal) m ρ c (Proc.devRef .tc b) = W6 m ρ c (Proc.devRef .tc b) :=
  h7.trans h6

/-! ## The fifth host stretch: the fill-mode row gather of the first layer's features -/

/-- The stretch leaves in its result buffer the fill-mode gather of the table's rows at the index vector: each
    intermediate value is read back from the buffer its operation wrote. -/
theorem take2_stretch (V : Valuation τ sig (Elt Ideal)) :
    StableHlo.after hostOps2 V (Proc.devRef .tc main_v15)
      = take256 (V (Proc.devRef .tc main_v14)) (V (Proc.devRef .tc main_v1)) := by
  after_results_simp
  simp only [ofBuf_toBuf]
  generalize V (Proc.devRef .tc main_v1) = x1
  generalize V (Proc.devRef .tc main_v14) = x0
  rw [ofBuf_v1, ofBuf_v14]
  refine (toBuf_v15 _ _ _ _).trans ?_
  unfold take256 inRange wrapIdx
  rfl

theorem v15_at_W7 (c : Dev nD) :
    W7 (F := Ideal) m ρ c (Proc.devRef .tc main_v15) = take256 (layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (srcOf (m ((c : Thread nD τ).loc main_arg1))) := by
  refine (take2_stretch (W6 m ρ c)).trans ?_
  rw [layer1_value, v1_at_W6]

/-- The sixth host stretch: the second message bias as a one-row matrix. -/
theorem bias2_stretch (V : Valuation τ sig (Elt Ideal)) :
    StableHlo.after hostOps2_1 V (Proc.devRef .tc main_v16)
      = shapeCast S1x256 (V (Proc.devRef .tc main_arg13)) shapeCasts_S256_S1x256 := by
  after_results
  rfl

/-! ## Region 2's entry: its four operand arrays -/

theorem v15_at_W8 (c : Dev nD) :
    W8 (F := Ideal) m ρ c (Proc.devRef .tc main_v15) = take256 (layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (srcOf (m ((c : Thread nD τ).loc main_arg1))) :=
  (by host_keeps : W8 (F := Ideal) m ρ c (Proc.devRef .tc main_v15) = W7 m ρ c (Proc.devRef .tc main_v15)).trans (v15_at_W7 m ρ c)

theorem arg2_at_W8 (c : Dev nD) :
    W8 (F := Ideal) m ρ c (Proc.devRef .tc main_arg2) = (m ((c : Thread nD τ).loc main_arg2)) :=
  (by host_keeps : W8 (F := Ideal) m ρ c (Proc.devRef .tc main_arg2) = W7 m ρ c (Proc.devRef .tc main_arg2)).trans
    ((by host_keeps : W7 (F := Ideal) m ρ c (Proc.devRef .tc main_arg2) = W6 m ρ c (Proc.devRef .tc main_arg2)).trans
      ((W6_of_ne m ρ c main_arg2 (by decide)).trans
        ((by host_keeps : W5 (F := Ideal) m ρ c (Proc.devRef .tc main_arg2) = W4 m ρ c (Proc.devRef .tc main_arg2)).trans
          (((W4_arr m ρ c 1).trans (((dat0 (V3 m ρ) c).arrAt_in 1 rfl _).trans (A_eq0 (V3 m ρ) c 1))).trans
            (arg2_at_W3 m ρ c)))))

theorem arg12_at_W8 (c : Dev nD) :
    W8 (F := Ideal) m ρ c (Proc.devRef .tc main_arg12) = (m ((c : Thread nD τ).loc main_arg12)) :=
  (W8_of_W6 m ρ c main_arg12 (by host_keeps) (by host_keeps)).trans (W6_of_launch m ρ c main_arg12 (by decide) (by decide) (by host_keeps) (by host_keeps) (by host_keeps) (by host_keeps))

theorem v16_at_W8 (c : Dev nD) :
    W8 (F := Ideal) m ρ c (Proc.devRef .tc main_v16) = (shapeCast S1x256 (m ((c : Thread nD τ).loc main_arg13)) shapeCasts_S256_S1x256) := by
  refine (bias2_stretch (W7 m ρ c)).trans ?_
  rw [(by host_keeps : W7 (F := Ideal) m ρ c (Proc.devRef .tc main_arg13) = W6 m ρ c (Proc.devRef .tc main_arg13)), (W6_of_launch m ρ c main_arg13 (by decide) (by decide) (by host_keeps) (by host_keeps) (by host_keeps) (by host_keeps))]

/-- A buffer that is no window of region 2 and that neither host stretch before it writes holds at the region's exit
    what it held at region 1's exit. -/
theorem W9_of_W6 (c : Dev nD) (b : Ref sig .tc) (hw2 : ∀ w, Pipeline.arrRef spec2 w ≠ b)
    (h6 : W7 (F := Ideal) m ρ c (Proc.devRef .tc b) = W6 m ρ c (Proc.devRef .tc b))
    (h7 : W8 (F := Ideal) m ρ c (Proc.devRef .tc b) = W7 m ρ c (Proc.devRef .tc b)) :
    W9 (F := Ideal) m ρ c (Proc.devRef .tc b) = W6 m ρ c (Proc.devRef .tc b) :=
  (W9_of_ne m ρ c b hw2).trans (W8_of_W6 m ρ c b h6 h7)

/-! ## Region 2: the second layer's messages, and what is carried past it -/

/-- After region 2 its output buffer holds the second layer's messages. -/
theorem v17_at_W9 (c : Dev nD) :
    W9 (F := Ideal) m ρ c (Proc.devRef .tc main_v17)
      = Cert.Gnn.msg (take256 (layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (srcOf (m ((c : Thread nD τ).loc main_arg1))))
          (m ((c : Thread nD τ).loc main_arg2)) (m ((c : Thread nD τ).loc main_arg12))
          (shapeCast S1x256 (m ((c : Thread nD τ).loc main_arg13)) shapeCasts_S256_S1x256) :=
  calc W9 (F := Ideal) m ρ c (Proc.devRef .tc main_v17)
    _ = (dat2 (V8 m ρ) c).arrAt 4 cfg2.N := W9_arr m ρ c 4
    _ = Cert.Gnn.msg (W8 m ρ c (Proc.devRef .tc main_v15)) (W8 m ρ c (Proc.devRef .tc main_arg2))
          (W8 m ρ c (Proc.devRef .tc main_arg12)) (W8 m ρ c (Proc.devRef .tc main_v16)) := region2_value (V8 m ρ) c
    _ = _ := by rw [v15_at_W8, arg2_at_W8, arg12_at_W8, v16_at_W8]

/-- The first layer's features are still in their buffer after region 2. -/
theorem v14_at_W9 (c : Dev nD) :
    W9 (F := Ideal) m ρ c (Proc.devRef .tc main_v14) = layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W9_of_W6 m ρ c main_v14 (by decide) (by host_keeps) (by host_keeps)).trans (layer1_value m ρ c)

/-- The destination-index vector is still in its buffer after region 2. -/
theorem v3_at_W9 (c : Dev nD) :
    W9 (F := Ideal) m ρ c (Proc.devRef .tc main_v3) = dstOf (m ((c : Thread nD τ).loc main_arg1)) :=
  (W9_of_W6 m ρ c main_v3 (by decide) (by host_keeps) (by host_keeps)).trans (v3_at_W6 m ρ c)

end Cert.KernelIdeal.Chain

end
-- ==== Proof.KChain2.lean ====
/-
  The kernel program from its third region's exit to its fourth's: the second scatter-add and the second update region.
  The buffer that holds the second layer's node features is the second-layer term of the argument arrays.
-/
import proofs.«429655_j28415503630975_1_alg».proof.Proof.Gen.KernelIdeal.Frame
import proofs.«429655_j28415503630975_1_alg».proof.Proof.KDefs
import proofs.«429655_j28415503630975_1_alg».proof.Proof.KMsg
import proofs.«429655_j28415503630975_1_alg».proof.Proof.KUpd
import proofs.«429655_j28415503630975_1_alg».proof.Proof.KChain1
import proofs.«429655_j28415503630975_1_alg».proof.Proof.KChain2a
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg)

/-! ## What the host stretches from region 2's exit on write, and what they therefore keep -/

/-- The stretch before region 3 writes the scatter-add's operands and result and the four reshaped row vectors. -/
theorem L2.writes3 : (hostOps3 : List (HloOp τ sig (Elt Ideal))).Forall fun op =>
    op.writes ⊆ (([main_cst_0, main_v18, main_v19, main_v20, main_v21, main_v22, main_v23, main_v24] : List (Ref sig .tc)).map (Proc.devRef (τ := τ) .tc)).toFinset := by
  simp only [hostOps3, List.Forall, StableHlo.nullary_writes, StableHlo.unary_writes, StableHlo.ternary_writes,
    StableHlo.reshape_writes, List.map_cons, List.map_nil, List.toFinset_cons, List.toFinset_nil,
    Finset.singleton_subset_iff, Finset.mem_insert, Finset.mem_singleton, true_or, or_true, and_self]

/-- The stretch before region 4 writes the two reshaped biases of the node read-out. -/
theorem L2.writes4 : (hostOps4 : List (HloOp τ sig (Elt Ideal))).Forall fun op =>
    op.writes ⊆ (([main_v26, main_v27] : List (Ref sig .tc)).map (Proc.devRef (τ := τ) .tc)).toFinset := by
  simp only [hostOps4, List.Forall, StableHlo.reshape_writes, List.map_cons, List.map_nil, List.toFinset_cons, List.toFinset_nil,
    Finset.singleton_subset_iff, Finset.mem_insert, Finset.mem_singleton, true_or, or_true, and_self]

/-- The stretch before region 5 writes the intermediates of the per-graph mean and two reshaped biases. -/
theorem L2.writes5 : (hostOps5 : List (HloOp τ sig (Elt Ideal))).Forall fun op =>
    op.writes ⊆ (([main_cst_1, main_v29, main_cst_2, main_v30, main_v31, main_v32, main_cst_3, main_v33, main_v34, main_v35,
      main_cst_4, main_v36, main_v37, main_v38, main_v39, main_v40, main_v41, main_v42] : List (Ref sig .tc)).map (Proc.devRef (τ := τ) .tc)).toFinset := by
  simp only [hostOps5, List.Forall, StableHlo.nullary_writes, StableHlo.unary_writes, StableHlo.binary_writes, StableHlo.ternary_writes,
    StableHlo.reshape_writes, List.map_cons, List.map_nil, List.toFinset_cons, List.toFinset_nil,
    Finset.singleton_subset_iff, Finset.mem_insert, Finset.mem_singleton, true_or, or_true, and_self]

/-- The last stretch writes the second result only. -/
theorem L2.writes6 : (hostOps6 : List (HloOp τ sig (Elt Ideal))).Forall fun op =>
    op.writes ⊆ (([main_v44] : List (Ref sig .tc)).map (Proc.devRef (τ := τ) .tc)).toFinset := by
  simp only [hostOps6, List.Forall, StableHlo.reshape_writes, List.map_cons, List.map_nil, List.toFinset_cons, List.toFinset_nil,
    Finset.singleton_subset_iff, Finset.mem_insert, Finset.mem_singleton, true_or, or_true, and_self]

/-- A buffer outside the list is, at region 3's entry, as region 2 left it. -/
theorem L2.keep3 (c : Dev nD) (r : Ref sig .tc) (hr : r ∉ ([main_cst_0, main_v18, main_v19, main_v20, main_v21, main_v22, main_v23, main_v24] : List (Ref sig .tc))) :
    W10 (F := Ideal) m ρ c (Proc.devRef .tc r) = W9 (F := Ideal) m ρ c (Proc.devRef .tc r) :=
  StableHlo.after_of_writes_sub hostOps3 _ L2.writes3 hr

/-- A buffer that no later stretch writes and that is no window of regions 4 and 5 holds at the end what it held at
    region 3's exit. -/
theorem L2.end_of_W11 (c : Dev nD) (r : Ref sig .tc)
    (h4 : r ∉ ([main_v26, main_v27] : List (Ref sig .tc))) (hw4 : ∀ w, Pipeline.arrRef spec4 w ≠ r)
    (h5 : r ∉ ([main_cst_1, main_v29, main_cst_2, main_v30, main_v31, main_v32, main_cst_3, main_v33, main_v34, main_v35,
      main_cst_4, main_v36, main_v37, main_v38, main_v39, main_v40, main_v41, main_v42] : List (Ref sig .tc))) (hw5 : ∀ w, Pipeline.arrRef spec5 w ≠ r)
    (h6 : r ∉ ([main_v44] : List (Ref sig .tc))) :
    W16 (F := Ideal) m ρ c (Proc.devRef .tc r) = W11 (F := Ideal) m ρ c (Proc.devRef .tc r) :=
  (StableHlo.after_of_writes_sub hostOps6 _ L2.writes6 h6).trans ((W15_of_ne m ρ c r hw5).trans
    ((StableHlo.after_of_writes_sub hostOps5 _ L2.writes5 h5).trans ((W13_of_ne m ρ c r hw4).trans
      (StableHlo.after_of_writes_sub hostOps4 _ L2.writes4 h4))))

/-! ## The argument arrays at the boundaries where they are read

Nothing from such a boundary to the end writes an argument array (region 3 reads two of them through input windows and
leaves them as entered), so its contents there are its contents at the end: the launch contents. -/

theorem L2.arg15_W9 (c : Dev nD) : W9 (F := Ideal) m ρ c (Proc.devRef .tc main_arg15) = m ((c : Thread nD τ).loc main_arg15) :=
  ((L2.end_of_W11 m ρ c main_arg15 (by decide) (by decide) (by decide) (by decide) (by decide)).trans
    ((W11_of_ne m ρ c main_arg15 (by decide)).trans (L2.keep3 m ρ c main_arg15 (by decide)))).symm.trans (W16_main_arg15 m ρ c)

theorem L2.arg17_W9 (c : Dev nD) : W9 (F := Ideal) m ρ c (Proc.devRef .tc main_arg17) = m ((c : Thread nD τ).loc main_arg17) :=
  ((L2.end_of_W11 m ρ c main_arg17 (by decide) (by decide) (by decide) (by decide) (by decide)).trans
    ((W11_of_ne m ρ c main_arg17 (by decide)).trans (L2.keep3 m ρ c main_arg17 (by decide)))).symm.trans (W16_main_arg17 m ρ c)

theorem L2.arg18_W9 (c : Dev nD) : W9 (F := Ideal) m ρ c (Proc.devRef .tc main_arg18) = m ((c : Thread nD τ).loc main_arg18) :=
  ((L2.end_of_W11 m ρ c main_arg18 (by decide) (by decide) (by decide) (by decide) (by decide)).trans
    ((W11_of_ne m ρ c main_arg18 (by decide)).trans (L2.keep3 m ρ c main_arg18 (by decide)))).symm.trans (W16_main_arg18 m ρ c)

theorem L2.arg19_W9 (c : Dev nD) : W9 (F := Ideal) m ρ c (Proc.devRef .tc main_arg19) = m ((c : Thread nD τ).loc main_arg19) :=
  ((L2.end_of_W11 m ρ c main_arg19 (by decide) (by decide) (by decide) (by decide) (by decide)).trans
    ((W11_of_ne m ρ c main_arg19 (by decide)).trans (L2.keep3 m ρ c main_arg19 (by decide)))).symm.trans (W16_main_arg19 m ρ c)

theorem L2.arg14_W10 (c : Dev nD) : W10 (F := Ideal) m ρ c (Proc.devRef .tc main_arg14) = m ((c : Thread nD τ).loc main_arg14) :=
  ((L2.end_of_W11 m ρ c main_arg14 (by decide) (by decide) (by decide) (by decide) (by decide)).trans
    ((W11_arr m ρ c 2).trans (((dat3 (V10 m ρ) c).arrAt_in 2 rfl _).trans (A_eq3 (V10 m ρ) c 2)))).symm.trans (W16_main_arg14 m ρ c)

theorem L2.arg16_W10 (c : Dev nD) : W10 (F := Ideal) m ρ c (Proc.devRef .tc main_arg16) = m ((c : Thread nD τ).loc main_arg16) :=
  ((L2.end_of_W11 m ρ c main_arg16 (by decide) (by decide) (by decide) (by decide) (by decide)).trans
    ((W11_arr m ρ c 4).trans (((dat3 (V10 m ρ) c).arrAt_in 4 rfl _).trans (A_eq3 (V10 m ρ) c 4)))).symm.trans (W16_main_arg16 m ρ c)

/-! ## Region 3's entry: its eight operand arrays -/

/-- The first layer's node features, untouched by the stretch. -/
theorem L2.v14_W10 (c : Dev nD) :
    W10 (F := Ideal) m ρ c (Proc.devRef .tc main_v14) = layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (L2.keep3 m ρ c main_v14 (by decide)).trans (v14_at_W9 m ρ c)

/-- The second layer's messages summed into their destination rows. -/
theorem L2.v20_W10 (c : Dev nD) :
    W10 (F := Ideal) m ρ c (Proc.devRef .tc main_v20) = aggr256 (dstOf (m ((c : Thread nD τ).loc main_arg1))) (Cert.Gnn.msg (take256 (layer1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (srcOf (m ((c : Thread nD τ).loc main_arg1)))) (m ((c : Thread nD τ).loc main_arg2)) (m ((c : Thread nD τ).loc main_arg12)) (shapeCast S1x256 (m ((c : Thread nD τ).loc main_arg13)) shapeCasts_S256_S1x256)) := by
  rw [← v3_at_W9 m ρ c, ← v17_at_W9 m ρ c]
  show StableHlo.after hostOps3 _ (Proc.devRef .tc main_v20) = _
  after_results
  rfl

theorem L2.v21_W10 (c : Dev nD) :
    W10 (F := Ideal) m ρ c (Proc.devRef .tc main_v21) = shapeCast S1x256 (m ((c : Thread nD τ).loc main_arg15)) shapeCasts_S256_S1x256 := by
  rw [← L2.arg15_W9 m ρ c]
  show StableHlo.after hostOps3 _ (Proc.devRef .tc main_v21) = _
  after_results
  rfl

theorem L2.v22_W10 (c : Dev nD) :
    W10 (F := Ideal) m ρ c (Proc.devRef .tc main_v22) = shapeCast S1x256 (m ((c : Thread nD τ).loc main_arg17)) shapeCasts_S256_S1x256 := by
  rw [← L2.arg17_W9 m ρ c]
  show StableHlo.after hostOps3 _ (Proc.devRef .tc main_v22) = _
  after_results
  rfl

theorem L2.v23_W10 (c : Dev nD) :
    W10 (F := Ideal) m ρ c (Proc.devRef .tc main_v23) = shapeCast S1x256 (m ((c : Thread nD τ).loc main_arg18)) shapeCasts_S256_S1x256 := by
  rw [← L2.arg18_W9 m ρ c]
  show StableHlo.after hostOps3 _ (Proc.devRef .tc main_v23) = _
  after_results
  rfl

theorem L2.v24_W10 (c : Dev nD) :
    W10 (F := Ideal) m ρ c (Proc.devRef .tc main_v24) = shapeCast S1x256 (m ((c : Thread nD τ).loc main_arg19)) shapeCasts_S256_S1x256 := by
  rw [← L2.arg19_W9 m ρ c]
  show StableHlo.after hostOps3 _ (Proc.devRef .tc main_v24) = _
  after_results
  rfl

/-! ## Region 3: the second layer's node features -/

/-- After region 3 the second layer's output buffer holds `layer2` of the arguments. -/
theorem layer2_value (c : Dev nD) :
    W11 (F := Ideal) m ρ c (Proc.devRef .tc main_v25) = layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W11_arr m ρ c 8).trans ((region3_value (V10 m ρ) c).trans ?_)
  show Cert.Gnn.upd (W10 (F := Ideal) m ρ c (Proc.devRef .tc main_v14)) (W10 (F := Ideal) m ρ c (Proc.devRef .tc main_v20))
    (W10 (F := Ideal) m ρ c (Proc.devRef .tc main_arg14)) (W10 (F := Ideal) m ρ c (Proc.devRef .tc main_v21))
    (W10 (F := Ideal) m ρ c (Proc.devRef .tc main_arg16)) (W10 (F := Ideal) m ρ c (Proc.devRef .tc main_v22))
    (W10 (F := Ideal) m ρ c (Proc.devRef .tc main_v23)) (W10 (F := Ideal) m ρ c (Proc.devRef .tc main_v24)) = _
  rw [L2.v14_W10, L2.v20_W10, L2.arg14_W10, L2.v21_W10, L2.arg16_W10, L2.v22_W10, L2.v23_W10, L2.v24_W10]
  rfl

end Cert.KernelIdeal.Chain

end
-- ==== Proof.KChain3.lean ====
/-
  The kernel program's tail: the two read-out regions and the per-graph mean between them. The two result buffers hold
  the two result terms of the argument arrays.

  Each host stretch is read back operation by operation at the buffer it fills; a buffer that a stretch does not write, or
  that a region reads through an input window or does not touch, is carried across unchanged; each region's output is
  its whole-array value at the entry contents of its operands.
-/
import proofs.«429655_j28415503630975_1_alg».proof.Proof.Gen.KernelIdeal.Frame
import proofs.«429655_j28415503630975_1_alg».proof.Proof.KDefs
import proofs.«429655_j28415503630975_1_alg».proof.Proof.KHead
import proofs.«429655_j28415503630975_1_alg».proof.Proof.KChain2
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.RegionValue

variable (m : (ℓ : Loc nD τ sig) → Buf (Elt Ideal) ℓ) (ρ : Dev nD → PrngReg)

/-! ## What the three host stretches write, and what they therefore keep -/

/-- The fifth host stretch writes the two reshaped biases of the node read-out only. -/
theorem Tail.writes4 : (hostOps4 : List (HloOp τ sig (Elt Ideal))).Forall fun op =>
    op.writes ⊆ (([main_v26, main_v27] : List (Ref sig .tc)).map (Proc.devRef (τ := τ) .tc)).toFinset := by
  simp only [hostOps4, List.Forall, StableHlo.reshape_writes, List.map_cons, List.map_nil, List.toFinset_cons, List.toFinset_nil,
    Finset.singleton_subset_iff, Finset.mem_insert, Finset.mem_singleton, true_or, or_true, and_self]

/-- The sixth host stretch writes the intermediates of the per-graph mean and the two reshaped biases of the graph read-out. -/
theorem Tail.writes5 : (hostOps5 : List (HloOp τ sig (Elt Ideal))).Forall fun op =>
    op.writes ⊆ (([main_cst_1, main_v29, main_cst_2, main_v30, main_v31, main_v32, main_cst_3, main_v33, main_v34, main_v35,
      main_cst_4, main_v36, main_v37, main_v38, main_v39, main_v40, main_v41, main_v42] : List (Ref sig .tc)).map (Proc.devRef (τ := τ) .tc)).toFinset := by
  simp only [hostOps5, List.Forall, StableHlo.nullary_writes, StableHlo.unary_writes, StableHlo.binary_writes, StableHlo.ternary_writes,
    StableHlo.reshape_writes, List.map_cons, List.map_nil, List.toFinset_cons, List.toFinset_nil,
    Finset.singleton_subset_iff, Finset.mem_insert, Finset.mem_singleton, true_or, or_true, and_self]

/-- The last host stretch writes the second result only. -/
theorem Tail.writes6 : (hostOps6 : List (HloOp τ sig (Elt Ideal))).Forall fun op =>
    op.writes ⊆ (([main_v44] : List (Ref sig .tc)).map (Proc.devRef (τ := τ) .tc)).toFinset := by
  simp only [hostOps6, List.Forall, StableHlo.reshape_writes, List.map_cons, List.map_nil, List.toFinset_cons, List.toFinset_nil,
    Finset.singleton_subset_iff, Finset.mem_insert, Finset.mem_singleton, true_or, or_true, and_self]

/-- A buffer outside that list is, at region 4's entry, as region 3 left it. -/
theorem Tail.keep4 (c : Dev nD) (r : Ref sig .tc) (hr : r ∉ ([main_v26, main_v27] : List (Ref sig .tc))) :
    W12 (F := Ideal) m ρ c (Proc.devRef .tc r) = W11 (F := Ideal) m ρ c (Proc.devRef .tc r) :=
  StableHlo.after_of_writes_sub hostOps4 _ Tail.writes4 hr

/-- A buffer outside that list is, at region 5's entry, as region 4 left it. -/
theorem Tail.keep5 (c : Dev nD) (r : Ref sig .tc) (hr : r ∉ ([main_cst_1, main_v29, main_cst_2, main_v30, main_v31, main_v32, main_cst_3, main_v33, main_v34, main_v35,
      main_cst_4, main_v36, main_v37, main_v38, main_v39, main_v40, main_v41, main_v42] : List (Ref sig .tc))) :
    W14 (F := Ideal) m ρ c (Proc.devRef .tc r) = W13 (F := Ideal) m ρ c (Proc.devRef .tc r) :=
  StableHlo.after_of_writes_sub hostOps5 _ Tail.writes5 hr

/-- A buffer other than the second result is, at the end, as region 5 left it. -/
theorem Tail.keep6 (c : Dev nD) (r : Ref sig .tc) (hr : r ∉ ([main_v44] : List (Ref sig .tc))) :
    W16 (F := Ideal) m ρ c (Proc.devRef .tc r) = W15 (F := Ideal) m ρ c (Proc.devRef .tc r) :=
  StableHlo.after_of_writes_sub hostOps6 _ Tail.writes6 hr

/-! ## The argument arrays at the boundaries where they are read

Nothing between such a boundary and the end writes an argument array (a region that reads it through an input window
leaves it as entered), so its contents there are its contents at the end: the launch contents. -/

theorem Tail.arg3_W13 (c : Dev nD) : W13 (F := Ideal) m ρ c (Proc.devRef .tc main_arg3) = m ((c : Thread nD τ).loc main_arg3) :=
  ((Tail.keep6 m ρ c main_arg3 (by decide)).trans ((W15_of_ne m ρ c main_arg3 (by decide)).trans
    (Tail.keep5 m ρ c main_arg3 (by decide)))).symm.trans (W16_main_arg3 m ρ c)

theorem Tail.arg21_W13 (c : Dev nD) : W13 (F := Ideal) m ρ c (Proc.devRef .tc main_arg21) = m ((c : Thread nD τ).loc main_arg21) :=
  ((Tail.keep6 m ρ c main_arg21 (by decide)).trans ((W15_of_ne m ρ c main_arg21 (by decide)).trans
    (Tail.keep5 m ρ c main_arg21 (by decide)))).symm.trans (W16_main_arg21 m ρ c)

theorem Tail.arg23_W13 (c : Dev nD) : W13 (F := Ideal) m ρ c (Proc.devRef .tc main_arg23) = m ((c : Thread nD τ).loc main_arg23) :=
  ((Tail.keep6 m ρ c main_arg23 (by decide)).trans ((W15_of_ne m ρ c main_arg23 (by decide)).trans
    (Tail.keep5 m ρ c main_arg23 (by decide)))).symm.trans (W16_main_arg23 m ρ c)

theorem Tail.arg21_W11 (c : Dev nD) : W11 (F := Ideal) m ρ c (Proc.devRef .tc main_arg21) = m ((c : Thread nD τ).loc main_arg21) :=
  ((W13_of_ne m ρ c main_arg21 (by decide)).trans (Tail.keep4 m ρ c main_arg21 (by decide))).symm.trans (Tail.arg21_W13 m ρ c)

theorem Tail.arg23_W11 (c : Dev nD) : W11 (F := Ideal) m ρ c (Proc.devRef .tc main_arg23) = m ((c : Thread nD τ).loc main_arg23) :=
  ((W13_of_ne m ρ c main_arg23 (by decide)).trans (Tail.keep4 m ρ c main_arg23 (by decide))).symm.trans (Tail.arg23_W13 m ρ c)

theorem Tail.arg20_W14 (c : Dev nD) : W14 (F := Ideal) m ρ c (Proc.devRef .tc main_arg20) = m ((c : Thread nD τ).loc main_arg20) :=
  ((Tail.keep6 m ρ c main_arg20 (by decide)).trans ((W15_arr m ρ c 1).trans
    (((dat5 (V14 m ρ) c).arrAt_in 1 rfl _).trans (A_eq5 (V14 m ρ) c 1)))).symm.trans (W16_main_arg20 m ρ c)

theorem Tail.arg22_W14 (c : Dev nD) : W14 (F := Ideal) m ρ c (Proc.devRef .tc main_arg22) = m ((c : Thread nD τ).loc main_arg22) :=
  ((Tail.keep6 m ρ c main_arg22 (by decide)).trans ((W15_arr m ρ c 3).trans
    (((dat5 (V14 m ρ) c).arrAt_in 3 rfl _).trans (A_eq5 (V14 m ρ) c 3)))).symm.trans (W16_main_arg22 m ρ c)

theorem Tail.arg20_W12 (c : Dev nD) : W12 (F := Ideal) m ρ c (Proc.devRef .tc main_arg20) = m ((c : Thread nD τ).loc main_arg20) :=
  ((Tail.keep5 m ρ c main_arg20 (by decide)).trans ((W13_arr m ρ c 1).trans
    (((dat4 (V12 m ρ) c).arrAt_in 1 rfl _).trans (A_eq4 (V12 m ρ) c 1)))).symm.trans (Tail.arg20_W14 m ρ c)

theorem Tail.arg22_W12 (c : Dev nD) : W12 (F := Ideal) m ρ c (Proc.devRef .tc main_arg22) = m ((c : Thread nD τ).loc main_arg22) :=
  ((Tail.keep5 m ρ c main_arg22 (by decide)).trans ((W13_arr m ρ c 3).trans
    (((dat4 (V12 m ρ) c).arrAt_in 3 rfl _).trans (A_eq4 (V12 m ρ) c 3)))).symm.trans (Tail.arg22_W14 m ρ c)

/-! ## The node read-out -/

/-- The second layer's node features enter region 4 as region 3 left them. -/
theorem Tail.v25_W12 (c : Dev nD) :
    W12 (F := Ideal) m ρ c (Proc.devRef .tc main_v25) = layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (Tail.keep4 m ρ c main_v25 (by decide)).trans (layer2_value m ρ c)

/-- The first read-out bias as a row. -/
theorem Tail.v26_W12 (c : Dev nD) :
    W12 (F := Ideal) m ρ c (Proc.devRef .tc main_v26) = shapeCast S1x128 (m ((c : Thread nD τ).loc main_arg21)) shapeCasts_S128_S1x128 := by
  rw [← Tail.arg21_W11 m ρ c]
  show StableHlo.after hostOps4 _ (Proc.devRef .tc main_v26) = _
  after_results
  rfl

/-- The second read-out bias as a one-entry matrix. -/
theorem Tail.v27_W12 (c : Dev nD) :
    W12 (F := Ideal) m ρ c (Proc.devRef .tc main_v27) = shapeCast S1x1 (m ((c : Thread nD τ).loc main_arg23)) shapeCasts_S1_S1x1 := by
  rw [← Tail.arg23_W11 m ρ c]
  show StableHlo.after hostOps4 _ (Proc.devRef .tc main_v27) = _
  after_results
  rfl

/-- Region 4's output is the node read-out of the arguments. -/
theorem Tail.v28_W13 (c : Dev nD) :
    W13 (F := Ideal) m ρ c (Proc.devRef .tc main_v28) = nodeOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W13_arr m ρ c 5).trans ((region4_value (V12 m ρ) c).trans ?_)
  show Cert.Gnn.head (W12 (F := Ideal) m ρ c (Proc.devRef .tc main_v25)) (W12 (F := Ideal) m ρ c (Proc.devRef .tc main_arg20))
    (W12 (F := Ideal) m ρ c (Proc.devRef .tc main_v26)) (W12 (F := Ideal) m ρ c (Proc.devRef .tc main_arg22))
    (W12 (F := Ideal) m ρ c (Proc.devRef .tc main_v27)) = _
  rw [Tail.v25_W12, Tail.arg20_W12, Tail.v26_W12, Tail.arg22_W12, Tail.v27_W12]
  rfl

/-- The first result: the per-node logits. -/
theorem node_value (c : Dev nD) :
    W16 (F := Ideal) m ρ c (Proc.devRef .tc main_v28) = nodeOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) :=
  ((Tail.keep6 m ρ c main_v28 (by decide)).trans ((W15_of_ne m ρ c main_v28 (by decide)).trans
    (Tail.keep5 m ρ c main_v28 (by decide)))).trans (Tail.v28_W13 m ρ c)

/-! ## The per-graph mean and the graph read-out -/

/-- The second layer's node features leave region 4, which reads them through an input window, as they entered. -/
theorem Tail.v25_W13 (c : Dev nD) :
    W13 (F := Ideal) m ρ c (Proc.devRef .tc main_v25) = layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  ((W13_arr m ρ c 0).trans (((dat4 (V12 m ρ) c).arrAt_in 0 rfl _).trans (A_eq4 (V12 m ρ) c 0))).trans (Tail.v25_W12 m ρ c)

/-- The per-graph mean of the second layer's node features. -/
theorem Tail.v40_W14 (c : Dev nD) :
    W14 (F := Ideal) m ρ c (Proc.devRef .tc main_v40) = pooled (m ((c : Thread nD τ).loc main_arg3)) (layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))) := by
  show StableHlo.after hostOps5 _ (Proc.devRef .tc main_v40) = _
  after_results_simp
  rw [Tail.arg3_W13, Tail.v25_W13]
  rfl

/-- The first read-out bias as a row, again, for the graph read-out. -/
theorem Tail.v41_W14 (c : Dev nD) :
    W14 (F := Ideal) m ρ c (Proc.devRef .tc main_v41) = shapeCast S1x128 (m ((c : Thread nD τ).loc main_arg21)) shapeCasts_S128_S1x128 := by
  rw [← Tail.arg21_W13 m ρ c]
  show StableHlo.after hostOps5 _ (Proc.devRef .tc main_v41) = _
  after_results
  rfl

/-- The second read-out bias as a one-entry matrix, again. -/
theorem Tail.v42_W14 (c : Dev nD) :
    W14 (F := Ideal) m ρ c (Proc.devRef .tc main_v42) = shapeCast S1x1 (m ((c : Thread nD τ).loc main_arg23)) shapeCasts_S1_S1x1 := by
  rw [← Tail.arg23_W13 m ρ c]
  show StableHlo.after hostOps5 _ (Proc.devRef .tc main_v42) = _
  after_results
  rfl

/-- Region 5's output is the read-out of the per-graph means. -/
theorem Tail.v43_W15 (c : Dev nD) :
    W15 (F := Ideal) m ρ c (Proc.devRef .tc main_v43) = Cert.Gnn.head (pooled (m ((c : Thread nD τ).loc main_arg3)) (layer2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))) (m ((c : Thread nD τ).loc main_arg20))
      (shapeCast S1x128 (m ((c : Thread nD τ).loc main_arg21)) shapeCasts_S128_S1x128) (m ((c : Thread nD τ).loc main_arg22)) (shapeCast S1x1 (m ((c : Thread nD τ).loc main_arg23)) shapeCasts_S1_S1x1) := by
  refine (W15_arr m ρ c 5).trans ((region5_value (V14 m ρ) c).trans ?_)
  show Cert.Gnn.head (W14 (F := Ideal) m ρ c (Proc.devRef .tc main_v40)) (W14 (F := Ideal) m ρ c (Proc.devRef .tc main_arg20))
    (W14 (F := Ideal) m ρ c (Proc.devRef .tc main_v41)) (W14 (F := Ideal) m ρ c (Proc.devRef .tc main_arg22))
    (W14 (F := Ideal) m ρ c (Proc.devRef .tc main_v42)) = _
  rw [Tail.v40_W14, Tail.arg20_W14, Tail.v41_W14, Tail.arg22_W14, Tail.v42_W14]

/-- The second result: the per-graph logits. -/
theorem graph_value (c : Dev nD) :
    W16 (F := Ideal) m ρ c (Proc.devRef .tc main_v44) = graphOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold graphOut
  rw [← Tail.v43_W15 m ρ c]
  show StableHlo.after hostOps6 _ (Proc.devRef .tc main_v44) = _
  after_results
  rfl

end Cert.KernelIdeal.Chain

end
-- ==== Proof.Take.lean ====
/-
  The fill-mode row gather the kernel program uses (an out-of-range index yields the fill word) against the plain row
  gather: where every source index lies in [0, 50000) no index is moved or out of range, so the mask is all ones and the
  two agree. The precondition states exactly that range for row 0 of the edge list.
-/
import proofs.«429655_j28415503630975_1_alg».proof.Defs
import proofs.«429655_j28415503630975_1_alg».proof.Proof.KDefs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Chain

open Idealize.ShloMosaic Idealize.ShloMosaic.TcCoe Idealize.ShloMosaic.ValueIdx Idealize.SL.Sem
open Cert.KernelIdeal

variable [hK : Cert.KernelIdeal.Facts]
open Facts₀ Facts

/-- Every source index (row 0 of the edge list) lies in [0, 50000), read as a signed word. -/
def SrcOk (a1 : IVec S2x800000 32) : Prop :=
  ∀ e : Fin 800000, 0 ≤ (srcOf a1 (ix1 e)).toInt ∧ (srcOf a1 (ix1 e)).toInt < 50000

/-! ## Words: the three signed comparisons of a word in [0, 50000) -/

/-- A non-negative word is not below zero. -/
private theorem slt_zero_of_nonneg (w : BitVec 32) (h : 0 ≤ w.toInt) : IntOp.cmpi .slt w 0#32 = 0#1 := by
  have h0 : (0#32 : BitVec 32).toInt = 0 := by decide
  simp only [IntOp.cmpi, BitVec.slt, h0]
  rw [decide_eq_false (by omega)]; rfl

/-- A non-negative word is at least zero. -/
private theorem sge_zero_of_nonneg (w : BitVec 32) (h : 0 ≤ w.toInt) : IntOp.cmpi .sge w 0#32 = 1#1 := by
  have h0 : (0#32 : BitVec 32).toInt = 0 := by decide
  simp only [IntOp.cmpi, BitVec.sle, h0]
  rw [decide_eq_true h]; rfl

/-- A word below 50000 is at most 49999. -/
private theorem sle_of_lt (w : BitVec 32) (h : w.toInt < 50000) : IntOp.cmpi .sle w 49999#32 = 1#1 := by
  have h0 : (49999#32 : BitVec 32).toInt = 49999 := by decide
  simp only [IntOp.cmpi, BitVec.sle, h0]
  rw [decide_eq_true (by omega)]; rfl

/-! ## The and-reduction of an all-ones mask -/

/-- A left fold by `and` from 1 over words that are all 1 is 1. -/
private theorem foldl_andi_one {ι : Type} (f : ι → BitVec 1) (hf : ∀ n, f n = 1#1) :
    ∀ (l : List ι) (init : BitVec 1), init = 1#1 → l.foldl (fun r n => IntOp.andi r (f n)) init = 1#1
  | [], init, h => h
  | a :: l, init, h => by
    rw [List.foldl_cons]
    exact foldl_andi_one f hf l _ (by rw [h, hf a]; rfl)

/-- An and-reduction from 1 of a mask that is 1 everywhere is 1 everywhere. -/
private theorem reduce_andi_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl]
  exact foldl_andi_one x hx _ _ hinit

/-- Whatever holds of every element of an array holds of every element of a broadcast of it. -/
private theorem bcast_forall {s t : Shape} {α : Type} (P : α → Prop) (dims : Fin s.rank → Fin t.rank)
    (h : s.BroadcastsInDim t dims) (x : s.Idx → α) (hx : ∀ k, P (x k)) (j : t.Idx) : P (broadcastInDim t dims h x j) :=
  hx _

/-! ## The start-index column and the mask, in range -/

/-- In range no index is moved: every entry of the start-index column is a source index, so it is in range too. -/
theorem wrapIdx_range (src : IVec S800000 32) (hs : ∀ k, 0 ≤ (src k).toInt ∧ (src k).toInt < 50000) (i : S800000x1.Idx) :
    0 ≤ (wrapIdx src i).toInt ∧ (wrapIdx src i).toInt < 50000 := by
  unfold wrapIdx
  refine bcast_forall (fun w : BitVec 32 => 0 ≤ w.toInt ∧ w.toInt < 50000) _ _ _ (fun k => ?_) i
  show (fun w : BitVec 32 => 0 ≤ w.toInt ∧ w.toInt < 50000) (Scalar.select (IntOp.cmpi .slt (src k) 0#32) _ (src k))
  rw [slt_zero_of_nonneg _ (hs k).1, select_zero]
  exact hs k

/-- In range the mask is 1 at every edge. -/
theorem inRange_one (src : IVec S800000 32) (hs : ∀ k, 0 ≤ (src k).toInt ∧ (src k).toInt < 50000) (k : S800000.Idx) :
    inRange src k = 1#1 := by
  unfold inRange
  refine reduce_andi_one _ _ _ _ (fun i => ?_) rfl k
  obtain ⟨h0, h1⟩ := wrapIdx_range src hs i
  show IntOp.andi (IntOp.cmpi .sge (wrapIdx src i) 0#32) (IntOp.cmpi .sle (wrapIdx src i) 49999#32) = 1#1
  rw [sge_zero_of_nonneg _ h0, sle_of_lt _ h1]; rfl

/-- The range of the source indices, at every index of the vector. -/
theorem SrcOk.all {a1 : IVec S2x800000 32} (h : SrcOk a1) (k : S800000.Idx) :
    0 ≤ (srcOf a1 k).toInt ∧ (srcOf a1 k).toInt < 50000 := by
  rw [eq_ix1 k]
  exact h (k 0)

/-- In range, the fill-mode gather of a 128-column table is the plain gather. -/
theorem take128_eq_gather (x : FVec Ideal S50000x128 .f32) (a1 : IVec S2x800000 32) (h : SrcOk a1) :
    take128 x (srcOf a1) = Host.gather gather_S50000x128_S800000x1_S800000x128_1_0_n_n_0_1_1128 x (wrapIdx (srcOf a1)) := by
  funext j
  unfold take128
  rw [select_apply]
  have hm : broadcastInDim S800000x128 ![0] bcast_S800000_S800000x128_0 (inRange (srcOf a1)) j = 1#1 :=
    bcast_forall (· = 1#1) _ _ _ (inRange_one _ h.all) j
  rw [hm, select_one]

/-- The same of a 256-column table. -/
theorem take256_eq_gather (x : FVec Ideal S50000x256 .f32) (a1 : IVec S2x800000 32) (h : SrcOk a1) :
    take256 x (srcOf a1) = Host.gather gather_S50000x256_S800000x1_S800000x256_1_0_n_n_0_1_1256 x (wrapIdx (srcOf a1)) := by
  funext j
  unfold take256
  rw [select_apply]
  have hm : broadcastInDim S800000x256 ![0] bcast_S800000_S800000x256_0 (inRange (srcOf a1)) j = 1#1 :=
    bcast_forall (· = 1#1) _ _ _ (inRange_one _ h.all) j
  rw [hm, select_one]

/-! ## The range, read out of the precondition -/

/-- A word the signed compare finds at least zero is non-negative. -/
private theorem nonneg_of_sge (w : BitVec 32) (h : IntOp.cmpi .sge w 0#32 = 1#1) : 0 ≤ w.toInt := by
  have h0 : (0#32 : BitVec 32).toInt = 0 := by decide
  simp only [IntOp.cmpi, BitVec.sle, h0, StableHlo.Predicate.ofBool_eq_one_iff, decide_eq_true_eq] at h
  exact h

/-- A word the signed compare finds below 50000 is below 50000. -/
private theorem lt_of_slt (w : BitVec 32) (h : IntOp.cmpi .slt w 50000#32 = 1#1) : w.toInt < 50000 := by
  have h0 : (50000#32 : BitVec 32).toInt = 50000 := by decide
  simp only [IntOp.cmpi, BitVec.slt, h0, StableHlo.Predicate.ofBool_eq_one_iff, decide_eq_true_eq] at h
  exact h

/-- The precondition gives the range on every device. -/
theorem srcOk_of_pre [hP : Cert.Pre_finite_inputs.Facts] (m : (ℓ : Loc nD τ sig) → Buf (Elt Ideal) ℓ) (hpre : Cert.Pre_KernelIdeal m)
    (c : Dev nD) : SrcOk (m ((c.tc : Thread nD τ).loc main_arg1)) := by
  have h0 := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at h0
  -- the last two conjuncts: every index is at least 0, and every index is below 50000
  obtain ⟨h1, hlt⟩ := IntOp.andi_eq_one.1 h0
  obtain ⟨-, hge⟩ := IntOp.andi_eq_one.1 h1
  haveI : Subsingleton Cert.Pre_finite_inputs.S_.Idx := ⟨fun a b => funext fun d => d.elim0⟩
  intro e
  have hge' := Host.reduce_andi_all _ _ _ _ _ hge (ix1 e)
  have hlt' := Host.reduce_andi_all _ _ _ _ _ hlt (ix1 e)
  exact ⟨nonneg_of_sge _ hge', lt_of_slt _ hlt'⟩

end Cert.KernelIdeal.Chain

end
-- ==== Proof.RMsg.lean ====
/-
  The reference's two message stages are the message function (Spec.lean) of the gathered rows, the edge attribute
  column, the edge weight row and the bias as a row: entry by entry the one-term contraction is a product of two entries.
-/
import proofs.«429655_j28415503630975_1_alg».proof.Proof.Gen.ReferenceIdeal.Read
import proofs.«429655_j28415503630975_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Idealize.ShloMosaic Idealize.ShloMosaic.ValueIdx
open Cert.ReferenceIdeal Cert.ReferenceIdeal.Read

variable (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S50000, .i32⟩ : BufTy).Contents (Elt Ideal))
  (x4 : (⟨S1x128, .f32⟩ : BufTy).Contents (Elt Ideal)) (x5 : (⟨S128, .f32⟩ : BufTy).Contents (Elt Ideal)) (x6 : (⟨S128x256, .f32⟩ : BufTy).Contents (Elt Ideal)) (x7 : (⟨S256, .f32⟩ : BufTy).Contents (Elt Ideal))
  (x8 : (⟨S256x256, .f32⟩ : BufTy).Contents (Elt Ideal)) (x9 x10 x11 : (⟨S256, .f32⟩ : BufTy).Contents (Elt Ideal)) (x12 : (⟨S1x256, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal)) (x16 : (⟨S256x256, .f32⟩ : BufTy).Contents (Elt Ideal)) (x17 x18 x19 : (⟨S256, .f32⟩ : BufTy).Contents (Elt Ideal))
  (x20 : (⟨S256x128, .f32⟩ : BufTy).Contents (Elt Ideal)) (x21 : (⟨S128, .f32⟩ : BufTy).Contents (Elt Ideal)) (x22 : (⟨S128x1, .f32⟩ : BufTy).Contents (Elt Ideal)) (x23 : (⟨S1, .f32⟩ : BufTy).Contents (Elt Ideal))

/-- Layer 0: the reference's relu(x[src] + e·Wₑ + bₑ) is the message function of its gathered rows. -/
theorem msg0_ref :
    val_main_v16 (F := Ideal) x0 x1 x2 x4 x5 = Cert.Gnn.msg (val_main_v10 (F := Ideal) x0 x1) x2 x4 (val_main_v13 (F := Ideal) x5) := by
  funext i
  obtain ⟨p, q, rfl⟩ : ∃ (p : Fin 800000) (q : Fin 128), i = ix2 p q := ⟨i 0, i 1, eq_ix2 i⟩
  -- the one-term contraction over the edge attribute's single column is the product of its two entries
  have el : lidx_main_v11 (ix2 p q) 0 = ix2 p 0 :=
    funext fun a => Fin.ext (by match a with | ⟨0, _⟩ => rfl | ⟨1, _⟩ => rfl)
  have er : ridx_main_v11 (ix2 p q) 0 = ix2 0 q :=
    funext fun a => Fin.ext (by match a with | ⟨0, _⟩ => rfl | ⟨1, _⟩ => rfl)
  -- the bias row spread down the rows is read at (0, q)
  have eb : idx_main_v14 (ix2 p q) = ix2 0 q :=
    funext fun a => Fin.ext (by match a with | ⟨0, _⟩ => rfl | ⟨1, _⟩ => rfl)
  rw [val_main_v16_apply, val_main_v15_apply, val_main_v12_apply, val_main_v11_apply, val_main_v14_apply,
    val_main_call0_v0_apply, val_main_call0_cst_apply, Fin.sum_univ_one, el, er, eb]
  rfl

/-- Layer 1. -/
theorem msg1_ref :
    val_main_v67 (F := Ideal) x0 x1 x2 x4 x5 x6 x7 x8 x9 x10 x11 x12 x13
      = Cert.Gnn.msg (val_main_v61 (F := Ideal) x0 x1 x2 x4 x5 x6 x7 x8 x9 x10 x11) x2 x12 (val_main_v64 (F := Ideal) x13) := by
  funext i
  obtain ⟨p, q, rfl⟩ : ∃ (p : Fin 800000) (q : Fin 256), i = ix2 p q := ⟨i 0, i 1, eq_ix2 i⟩
  -- the one-term contraction over the edge attribute's single column is the product of its two entries
  have el : lidx_main_v62 (ix2 p q) 0 = ix2 p 0 :=
    funext fun a => Fin.ext (by match a with | ⟨0, _⟩ => rfl | ⟨1, _⟩ => rfl)
  have er : ridx_main_v62 (ix2 p q) 0 = ix2 0 q :=
    funext fun a => Fin.ext (by match a with | ⟨0, _⟩ => rfl | ⟨1, _⟩ => rfl)
  -- the bias row spread down the rows is read at (0, q)
  have eb : idx_main_v65 (ix2 p q) = ix2 0 q :=
    funext fun a => Fin.ext (by match a with | ⟨0, _⟩ => rfl | ⟨1, _⟩ => rfl)
  rw [val_main_v67_apply, val_main_v66_apply, val_main_v63_apply, val_main_v62_apply, val_main_v65_apply,
    val_main_call3_v0_apply, val_main_call3_cst_apply, Fin.sum_univ_one, el, er, eb]
  rfl

end Cert.ReferenceIdeal.Bridge

end
-- ==== Proof.RUpd.lean ====
/-
  The reference's two update stages (h + aggr, two affine maps with a relu between, the layer norm along a row, relu)
  are the update function (Spec.lean) of the node features, the aggregated messages, the weights and the biases as rows.
-/
import proofs.«429655_j28415503630975_1_alg».proof.Proof.Gen.ReferenceIdeal.Read
import proofs.«429655_j28415503630975_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Idealize.ShloMosaic Idealize.ShloMosaic.ValueIdx
open Cert.ReferenceIdeal Cert.ReferenceIdeal.Read

variable (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S50000, .i32⟩ : BufTy).Contents (Elt Ideal))
  (x4 : (⟨S1x128, .f32⟩ : BufTy).Contents (Elt Ideal)) (x5 : (⟨S128, .f32⟩ : BufTy).Contents (Elt Ideal)) (x6 : (⟨S128x256, .f32⟩ : BufTy).Contents (Elt Ideal)) (x7 : (⟨S256, .f32⟩ : BufTy).Contents (Elt Ideal))
  (x8 : (⟨S256x256, .f32⟩ : BufTy).Contents (Elt Ideal)) (x9 x10 x11 : (⟨S256, .f32⟩ : BufTy).Contents (Elt Ideal)) (x12 : (⟨S1x256, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal)) (x16 : (⟨S256x256, .f32⟩ : BufTy).Contents (Elt Ideal)) (x17 x18 x19 : (⟨S256, .f32⟩ : BufTy).Contents (Elt Ideal))
  (x20 : (⟨S256x128, .f32⟩ : BufTy).Contents (Elt Ideal)) (x21 : (⟨S128, .f32⟩ : BufTy).Contents (Elt Ideal)) (x22 : (⟨S128x1, .f32⟩ : BufTy).Contents (Elt Ideal)) (x23 : (⟨S1, .f32⟩ : BufTy).Contents (Elt Ideal))

/-! ## Layer 0 -/

/-- The hidden activation: the first contraction's operand indices are (p, k) and (k, j), the bias row is read at (0, j), and the
    maximum is against the zero word. -/
private theorem upd0_hidden (p : Fin 50000) (j : Fin 256) :
    val_main_v25 (F := Ideal) x0 x1 x2 x4 x5 x6 x7 (ix2 p j)
      = Cert.Gnn.hidden (Cert.Gnn.zsum x0 (val_main_v19 (F := Ideal) x0 x1 x2 x4 x5)) x6 (val_main_v22 (F := Ideal) x7) (ix2 p j) := by
  rw [val_main_v25_apply, val_main_v24_apply, val_main_v21_apply, val_main_v23_apply, val_main_call1_v0_apply, val_main_call1_cst_apply,
    show idx_main_v23 (ix2 p j) = ix2 (0 : Fin 1) j from funext fun a => Fin.ext (by match a with | ⟨0, _⟩ => rfl | ⟨1, _⟩ => rfl)]
  unfold Cert.Gnn.hidden Cert.Gnn.affineAt Cert.Gnn.zsum
  rw [Ideal.maximumf_def, Ideal.addf_def, Ideal.ofBits_def]
  refine congrArg (fun t => max (t + _) _) (Finset.sum_congr rfl fun k _ => ?_)
  rw [show lidx_main_v21 (ix2 p j) k = ix2 p k from funext fun a => Fin.ext (by match a with | ⟨0, _⟩ => rfl | ⟨1, _⟩ => rfl),
    show ridx_main_v21 (ix2 p j) k = ix2 k j from funext fun a => Fin.ext (by match a with | ⟨0, _⟩ => rfl | ⟨1, _⟩ => rfl)]
  rfl

/-- The second affine map at (p, q): its contraction runs over the hidden activation's row p. -/
private theorem upd0_preNorm (p : Fin 50000) (q : Fin 256) :
    val_main_v29 (F := Ideal) x0 x1 x2 x4 x5 x6 x7 x8 x9 (ix2 p q)
      = Cert.Gnn.preNormAt x0 (val_main_v19 (F := Ideal) x0 x1 x2 x4 x5) x6 (val_main_v22 (F := Ideal) x7) x8 (val_main_v27 (F := Ideal) x9) p q := by
  rw [val_main_v29_apply, val_main_v26_apply, val_main_v28_apply,
    show idx_main_v28 (ix2 p q) = ix2 (0 : Fin 1) q from funext fun a => Fin.ext (by match a with | ⟨0, _⟩ => rfl | ⟨1, _⟩ => rfl)]
  unfold Cert.Gnn.preNormAt Cert.Gnn.affineAt
  rw [Ideal.addf_def]
  refine congrArg (fun t => t + _) (Finset.sum_congr rfl fun k _ => ?_)
  rw [show lidx_main_v26 (ix2 p q) k = ix2 p k from funext fun a => Fin.ext (by match a with | ⟨0, _⟩ => rfl | ⟨1, _⟩ => rfl),
    show ridx_main_v26 (ix2 p q) k = ix2 k q from funext fun a => Fin.ext (by match a with | ⟨0, _⟩ => rfl | ⟨1, _⟩ => rfl),
    upd0_hidden]

/-- The row mean: the row sum starts from the zero word, which is the real 0, and is divided by the word of 256.0. -/
private theorem upd0_mean (p : Fin 50000) (c : Fin 1) :
    val_main_v33 (F := Ideal) x0 x1 x2 x4 x5 x6 x7 x8 x9 (ix2 p c)
      = Cert.Gnn.rowMean x0 (val_main_v19 (F := Ideal) x0 x1 x2 x4 x5) x6 (val_main_v22 (F := Ideal) x7) x8 (val_main_v27 (F := Ideal) x9) p := by
  rw [val_main_v33_apply, val_main_v31_apply, val_main_v32_apply, val_main_cst_2_apply, val_main_v30_apply, val_main_cst_1_apply]
  unfold Cert.Gnn.rowMean
  simp only [Ideal.hostDivf_def, Ideal.ofBits_def, Ideal.ofBits_zero_f32, zero_add]
  refine congrArg (fun t => Ideal.div t _) (Finset.sum_congr rfl fun k _ => ?_)
  rw [show idx_main_v30 (idx_main_v31 (ix2 p c)) k = ix2 p k from funext fun a => Fin.ext (by match a with | ⟨0, _⟩ => rfl | ⟨1, _⟩ => rfl),
    upd0_preNorm]

/-- The row variance: the sum of the squared deviations from the row mean, from the zero word, over the word of 256.0. -/
private theorem upd0_var (p : Fin 50000) (c : Fin 1) :
    val_main_v40 (F := Ideal) x0 x1 x2 x4 x5 x6 x7 x8 x9 (ix2 p c)
      = Cert.Gnn.rowVar x0 (val_main_v19 (F := Ideal) x0 x1 x2 x4 x5) x6 (val_main_v22 (F := Ideal) x7) x8 (val_main_v27 (F := Ideal) x9) p := by
  rw [val_main_v40_apply, val_main_v38_apply, val_main_v39_apply, val_main_cst_4_apply, val_main_v37_apply, val_main_cst_3_apply]
  unfold Cert.Gnn.rowVar
  simp only [Ideal.hostDivf_def, Ideal.ofBits_def, Ideal.ofBits_zero_f32, zero_add]
  refine congrArg (fun t => Ideal.div t _) (Finset.sum_congr rfl fun k _ => ?_)
  rw [show idx_main_v37 (idx_main_v38 (ix2 p c)) k = ix2 p k from funext fun a => Fin.ext (by match a with | ⟨0, _⟩ => rfl | ⟨1, _⟩ => rfl),
    val_main_v36_apply, val_main_v35_apply, val_main_v34_apply,
    show idx_main_v34 (ix2 p k) = ix2 p (0 : Fin 1) from funext fun a => Fin.ext (by match a with | ⟨0, _⟩ => rfl | ⟨1, _⟩ => rfl),
    upd0_preNorm, upd0_mean]
  rfl

/-- Entry (p, q) of the layer's result: the centred entry times the reciprocal root of the variance plus the small word, scaled
    by the gain row, shifted by the offset row, and the maximum against the zero word. -/
private theorem upd0_at (p : Fin 50000) (q : Fin 256) :
    val_main_v54 (F := Ideal) x0 x1 x2 x4 x5 x6 x7 x8 x9 x10 x11 (ix2 p q)
      = Cert.Gnn.updAt x0 (val_main_v19 (F := Ideal) x0 x1 x2 x4 x5) x6 (val_main_v22 (F := Ideal) x7) x8 (val_main_v27 (F := Ideal) x9) (val_main_v48 (F := Ideal) x10) (val_main_v51 (F := Ideal) x11) p q := by
  rw [val_main_v54_apply, val_main_v53_apply, val_main_v52_apply, val_main_v50_apply, val_main_v49_apply, val_main_v47_apply, val_main_v46_apply, val_main_v45_apply, val_main_v44_apply, val_main_v43_apply,
    val_main_cst_5_apply, val_main_v42_apply, val_main_v41_apply, val_main_call2_v0_apply, val_main_call2_cst_apply,
    show idx_main_v52 (ix2 p q) = ix2 (0 : Fin 1) q from funext fun a => Fin.ext (by match a with | ⟨0, _⟩ => rfl | ⟨1, _⟩ => rfl),
    show idx_main_v49 (ix2 p q) = ix2 (0 : Fin 1) q from funext fun a => Fin.ext (by match a with | ⟨0, _⟩ => rfl | ⟨1, _⟩ => rfl),
    show idx_main_v46 (ix2 p q) = ix2 p (0 : Fin 1) from funext fun a => Fin.ext (by match a with | ⟨0, _⟩ => rfl | ⟨1, _⟩ => rfl),
    show idx_main_v41 (ix2 p q) = ix2 p (0 : Fin 1) from funext fun a => Fin.ext (by match a with | ⟨0, _⟩ => rfl | ⟨1, _⟩ => rfl),
    upd0_preNorm, upd0_mean, upd0_var]
  rfl

/-- Layer 0. -/
theorem upd0_ref :
    val_main_v54 (F := Ideal) x0 x1 x2 x4 x5 x6 x7 x8 x9 x10 x11
      = Cert.Gnn.upd x0 (val_main_v19 (F := Ideal) x0 x1 x2 x4 x5) x6 (val_main_v22 (F := Ideal) x7) x8 (val_main_v27 (F := Ideal) x9)
          (val_main_v48 (F := Ideal) x10) (val_main_v51 (F := Ideal) x11) := by
  funext i
  obtain ⟨p, q, rfl⟩ : ∃ p q, i = ix2 p q := ⟨i 0, i 1, eq_ix2 i⟩
  exact upd0_at x0 x1 x2 x4 x5 x6 x7 x8 x9 x10 x11 p q

/-! ## Layer 1 -/

/-- The hidden activation: the first contraction's operand indices are (p, k) and (k, j), the bias row is read at (0, j), and the
    maximum is against the zero word. -/
private theorem upd1_hidden (p : Fin 50000) (j : Fin 256) :
    val_main_v76 (F := Ideal) x0 x1 x2 x4 x5 x6 x7 x8 x9 x10 x11 x12 x13 x14 x15 (ix2 p j)
      = Cert.Gnn.hidden (Cert.Gnn.zsum (val_main_v54 (F := Ideal) x0 x1 x2 x4 x5 x6 x7 x8 x9 x10 x11) (val_main_v70 (F := Ideal) x0 x1 x2 x4 x5 x6 x7 x8 x9 x10 x11 x12 x13)) x14 (val_main_v73 (F := Ideal) x15) (ix2 p j) := by
  rw [val_main_v76_apply, val_main_v75_apply, val_main_v72_apply, val_main_v74_apply, val_main_call4_v0_apply, val_main_call4_cst_apply,
    show idx_main_v74 (ix2 p j) = ix2 (0 : Fin 1) j from funext fun a => Fin.ext (by match a with | ⟨0, _⟩ => rfl | ⟨1, _⟩ => rfl)]
  unfold Cert.Gnn.hidden Cert.Gnn.affineAt Cert.Gnn.zsum
  rw [Ideal.maximumf_def, Ideal.addf_def, Ideal.ofBits_def]
  refine congrArg (fun t => max (t + _) _) (Finset.sum_congr rfl fun k _ => ?_)
  rw [show lidx_main_v72 (ix2 p j) k = ix2 p k from funext fun a => Fin.ext (by match a with | ⟨0, _⟩ => rfl | ⟨1, _⟩ => rfl),
    show ridx_main_v72 (ix2 p j) k = ix2 k j from funext fun a => Fin.ext (by match a with | ⟨0, _⟩ => rfl | ⟨1, _⟩ => rfl)]
  rfl

/-- The second affine map at (p, q): its contraction runs over the hidden activation's row p. -/
private theorem upd1_preNorm (p : Fin 50000) (q : Fin 256) :
    val_main_v80 (F := Ideal) x0 x1 x2 x4 x5 x6 x7 x8 x9 x10 x11 x12 x13 x14 x15 x16 x17 (ix2 p q)
      = Cert.Gnn.preNormAt (val_main_v54 (F := Ideal) x0 x1 x2 x4 x5 x6 x7 x8 x9 x10 x11) (val_main_v70 (F := Ideal) x0 x1 x2 x4 x5 x6 x7 x8 x9 x10 x11 x12 x13) x14 (val_main_v73 (F := Ideal) x15) x16 (val_main_v78 (F := Ideal) x17) p q := by
  rw [val_main_v80_apply, val_main_v77_apply, val_main_v79_apply,
    show idx_main_v79 (ix2 p q) = ix2 (0 : Fin 1) q from funext fun a => Fin.ext (by match a with | ⟨0, _⟩ => rfl | ⟨1, _⟩ => rfl)]
  unfold Cert.Gnn.preNormAt Cert.Gnn.affineAt
  rw [Ideal.addf_def]
  refine congrArg (fun t => t + _) (Finset.sum_congr rfl fun k _ => ?_)
  rw [show lidx_main_v77 (ix2 p q) k = ix2 p k from funext fun a => Fin.ext (by match a with | ⟨0, _⟩ => rfl | ⟨1, _⟩ => rfl),
    show ridx_main_v77 (ix2 p q) k = ix2 k q from funext fun a => Fin.ext (by match a with | ⟨0, _⟩ => rfl | ⟨1, _⟩ => rfl),
    upd1_hidden]

/-- The row mean: the row sum starts from the zero word, which is the real 0, and is divided by the word of 256.0. -/
private theorem upd1_mean (p : Fin 50000) (c : Fin 1) :
    val_main_v84 (F := Ideal) x0 x1 x2 x4 x5 x6 x7 x8 x9 x10 x11 x12 x13 x14 x15 x16 x17 (ix2 p c)
      = Cert.Gnn.rowMean (val_main_v54 (F := Ideal) x0 x1 x2 x4 x5 x6 x7 x8 x9 x10 x11) (val_main_v70 (F := Ideal) x0 x1 x2 x4 x5 x6 x7 x8 x9 x10 x11 x12 x13) x14 (val_main_v73 (F := Ideal) x15) x16 (val_main_v78 (F := Ideal) x17) p := by
  rw [val_main_v84_apply, val_main_v82_apply, val_main_v83_apply, val_main_cst_10_apply, val_main_v81_apply, val_main_cst_9_apply]
  unfold Cert.Gnn.rowMean
  simp only [Ideal.hostDivf_def, Ideal.ofBits_def, Ideal.ofBits_zero_f32, zero_add]
  refine congrArg (fun t => Ideal.div t _) (Finset.sum_congr rfl fun k _ => ?_)
  rw [show idx_main_v81 (idx_main_v82 (ix2 p c)) k = ix2 p k from funext fun a => Fin.ext (by match a with | ⟨0, _⟩ => rfl | ⟨1, _⟩ => rfl),
    upd1_preNorm]

/-- The row variance: the sum of the squared deviations from the row mean, from the zero word, over the word of 256.0. -/
private theorem upd1_var (p : Fin 50000) (c : Fin 1) :
    val_main_v91 (F := Ideal) x0 x1 x2 x4 x5 x6 x7 x8 x9 x10 x11 x12 x13 x14 x15 x16 x17 (ix2 p c)
      = Cert.Gnn.rowVar (val_main_v54 (F := Ideal) x0 x1 x2 x4 x5 x6 x7 x8 x9 x10 x11) (val_main_v70 (F := Ideal) x0 x1 x2 x4 x5 x6 x7 x8 x9 x10 x11 x12 x13) x14 (val_main_v73 (F := Ideal) x15) x16 (val_main_v78 (F := Ideal) x17) p := by
  rw [val_main_v91_apply, val_main_v89_apply, val_main_v90_apply, val_main_cst_12_apply, val_main_v88_apply, val_main_cst_11_apply]
  unfold Cert.Gnn.rowVar
  simp only [Ideal.hostDivf_def, Ideal.ofBits_def, Ideal.ofBits_zero_f32, zero_add]
  refine congrArg (fun t => Ideal.div t _) (Finset.sum_congr rfl fun k _ => ?_)
  rw [show idx_main_v88 (idx_main_v89 (ix2 p c)) k = ix2 p k from funext fun a => Fin.ext (by match a with | ⟨0, _⟩ => rfl | ⟨1, _⟩ => rfl),
    val_main_v87_apply, val_main_v86_apply, val_main_v85_apply,
    show idx_main_v85 (ix2 p k) = ix2 p (0 : Fin 1) from funext fun a => Fin.ext (by match a with | ⟨0, _⟩ => rfl | ⟨1, _⟩ => rfl),
    upd1_preNorm, upd1_mean]
  rfl

/-- Entry (p, q) of the layer's result: the centred entry times the reciprocal root of the variance plus the small word, scaled
    by the gain row, shifted by the offset row, and the maximum against the zero word. -/
private theorem upd1_at (p : Fin 50000) (q : Fin 256) :
    val_main_v105 (F := Ideal) x0 x1 x2 x4 x5 x6 x7 x8 x9 x10 x11 x12 x13 x14 x15 x16 x17 x18 x19 (ix2 p q)
      = Cert.Gnn.updAt (val_main_v54 (F := Ideal) x0 x1 x2 x4 x5 x6 x7 x8 x9 x10 x11) (val_main_v70 (F := Ideal) x0 x1 x2 x4 x5 x6 x7 x8 x9 x10 x11 x12 x13) x14 (val_main_v73 (F := Ideal) x15) x16 (val_main_v78 (F := Ideal) x17) (val_main_v99 (F := Ideal) x18) (val_main_v102 (F := Ideal) x19) p q := by
  rw [val_main_v105_apply, val_main_v104_apply, val_main_v103_apply, val_main_v101_apply, val_main_v100_apply, val_main_v98_apply, val_main_v97_apply, val_main_v96_apply, val_main_v95_apply, val_main_v94_apply,
    val_main_cst_13_apply, val_main_v93_apply, val_main_v92_apply, val_main_call5_v0_apply, val_main_call5_cst_apply,
    show idx_main_v103 (ix2 p q) = ix2 (0 : Fin 1) q from funext fun a => Fin.ext (by match a with | ⟨0, _⟩ => rfl | ⟨1, _⟩ => rfl),
    show idx_main_v100 (ix2 p q) = ix2 (0 : Fin 1) q from funext fun a => Fin.ext (by match a with | ⟨0, _⟩ => rfl | ⟨1, _⟩ => rfl),
    show idx_main_v97 (ix2 p q) = ix2 p (0 : Fin 1) from funext fun a => Fin.ext (by match a with | ⟨0, _⟩ => rfl | ⟨1, _⟩ => rfl),
    show idx_main_v92 (ix2 p q) = ix2 p (0 : Fin 1) from funext fun a => Fin.ext (by match a with | ⟨0, _⟩ => rfl | ⟨1, _⟩ => rfl),
    upd1_preNorm, upd1_mean, upd1_var]
  rfl

/-- Layer 1. -/
theorem upd1_ref :
    val_main_v105 (F := Ideal) x0 x1 x2 x4 x5 x6 x7 x8 x9 x10 x11 x12 x13 x14 x15 x16 x17 x18 x19
      = Cert.Gnn.upd (val_main_v54 (F := Ideal) x0 x1 x2 x4 x5 x6 x7 x8 x9 x10 x11) (val_main_v70 (F := Ideal) x0 x1 x2 x4 x5 x6 x7 x8 x9 x10 x11 x12 x13) x14 (val_main_v73 (F := Ideal) x15) x16
          (val_main_v78 (F := Ideal) x17) (val_main_v99 (F := Ideal) x18) (val_main_v102 (F := Ideal) x19) := by
  funext i
  obtain ⟨p, q, rfl⟩ : ∃ p q, i = ix2 p q := ⟨i 0, i 1, eq_ix2 i⟩
  exact upd1_at x0 x1 x2 x4 x5 x6 x7 x8 x9 x10 x11 x12 x13 x14 x15 x16 x17 x18 x19 p q

end Cert.ReferenceIdeal.Bridge

end
-- ==== Proof.RHead.lean ====
/-
  The reference's two read-out heads are the head function (Spec.lean) of their input rows, the two weight matrices and
  the biases as rows.
-/
import proofs.«429655_j28415503630975_1_alg».proof.Proof.Gen.ReferenceIdeal.Read
import proofs.«429655_j28415503630975_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Bridge

open Idealize.ShloMosaic Idealize.ShloMosaic.ValueIdx
open Cert.ReferenceIdeal Cert.ReferenceIdeal.Read

variable (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S50000, .i32⟩ : BufTy).Contents (Elt Ideal))
  (x4 : (⟨S1x128, .f32⟩ : BufTy).Contents (Elt Ideal)) (x5 : (⟨S128, .f32⟩ : BufTy).Contents (Elt Ideal)) (x6 : (⟨S128x256, .f32⟩ : BufTy).Contents (Elt Ideal)) (x7 : (⟨S256, .f32⟩ : BufTy).Contents (Elt Ideal))
  (x8 : (⟨S256x256, .f32⟩ : BufTy).Contents (Elt Ideal)) (x9 x10 x11 : (⟨S256, .f32⟩ : BufTy).Contents (Elt Ideal)) (x12 : (⟨S1x256, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal)) (x16 : (⟨S256x256, .f32⟩ : BufTy).Contents (Elt Ideal)) (x17 x18 x19 : (⟨S256, .f32⟩ : BufTy).Contents (Elt Ideal))
  (x20 : (⟨S256x128, .f32⟩ : BufTy).Contents (Elt Ideal)) (x21 : (⟨S128, .f32⟩ : BufTy).Contents (Elt Ideal)) (x22 : (⟨S128x1, .f32⟩ : BufTy).Contents (Elt Ideal)) (x23 : (⟨S1, .f32⟩ : BufTy).Contents (Elt Ideal))

/-- The head function from its two stages read at a point: a hidden array that is, entry by entry, the relu of the first
    affine map, and an output that is the second affine map of it (the last bias read at its one entry). -/
theorem head_eq_of {n H K : Nat} (h : Cert.Gnn.Mat n H) (v1 : Cert.Gnn.Mat H K) (c1 : Cert.Gnn.Mat 1 K)
    (v2 : Cert.Gnn.Mat K 1) (c2 : Cert.Gnn.Mat 1 1) (hid : Cert.Gnn.Mat n K) (out : Cert.Gnn.Mat n 1)
    (hhid : ∀ (p : Fin n) (k : Fin K),
      hid (ix2 p k) = max ((∑ k' : Fin H, h (ix2 p k') * v1 (ix2 k' k)) + c1 (ix2 0 k)) Cert.Gnn.w0)
    (hout : ∀ (p : Fin n) (q : Fin 1), out (ix2 p q) = (∑ k : Fin K, hid (ix2 p k) * v2 (ix2 k q)) + c2 (ix2 0 0)) :
    out = Cert.Gnn.head h v1 c1 v2 c2 := by
  funext i
  obtain ⟨p, q, rfl⟩ : ∃ p q, i = ix2 p q := ⟨i 0, i 1, eq_ix2 i⟩
  obtain rfl : q = 0 := Subsingleton.elim _ _
  rw [hout]
  show _ = (∑ k : Fin K, Cert.Gnn.hidden h v1 c1 (ix2 p k) * v2 (ix2 k 0)) + c2 (ix2 0 0)
  congr 1
  refine Finset.sum_congr rfl fun k _ => ?_
  rw [hhid]
  rfl

/-- The per-node head. -/
theorem head0_ref :
    val_main_v114 (F := Ideal) x0 x1 x2 x4 x5 x6 x7 x8 x9 x10 x11 x12 x13 x14 x15 x16 x17 x18 x19 x20 x21 x22 x23
      = Cert.Gnn.head (val_main_v105 (F := Ideal) x0 x1 x2 x4 x5 x6 x7 x8 x9 x10 x11 x12 x13 x14 x15 x16 x17 x18 x19) x20 (val_main_v107 (F := Ideal) x21) x22 (val_main_v112 (F := Ideal) x23) := by
  refine head_eq_of (n := _) (H := 256) (K := 128) _ _ _ _ _
    (val_main_v110 (F := Ideal) x0 x1 x2 x4 x5 x6 x7 x8 x9 x10 x11 x12 x13 x14 x15 x16 x17 x18 x19 x20 x21) _ (fun p k => ?_) (fun p q => ?_)
  · -- the hidden stage at (p, k): the first product's entry plus the bias entry, against the zero word
    rw [val_main_v110_apply, val_main_v109_apply, val_main_v106_apply, val_main_v108_apply,
      val_main_call6_v0_apply, val_main_call6_cst_apply]
    have e1 : ∀ k' : Fin 256, lidx_main_v106 (ix2 p k) k' = ix2 p k' := fun k' =>
      funext fun a => Fin.ext (by match a with | ⟨0, _⟩ => rfl | ⟨1, _⟩ => rfl)
    have e2 : ∀ k' : Fin 256, ridx_main_v106 (ix2 p k) k' = ix2 k' k := fun k' =>
      funext fun a => Fin.ext (by match a with | ⟨0, _⟩ => rfl | ⟨1, _⟩ => rfl)
    have e3 : idx_main_v108 (ix2 p k) = ix2 0 k :=
      funext fun a => Fin.ext (by match a with | ⟨0, _⟩ => rfl | ⟨1, _⟩ => rfl)
    have es : (∑ k' : Fin 256, val_main_v105 (F := Ideal) x0 x1 x2 x4 x5 x6 x7 x8 x9 x10 x11 x12 x13 x14 x15 x16 x17 x18 x19 (lidx_main_v106 (ix2 p k) k')
          * x20 (ridx_main_v106 (ix2 p k) k'))
        = ∑ k' : Fin 256, val_main_v105 (F := Ideal) x0 x1 x2 x4 x5 x6 x7 x8 x9 x10 x11 x12 x13 x14 x15 x16 x17 x18 x19 (ix2 p k') * x20 (ix2 k' k) :=
      Finset.sum_congr rfl fun k' _ => by rw [e1 k', e2 k']
    rw [es, e3]
    rfl
  · -- the output at (p, q): the second product's entry plus the one bias entry
    rw [val_main_v114_apply, val_main_v111_apply, val_main_v113_apply]
    have e1 : ∀ k : Fin 128, lidx_main_v111 (ix2 p q) k = ix2 p k := fun k =>
      funext fun a => Fin.ext (by match a with | ⟨0, _⟩ => rfl | ⟨1, _⟩ => rfl)
    have e2 : ∀ k : Fin 128, ridx_main_v111 (ix2 p q) k = ix2 k q := fun k =>
      funext fun a => Fin.ext (by match a with | ⟨0, _⟩ => rfl | ⟨1, _⟩ => rfl)
    have e3 : idx_main_v113 (ix2 p q) = ix2 0 0 :=
      funext fun a => Fin.ext (by match a with | ⟨0, _⟩ => rfl | ⟨1, _⟩ => rfl)
    have es : (∑ k : Fin 128, val_main_v110 (F := Ideal) x0 x1 x2 x4 x5 x6 x7 x8 x9 x10 x11 x12 x13 x14 x15 x16 x17 x18 x19 x20 x21 (lidx_main_v111 (ix2 p q) k)
          * x22 (ridx_main_v111 (ix2 p q) k))
        = ∑ k : Fin 128, val_main_v110 (F := Ideal) x0 x1 x2 x4 x5 x6 x7 x8 x9 x10 x11 x12 x13 x14 x15 x16 x17 x18 x19 x20 x21 (ix2 p k) * x22 (ix2 k q) :=
      Finset.sum_congr rfl fun k _ => by rw [e1 k, e2 k]
    rw [es, e3]
    rfl

/-- The per-graph head (before the final reshape to a vector). -/
theorem head1_ref :
    val_main_v135 (F := Ideal) x0 x1 x2 x3 x4 x5 x6 x7 x8 x9 x10 x11 x12 x13 x14 x15 x16 x17 x18 x19 x20 x21 x22 x23
      = Cert.Gnn.head (val_main_v126 (F := Ideal) x0 x1 x2 x3 x4 x5 x6 x7 x8 x9 x10 x11 x12 x13 x14 x15 x16 x17 x18 x19) x20
          (val_main_v128 (F := Ideal) x21) x22 (val_main_v133 (F := Ideal) x23) := by
  refine head_eq_of (n := _) (H := 256) (K := 128) _ _ _ _ _
    (val_main_v131 (F := Ideal) x0 x1 x2 x3 x4 x5 x6 x7 x8 x9 x10 x11 x12 x13 x14 x15 x16 x17 x18 x19 x20 x21) _ (fun p k => ?_) (fun p q => ?_)
  · -- the hidden stage at (p, k): the first product's entry plus the bias entry, against the zero word
    rw [val_main_v131_apply, val_main_v130_apply, val_main_v127_apply, val_main_v129_apply,
      val_main_call7_v0_apply, val_main_call7_cst_apply]
    have e1 : ∀ k' : Fin 256, lidx_main_v127 (ix2 p k) k' = ix2 p k' := fun k' =>
      funext fun a => Fin.ext (by match a with | ⟨0, _⟩ => rfl | ⟨1, _⟩ => rfl)
    have e2 : ∀ k' : Fin 256, ridx_main_v127 (ix2 p k) k' = ix2 k' k := fun k' =>
      funext fun a => Fin.ext (by match a with | ⟨0, _⟩ => rfl | ⟨1, _⟩ => rfl)
    have e3 : idx_main_v129 (ix2 p k) = ix2 0 k :=
      funext fun a => Fin.ext (by match a with | ⟨0, _⟩ => rfl | ⟨1, _⟩ => rfl)
    have es : (∑ k' : Fin 256, val_main_v126 (F := Ideal) x0 x1 x2 x3 x4 x5 x6 x7 x8 x9 x10 x11 x12 x13 x14 x15 x16 x17 x18 x19 (lidx_main_v127 (ix2 p k) k')
          * x20 (ridx_main_v127 (ix2 p k) k'))
        = ∑ k' : Fin 256, val_main_v126 (F := Ideal) x0 x1 x2 x3 x4 x5 x6 x7 x8 x9 x10 x11 x12 x13 x14 x15 x16 x17 x18 x19 (ix2 p k') * x20 (ix2 k' k) :=
      Finset.sum_congr rfl fun k' _ => by rw [e1 k', e2 k']
    rw [es, e3]
    rfl
  · -- the output at (p, q): the second product's entry plus the one bias entry
    rw [val_main_v135_apply, val_main_v132_apply, val_main_v134_apply]
    have e1 : ∀ k : Fin 128, lidx_main_v132 (ix2 p q) k = ix2 p k := fun k =>
      funext fun a => Fin.ext (by match a with | ⟨0, _⟩ => rfl | ⟨1, _⟩ => rfl)
    have e2 : ∀ k : Fin 128, ridx_main_v132 (ix2 p q) k = ix2 k q := fun k =>
      funext fun a => Fin.ext (by match a with | ⟨0, _⟩ => rfl | ⟨1, _⟩ => rfl)
    have e3 : idx_main_v134 (ix2 p q) = ix2 0 0 :=
      funext fun a => Fin.ext (by match a with | ⟨0, _⟩ => rfl | ⟨1, _⟩ => rfl)
    have es : (∑ k : Fin 128, val_main_v131 (F := Ideal) x0 x1 x2 x3 x4 x5 x6 x7 x8 x9 x10 x11 x12 x13 x14 x15 x16 x17 x18 x19 x20 x21 (lidx_main_v132 (ix2 p q) k)
          * x22 (ridx_main_v132 (ix2 p q) k))
        = ∑ k : Fin 128, val_main_v131 (F := Ideal) x0 x1 x2 x3 x4 x5 x6 x7 x8 x9 x10 x11 x12 x13 x14 x15 x16 x17 x18 x19 x20 x21 (ix2 p k) * x22 (ix2 k q) :=
      Finset.sum_congr rfl fun k _ => by rw [e1 k, e2 k]
    rw [es, e3]
    rfl

end Cert.ReferenceIdeal.Bridge

end
-- ==== Proof.Bridge.lean ====
/-
  The kernel program's two result terms (KDefs.lean) against the reference's last stages. Both are the same composition:
  the message function of the gathered source rows, the scatter-add into destination rows, the update function, twice,
  then the read-out head — per node, and per graph after the per-graph mean. The reference spells a bias row as a
  broadcast where the kernel program reshapes, and gathers rows plainly where the kernel program gathers in fill mode;
  in range (SrcOk) the two gathers agree, and the rest is the same operations on equal operands.
-/
import proofs.«429655_j28415503630975_1_alg».proof.Proof.Gen.KernelIdeal
import proofs.«429655_j28415503630975_1_alg».proof.Proof.KDefs
import proofs.«429655_j28415503630975_1_alg».proof.Proof.Take
import proofs.«429655_j28415503630975_1_alg».proof.Proof.RMsg
import proofs.«429655_j28415503630975_1_alg».proof.Proof.RUpd
import proofs.«429655_j28415503630975_1_alg».proof.Proof.RHead
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx
open Cert.KernelIdeal.Chain Cert.ReferenceIdeal.Read Cert.ReferenceIdeal.Bridge

/-- A vector reshaped to a one-row matrix is the vector broadcast along a new leading unit axis: both read entry
    (0, i) at the vector's entry i. -/
theorem row_eq {d : Nat} (b : FVec Ideal (⟨1, ![d]⟩ : Shape) .f32)
    (h₁ : (⟨1, ![d]⟩ : Shape).ShapeCasts (⟨2, ![1, d]⟩ : Shape))
    (h₂ : (⟨1, ![d]⟩ : Shape).BroadcastsInDim (⟨2, ![1, d]⟩ : Shape) ![1]) :
    shapeCast (⟨2, ![1, d]⟩ : Shape) b h₁ = broadcastInDim (⟨2, ![1, d]⟩ : Shape) ![1] h₂ b := by
  funext j
  obtain ⟨u, i, rfl⟩ : ∃ (u : Fin 1) (i : Fin d), j = ix2 u i := ⟨j 0, j 1, eq_ix2 j⟩
  rw [shapeCast_a_1a_apply]
  symm
  refine broadcastInDim_apply _ h₂ b _ (ix1 i) (fun a => ?_)
  match a with
  | ⟨0, _⟩ =>
    show i.val = if d = 1 then 0 else i.val
    have := i.isLt
    split <;> omega

variable (a0 : FVec Ideal Cert.KernelIdeal.S50000x128 .f32) (a1 : IVec Cert.KernelIdeal.S2x800000 32)
  (a2 : FVec Ideal Cert.KernelIdeal.S800000x1 .f32) (a3 : IVec Cert.KernelIdeal.S50000 32)
  (a4 : FVec Ideal Cert.KernelIdeal.S1x128 .f32) (a5 : FVec Ideal Cert.KernelIdeal.S128 .f32)
  (a6 : FVec Ideal Cert.KernelIdeal.S128x256 .f32) (a7 : FVec Ideal Cert.KernelIdeal.S256 .f32)
  (a8 : FVec Ideal Cert.KernelIdeal.S256x256 .f32) (a9 a10 a11 : FVec Ideal Cert.KernelIdeal.S256 .f32)
  (a12 : FVec Ideal Cert.KernelIdeal.S1x256 .f32) (a13 : FVec Ideal Cert.KernelIdeal.S256 .f32)
  (a14 : FVec Ideal Cert.KernelIdeal.S256x256 .f32) (a15 : FVec Ideal Cert.KernelIdeal.S256 .f32)
  (a16 : FVec Ideal Cert.KernelIdeal.S256x256 .f32) (a17 a18 a19 : FVec Ideal Cert.KernelIdeal.S256 .f32)
  (a20 : FVec Ideal Cert.KernelIdeal.S256x128 .f32) (a21 : FVec Ideal Cert.KernelIdeal.S128 .f32)
  (a22 : FVec Ideal Cert.KernelIdeal.S128x1 .f32) (a23 : FVec Ideal Cert.KernelIdeal.S1 .f32)

/-- A 128-entry bias as a row: the kernel program's reshape is the reference's broadcast. -/
theorem row128 (b : FVec Ideal Cert.KernelIdeal.S128 .f32) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b :=
  row_eq b _ _

/-- A 256-entry bias as a row. -/
theorem row256 (b : FVec Ideal Cert.KernelIdeal.S256 .f32) :
    shapeCast Cert.KernelIdeal.S1x256 b Cert.KernelIdeal.Facts₀.shapeCasts_S256_S1x256
      = broadcastInDim Cert.ReferenceIdeal.S1x256 ![1] Cert.ReferenceIdeal.Facts₀.bcast_S256_S1x256_1 b :=
  row_eq b _ _

/-- The scalar bias of the head's second map as a one-entry row. -/
theorem row1 (b : FVec Ideal Cert.KernelIdeal.S1 .f32) :
    shapeCast Cert.KernelIdeal.S1x1 b Cert.KernelIdeal.Facts₀.shapeCasts_S1_S1x1
      = broadcastInDim Cert.ReferenceIdeal.S1x1 ![1] Cert.ReferenceIdeal.Facts₀.bcast_S1_S1x1_1 b :=
  row_eq b _ _

/-! ## The first layer -/

/-- In range the kernel program's fill-mode gather of the input features is the reference's gather. -/
theorem gather0_eq (h : SrcOk a1) : take128 a0 (srcOf a1) = val_main_v10 (F := Ideal) a0 a1 :=
  (take128_eq_gather a0 a1 h).trans rfl

/-- The first layer's messages. -/
theorem msg0_eq (h : SrcOk a1) :
    Cert.Gnn.msg (take128 a0 (srcOf a1)) a2 a4 (shapeCast Cert.KernelIdeal.S1x128 a5 Cert.KernelIdeal.Facts₀.shapeCasts_S128_S1x128)
      = val_main_v16 (F := Ideal) a0 a1 a2 a4 a5 := by
  rw [msg0_ref, gather0_eq a0 a1 h, row128 a5]
  rfl

/-- The first layer: the kernel program's term is the reference's stage. -/
theorem layer1_eq (h : SrcOk a1) :
    layer1 a0 a1 a2 a4 a5 a6 a7 a8 a9 a10 a11 = val_main_v54 (F := Ideal) a0 a1 a2 a4 a5 a6 a7 a8 a9 a10 a11 := by
  rw [upd0_ref]
  unfold layer1
  rw [msg0_eq a0 a1 a2 a4 a5 h, row256 a7, row256 a9, row256 a10, row256 a11]
  rfl

/-! ## The second layer -/

/-- In range the fill-mode gather of the first layer's features is the reference's gather. -/
theorem gather1_eq (h : SrcOk a1) :
    take256 (layer1 a0 a1 a2 a4 a5 a6 a7 a8 a9 a10 a11) (srcOf a1) = val_main_v61 (F := Ideal) a0 a1 a2 a4 a5 a6 a7 a8 a9 a10 a11 := by
  rw [take256_eq_gather _ a1 h, layer1_eq a0 a1 a2 a4 a5 a6 a7 a8 a9 a10 a11 h]
  rfl

/-- The second layer's messages. -/
theorem msg1_eq (h : SrcOk a1) :
    Cert.Gnn.msg (take256 (layer1 a0 a1 a2 a4 a5 a6 a7 a8 a9 a10 a11) (srcOf a1)) a2 a12
        (shapeCast Cert.KernelIdeal.S1x256 a13 Cert.KernelIdeal.Facts₀.shapeCasts_S256_S1x256)
      = val_main_v67 (F := Ideal) a0 a1 a2 a4 a5 a6 a7 a8 a9 a10 a11 a12 a13 := by
  rw [msg1_ref, gather1_eq a0 a1 a2 a4 a5 a6 a7 a8 a9 a10 a11 h, row256 a13]
  rfl

/-- The second layer. -/
theorem layer2_eq (h : SrcOk a1) :
    layer2 a0 a1 a2 a4 a5 a6 a7 a8 a9 a10 a11 a12 a13 a14 a15 a16 a17 a18 a19 = val_main_v105 (F := Ideal) a0 a1 a2 a4 a5 a6 a7 a8 a9 a10 a11 a12 a13 a14 a15 a16 a17 a18 a19 := by
  rw [upd1_ref]
  unfold layer2
  rw [msg1_eq a0 a1 a2 a4 a5 a6 a7 a8 a9 a10 a11 a12 a13 h, layer1_eq a0 a1 a2 a4 a5 a6 a7 a8 a9 a10 a11 h, row256 a15, row256 a17, row256 a18, row256 a19]
  rfl

/-! ## The two results -/

/-- The per-node logits. -/
theorem node_eq (h : SrcOk a1) :
    nodeOut a0 a1 a2 a4 a5 a6 a7 a8 a9 a10 a11 a12 a13 a14 a15 a16 a17 a18 a19 a20 a21 a22 a23 = val_main_v114 (F := Ideal) a0 a1 a2 a4 a5 a6 a7 a8 a9 a10 a11 a12 a13 a14 a15 a16 a17 a18 a19 a20 a21 a22 a23 := by
  rw [head0_ref]
  unfold nodeOut
  rw [layer2_eq a0 a1 a2 a4 a5 a6 a7 a8 a9 a10 a11 a12 a13 a14 a15 a16 a17 a18 a19 h, row128 a21, row1 a23]
  rfl

/-- The per-graph logits. -/
theorem graph_eq (h : SrcOk a1) :
    graphOut a0 a1 a2 a3 a4 a5 a6 a7 a8 a9 a10 a11 a12 a13 a14 a15 a16 a17 a18 a19 a20 a21 a22 a23 = val_main_v136 (F := Ideal) a0 a1 a2 a3 a4 a5 a6 a7 a8 a9 a10 a11 a12 a13 a14 a15 a16 a17 a18 a19 a20 a21 a22 a23 := by
  unfold graphOut val_main_v136
  rw [head1_ref, layer2_eq a0 a1 a2 a4 a5 a6 a7 a8 a9 a10 a11 a12 a13 a14 a15 a16 a17 a18 a19 h, row128 a21, row1 a23]
  rfl

end Cert.Bridge

end
-- ==== Proof.lean ====
/-
  A two-layer message-passing network on a graph of 50000 nodes and 800000 edges, with a per-node and a per-graph
  read-out. Per layer: gather each edge's source row, add the edge attribute times a weight row and a bias, relu
  (the message); sum the messages into their destination rows; add the node's own row, apply two affine maps with a
  relu between, normalise each row (mean and variance over its 256 entries, rsqrt of the variance plus a small word),
  scale, shift, relu. The kernel program launches the message, the update and the read-out as row-blocked regions and
  leaves the gather, the scatter-adds and the per-graph mean on the host; the reference does everything on the host.

  Over the extended reals the two programs compute the same function operation by operation: a change of float format
  is the identity, a matrix product into a zero accumulator is the host's contraction, a lane sum is the host's sum,
  and each region's row blocks tile its output. The one difference is the gather: the kernel program's fills the row of
  an out-of-range index with a fixed word where the reference's clamps the index; the precondition keeps every source
  index in [0, 50000), where the two agree. No other property of the inputs is used.

  The frames of the two kernel programs are the generated ones; the reference's frame is its generated run with the
  results dropped; the ideal pass changed nothing, so there is nothing to preserve.
-/
import proofs.«429655_j28415503630975_1_alg».proof.Defs
import proofs.«429655_j28415503630975_1_alg».proof.Proof.Gen.Kernel
import proofs.«429655_j28415503630975_1_alg».proof.Proof.Gen.Kernel.Frame
import proofs.«429655_j28415503630975_1_alg».proof.Proof.Gen.KernelIdeal
import proofs.«429655_j28415503630975_1_alg».proof.Proof.Gen.KernelIdeal.Frame
import proofs.«429655_j28415503630975_1_alg».proof.Proof.Gen.ReferenceIdeal
import proofs.«429655_j28415503630975_1_alg».proof.Proof.Gen.ReferenceIdeal.Run
import proofs.«429655_j28415503630975_1_alg».proof.Proof.Gen.ReferenceIdeal.Read
import proofs.«429655_j28415503630975_1_alg».proof.Proof.Gen.Pre_finite_inputs
import proofs.«429655_j28415503630975_1_alg».proof.Proof.KernelRun
import proofs.«429655_j28415503630975_1_alg».proof.Proof.KChain3
import proofs.«429655_j28415503630975_1_alg».proof.Proof.Take
import proofs.«429655_j28415503630975_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- From memories that agree on the arguments both programs end with the same two results: the kernel program's
    result buffers hold its two result terms of the arguments, the reference's its two last stages, and in range the
    terms are equal. -/
theorem algebraic : Cert.algebraic_KernelIdeal_ReferenceIdeal := by
  intro m ρ m' ρ' hpre hagree
  refine ⟨fun c => Cert.KernelIdeal.Chain.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    fun c => Cert.KernelIdeal.Chain.graphOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.Chain.node_value m ρ c),
        (h c).2.1.trans (Cert.KernelIdeal.Chain.graph_value m ρ c), (h c).2.2⟩)
      (Cert.KernelIdeal.RunValue.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · have hs := Cert.KernelIdeal.Chain.srcOk_of_pre m hpre c
      obtain ⟨e0, e1, e2, e3, e4, e5, e6, e7, e8, e9, e10, e11, e12, e13, e14, e15, e16, e17, e18, e19, e20, e21, e22, e23⟩ := hagree c
      rw [Cert.ReferenceIdeal.Read.val_main_v114_eq, e0, e1, e2, e4, e5, e6, e7, e8, e9, e10, e11, e12, e13, e14, e15, e16, e17, e18, e19, e20, e21, e22, e23]
      exact (Cert.Bridge.node_eq _ _ _ _ _ _ _ _ _ _ _ _ _ _ _ _ _ _ _ _ _ _ _ hs).symm
    · have hs := Cert.KernelIdeal.Chain.srcOk_of_pre m hpre c
      obtain ⟨e0, e1, e2, e3, e4, e5, e6, e7, e8, e9, e10, e11, e12, e13, e14, e15, e16, e17, e18, e19, e20, e21, e22, e23⟩ := hagree c
      rw [Cert.ReferenceIdeal.Read.val_main_v136_eq, e0, e1, e2, e3, e4, e5, e6, e7, e8, e9, e10, e11, e12, e13, e14, e15, e16, e17, e18, e19, e20, e21, e22, e23]
      exact (Cert.Bridge.graph_eq _ _ _ _ _ _ _ _ _ _ _ _ _ _ _ _ _ _ _ _ _ _ _ _ hs).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
